-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S50257x1024 : Shape := ⟨2, ![50257, 1024]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : IVec S4x4096 32) (main_arg1 : FVec F S50257x1024 .f32) : IVec S_ 1 :=
  let main_v0 : FVec F S50257x1024 .f32 := Host.absf main_arg1
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_c_0 : IVec S_ 32 := constantI S_ 32 0#32
  let main_v4 : IVec S4x4096 32 := broadcastInDim S4x4096 ![] bcast_S_S4x4096 main_c_0
  let main_v5 : IVec S4x4096 1 := cmpi .sge main_arg0 main_v4
  let main_c_1 : IVec S_ 32 := constantI S_ 32 50257#32
  let main_v6 : IVec S4x4096 32 := broadcastInDim S4x4096 ![] bcast_S_S4x4096 main_c_1
  let main_v7 : IVec S4x4096 1 := cmpi .slt main_arg0 main_v6
  let main_v8 : IVec S4x4096 1 := andi main_v5 main_v7
  let main_c_2 : IVec S_ 1 := constantI S_ 1 1#1
  let main_v9 : IVec S_ 1 := (fun x v => Host.reduce IntOp.andi x v reducesTo_S4x4096_S_d0_1 h_S_) main_v8 main_c_2
  let main_v10 : IVec S_ 1 := andi main_v3 main_v9
  main_v10
-- ==== Kernel.lean ====
abbrev S4x4096 : Shape := ⟨2, ![4, 4096]⟩
abbrev S50257x1024 : Shape := ⟨2, ![50257, 1024]⟩
abbrev S16384 : Shape := ⟨1, ![16384]⟩
abbrev S16384x1024 : Shape := ⟨2, ![16384, 1024]⟩
abbrev S128x1024 : Shape := ⟨2, ![128, 1024]⟩
abbrev S16 : Shape := ⟨1, ![16]⟩
abbrev S1 : Shape := ⟨1, ![1]⟩
abbrev S_ : Shape := ⟨0, ![]⟩
abbrev S1x1024 : Shape := ⟨2, ![1, 1024]⟩
abbrev S1024 : Shape := ⟨1, ![1024]⟩
abbrev S4x4096x1024 : Shape := ⟨3, ![4, 4096, 1024]⟩

abbrev nBuf : Space → Nat
  | .hbm => 4
  | .vmem => 2
  | .smem => 1
  | _ => 0

abbrev bufTy : (tb : Table) → Fin (tcTables nBuf tb) → BufTy
  | .hbm, ⟨0, _⟩ => ⟨S4x4096, .i32⟩
  | .hbm, ⟨1, _⟩ => ⟨S50257x1024, .f32⟩
  | .hbm, ⟨2, _⟩ => ⟨S16384x1024, .f32⟩
  | .hbm, ⟨3, _⟩ => ⟨S4x4096x1024, .f32⟩
  | .local _ .vmem, ⟨0, _⟩ => ⟨S128x1024, .f32⟩
  | .local _ .vmem, ⟨1, _⟩ => ⟨S128x1024, .f32⟩
  | .local _ .smem, ⟨0, _⟩ => ⟨S16384, .i32⟩
  | _, _ => ⟨S4x4096, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_chk1 (v3 : BitVec 32) : Prop :=
  (∀ a, (k0_off2 v3) a + S1x1024.size a ≤ S50257x1024.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1024.size a ≤ S50257x1024.size a := fun v3 k0_hw1 => k0_hw1

def k0_off3 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_chk2 (v12 : BitVec 32) : Prop :=
  (∀ a, (k0_off4 v12) a + S1x1024.size a ≤ S50257x1024.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x1024.size a ≤ S50257x1024.size a := fun v12 k0_hw2 => k0_hw2

def k0_off5 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_chk3 (v21 : BitVec 32) : Prop :=
  (∀ a, (k0_off6 v21) a + S1x1024.size a ≤ S50257x1024.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x1024.size a ≤ S50257x1024.size a := fun v21 k0_hw3 => k0_hw3

def k0_off7 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_chk4 (v30 : BitVec 32) : Prop :=
  (∀ a, (k0_off8 v30) a + S1x1024.size a ≤ S50257x1024.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x1024.size a ≤ S50257x1024.size a := fun v30 k0_hw4 => k0_hw4

def k0_off9 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_chk5 (v39 : BitVec 32) : Prop :=
  (∀ a, (k0_off10 v39) a + S1x1024.size a ≤ S50257x1024.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x1024.size a ≤ S50257x1024.size a := fun v39 k0_hw5 => k0_hw5

def k0_off11 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_chk6 (v48 : BitVec 32) : Prop :=
  (∀ a, (k0_off12 v48) a + S1x1024.size a ≤ S50257x1024.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x1024.size a ≤ S50257x1024.size a := fun v48 k0_hw6 => k0_hw6

def k0_off13 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_chk7 (v57 : BitVec 32) : Prop :=
  (∀ a, (k0_off14 v57) a + S1x1024.size a ≤ S50257x1024.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x1024.size a ≤ S50257x1024.size a := fun v57 k0_hw7 => k0_hw7

def k0_off15 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_chk8 (v66 : BitVec 32) : Prop :=
  (∀ a, (k0_off16 v66) a + S1x1024.size a ≤ S50257x1024.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x1024.size a ≤ S50257x1024.size a := fun v66 k0_hw8 => k0_hw8

def k0_off17 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_chk9 (v75 : BitVec 32) : Prop :=
  (∀ a, (k0_off18 v75) a + S1x1024.size a ≤ S50257x1024.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x1024.size a ≤ S50257x1024.size a := fun v75 k0_hw9 => k0_hw9

def k0_off19 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_chk10 (v84 : BitVec 32) : Prop :=
  (∀ a, (k0_off20 v84) a + S1x1024.size a ≤ S50257x1024.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x1024.size a ≤ S50257x1024.size a := fun v84 k0_hw10 => k0_hw10

def k0_off21 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_chk11 (v93 : BitVec 32) : Prop :=
  (∀ a, (k0_off22 v93) a + S1x1024.size a ≤ S50257x1024.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x1024.size a ≤ S50257x1024.size a := fun v93 k0_hw11 => k0_hw11

def k0_off23 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_chk12 (v102 : BitVec 32) : Prop :=
  (∀ a, (k0_off24 v102) a + S1x1024.size a ≤ S50257x1024.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x1024.size a ≤ S50257x1024.size a := fun v102 k0_hw12 => k0_hw12

def k0_off25 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_chk13 (v111 : BitVec 32) : Prop :=
  (∀ a, (k0_off26 v111) a + S1x1024.size a ≤ S50257x1024.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x1024.size a ≤ S50257x1024.size a := fun v111 k0_hw13 => k0_hw13

def k0_off27 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_chk14 (v120 : BitVec 32) : Prop :=
  (∀ a, (k0_off28 v120) a + S1x1024.size a ≤ S50257x1024.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x1024.size a ≤ S50257x1024.size a := fun v120 k0_hw14 => k0_hw14

def k0_off29 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_chk15 (v129 : BitVec 32) : Prop :=
  (∀ a, (k0_off30 v129) a + S1x1024.size a ≤ S50257x1024.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x1024.size a ≤ S50257x1024.size a := fun v129 k0_hw15 => k0_hw15

def k0_off31 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_chk16 (v138 : BitVec 32) : Prop :=
  (∀ a, (k0_off32 v138) a + S1x1024.size a ≤ S50257x1024.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x1024.size a ≤ S50257x1024.size a := fun v138 k0_hw16 => k0_hw16

def k0_off33 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v241 : BitVec 32 := Scalar.addi v0 c16_i32
  let v242 : Index := Scalar.indexCast v241
  ![v242.toNat]
def k0_off34 (v243 : BitVec 32) : Fin 2 → Nat :=
  let c0_i32_147 : BitVec 32 := 0#32
  ![v243.toNat, 0]

def k0_chk17 (v243 : BitVec 32) : Prop :=
  (∀ a, (k0_off34 v243) a + S1x1024.size a ≤ S50257x1024.size a)
instance k0_chk17.dec : ∀ (v243 : BitVec 32), Decidable (k0_chk17 v243) := fun v243 => decidable_of_iff' _ (Iff.of_eq (k0_chk17.eq_1 v243))
theorem k0_off34_inb : ∀ (v243 : BitVec 32) (k0_hw17 : k0_chk17 v243), ∀ a, (k0_off34 v243) a + S1x1024.size a ≤ S50257x1024.size a := fun v243 k0_hw17 => k0_hw17

def k0_off35 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v250 : BitVec 32 := Scalar.addi v0 c17_i32
  let v251 : Index := Scalar.indexCast v250
  ![v251.toNat]
def k0_off36 (v252 : BitVec 32) : Fin 2 → Nat :=
  let c0_i32_151 : BitVec 32 := 0#32
  ![v252.toNat, 0]

def k0_chk18 (v252 : BitVec 32) : Prop :=
  (∀ a, (k0_off36 v252) a + S1x1024.size a ≤ S50257x1024.size a)
instance k0_chk18.dec : ∀ (v252 : BitVec 32), Decidable (k0_chk18 v252) := fun v252 => decidable_of_iff' _ (Iff.of_eq (k0_chk18.eq_1 v252))
theorem k0_off36_inb : ∀ (v252 : BitVec 32) (k0_hw18 : k0_chk18 v252), ∀ a, (k0_off36 v252) a + S1x1024.size a ≤ S50257x1024.size a := fun v252 k0_hw18 => k0_hw18

def k0_off37 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v259 : BitVec 32 := Scalar.addi v0 c18_i32
  let v260 : Index := Scalar.indexCast v259
  ![v260.toNat]
def k0_off38 (v261 : BitVec 32) : Fin 2 → Nat :=
  let c0_i32_155 : BitVec 32 := 0#32
  ![v261.toNat, 0]

def k0_chk19 (v261 : BitVec 32) : Prop :=
  (∀ a, (k0_off38 v261) a + S1x1024.size a ≤ S50257x1024.size a)
instance k0_chk19.dec : ∀ (v261 : BitVec 32), Decidable (k0_chk19 v261) := fun v261 => decidable_of_iff' _ (Iff.of_eq (k0_chk19.eq_1 v261))
theorem k0_off38_inb : ∀ (v261 : BitVec 32) (k0_hw19 : k0_chk19 v261), ∀ a, (k0_off38 v261) a + S1x1024.size a ≤ S50257x1024.size a := fun v261 k0_hw19 => k0_hw19

def k0_off39 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v268 : BitVec 32 := Scalar.addi v0 c19_i32
  let v269 : Index := Scalar.indexCast v268
  ![v269.toNat]
def k0_off40 (v270 : BitVec 32) : Fin 2 → Nat :=
  let c0_i32_159 : BitVec 32 := 0#32
  ![v270.toNat, 0]

def k0_chk20 (v270 : BitVec 32) : Prop :=
  (∀ a, (k0_off40 v270) a + S1x1024.size a ≤ S50257x1024.size a)
instance k0_chk20.dec : ∀ (v270 : BitVec 32), Decidable (k0_chk20 v270) := fun v270 => decidable_of_iff' _ (Iff.of_eq (k0_chk20.eq_1 v270))
theorem k0_off40_inb : ∀ (v270 : BitVec 32) (k0_hw20 : k0_chk20 v270), ∀ a, (k0_off40 v270) a + S1x1024.size a ≤ S50257x1024.size a := fun v270 k0_hw20 => k0_hw20

def k0_off41 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v277 : BitVec 32 := Scalar.addi v0 c20_i32
  let v278 : Index := Scalar.indexCast v277
  ![v278.toNat]
def k0_off42 (v279 : BitVec 32) : Fin 2 → Nat :=
  let c0_i32_163 : BitVec 32 := 0#32
  ![v279.toNat, 0]

def k0_chk21 (v279 : BitVec 32) : Prop :=
  (∀ a, (k0_off42 v279) a + S1x1024.size a ≤ S50257x1024.size a)
instance k0_chk21.dec : ∀ (v279 : BitVec 32), Decidable (k0_chk21 v279) := fun v279 => decidable_of_iff' _ (Iff.of_eq (k0_chk21.eq_1 v279))
theorem k0_off42_inb : ∀ (v279 : BitVec 32) (k0_hw21 : k0_chk21 v279), ∀ a, (k0_off42 v279) a + S1x1024.size a ≤ S50257x1024.size a := fun v279 k0_hw21 => k0_hw21

def k0_off43 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v286 : BitVec 32 := Scalar.addi v0 c21_i32
  let v287 : Index := Scalar.indexCast v286
  ![v287.toNat]
def k0_off44 (v288 : BitVec 32) : Fin 2 → Nat :=
  let c0_i32_167 : BitVec 32 := 0#32
  ![v288.toNat, 0]

def k0_chk22 (v288 : BitVec 32) : Prop :=
  (∀ a, (k0_off44 v288) a + S1x1024.size a ≤ S50257x1024.size a)
instance k0_chk22.dec : ∀ (v288 : BitVec 32), Decidable (k0_chk22 v288) := fun v288 => decidable_of_iff' _ (Iff.of_eq (k0_chk22.eq_1 v288))
theorem k0_off44_inb : ∀ (v288 : BitVec 32) (k0_hw22 : k0_chk22 v288), ∀ a, (k0_off44 v288) a + S1x1024.size a ≤ S50257x1024.size a := fun v288 k0_hw22 => k0_hw22

def k0_off45 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v295 : BitVec 32 := Scalar.addi v0 c22_i32
  let v296 : Index := Scalar.indexCast v295
  ![v296.toNat]
def k0_off46 (v297 : BitVec 32) : Fin 2 → Nat :=
  let c0_i32_171 : BitVec 32 := 0#32
  ![v297.toNat, 0]

def k0_chk23 (v297 : BitVec 32) : Prop :=
  (∀ a, (k0_off46 v297) a + S1x1024.size a ≤ S50257x1024.size a)
instance k0_chk23.dec : ∀ (v297 : BitVec 32), Decidable (k0_chk23 v297) := fun v297 => decidable_of_iff' _ (Iff.of_eq (k0_chk23.eq_1 v297))
theorem k0_off46_inb : ∀ (v297 : BitVec 32) (k0_hw23 : k0_chk23 v297), ∀ a, (k0_off46 v297) a + S1x1024.size a ≤ S50257x1024.size a := fun v297 k0_hw23 => k0_hw23

def k0_off47 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v304 : BitVec 32 := Scalar.addi v0 c23_i32
  let v305 : Index := Scalar.indexCast v304
  ![v305.toNat]
def k0_off48 (v306 : BitVec 32) : Fin 2 → Nat :=
  let c0_i32_175 : BitVec 32 := 0#32
  ![v306.toNat, 0]

def k0_chk24 (v306 : BitVec 32) : Prop :=
  (∀ a, (k0_off48 v306) a + S1x1024.size a ≤ S50257x1024.size a)
instance k0_chk24.dec : ∀ (v306 : BitVec 32), Decidable (k0_chk24 v306) := fun v306 => decidable_of_iff' _ (Iff.of_eq (k0_chk24.eq_1 v306))
theorem k0_off48_inb : ∀ (v306 : BitVec 32) (k0_hw24 : k0_chk24 v306), ∀ a, (k0_off48 v306) a + S1x1024.size a ≤ S50257x1024.size a := fun v306 k0_hw24 => k0_hw24

def k0_off49 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v313 : BitVec 32 := Scalar.addi v0 c24_i32
  let v314 : Index := Scalar.indexCast v313
  ![v314.toNat]
def k0_off50 (v315 : BitVec 32) : Fin 2 → Nat :=
  let c0_i32_179 : BitVec 32 := 0#32
  ![v315.toNat, 0]

def k0_chk25 (v315 : BitVec 32) : Prop :=
  (∀ a, (k0_off50 v315) a + S1x1024.size a ≤ S50257x1024.size a)
instance k0_chk25.dec : ∀ (v315 : BitVec 32), Decidable (k0_chk25 v315) := fun v315 => decidable_of_iff' _ (Iff.of_eq (k0_chk25.eq_1 v315))
theorem k0_off50_inb : ∀ (v315 : BitVec 32) (k0_hw25 : k0_chk25 v315), ∀ a, (k0_off50 v315) a + S1x1024.size a ≤ S50257x1024.size a := fun v315 k0_hw25 => k0_hw25

def k0_off51 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v322 : BitVec 32 := Scalar.addi v0 c25_i32
  let v323 : Index := Scalar.indexCast v322
  ![v323.toNat]
def k0_off52 (v324 : BitVec 32) : Fin 2 → Nat :=
  let c0_i32_183 : BitVec 32 := 0#32
  ![v324.toNat, 0]

def k0_chk26 (v324 : BitVec 32) : Prop :=
  (∀ a, (k0_off52 v324) a + S1x1024.size a ≤ S50257x1024.size a)
instance k0_chk26.dec : ∀ (v324 : BitVec 32), Decidable (k0_chk26 v324) := fun v324 => decidable_of_iff' _ (Iff.of_eq (k0_chk26.eq_1 v324))
theorem k0_off52_inb : ∀ (v324 : BitVec 32) (k0_hw26 : k0_chk26 v324), ∀ a, (k0_off52 v324) a + S1x1024.size a ≤ S50257x1024.size a := fun v324 k0_hw26 => k0_hw26

def k0_off53 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v331 : BitVec 32 := Scalar.addi v0 c26_i32
  let v332 : Index := Scalar.indexCast v331
  ![v332.toNat]
def k0_off54 (v333 : BitVec 32) : Fin 2 → Nat :=
  let c0_i32_187 : BitVec 32 := 0#32
  ![v333.toNat, 0]

def k0_chk27 (v333 : BitVec 32) : Prop :=
  (∀ a, (k0_off54 v333) a + S1x1024.size a ≤ S50257x1024.size a)
instance k0_chk27.dec : ∀ (v333 : BitVec 32), Decidable (k0_chk27 v333) := fun v333 => decidable_of_iff' _ (Iff.of_eq (k0_chk27.eq_1 v333))
theorem k0_off54_inb : ∀ (v333 : BitVec 32) (k0_hw27 : k0_chk27 v333), ∀ a, (k0_off54 v333) a + S1x1024.size a ≤ S50257x1024.size a := fun v333 k0_hw27 => k0_hw27

def k0_off55 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v340 : BitVec 32 := Scalar.addi v0 c27_i32
  let v341 : Index := Scalar.indexCast v340
  ![v341.toNat]
def k0_off56 (v342 : BitVec 32) : Fin 2 → Nat :=
  let c0_i32_191 : BitVec 32 := 0#32
  ![v342.toNat, 0]

def k0_chk28 (v342 : BitVec 32) : Prop :=
  (∀ a, (k0_off56 v342) a + S1x1024.size a ≤ S50257x1024.size a)
instance k0_chk28.dec : ∀ (v342 : BitVec 32), Decidable (k0_chk28 v342) := fun v342 => decidable_of_iff' _ (Iff.of_eq (k0_chk28.eq_1 v342))
theorem k0_off56_inb : ∀ (v342 : BitVec 32) (k0_hw28 : k0_chk28 v342), ∀ a, (k0_off56 v342) a + S1x1024.size a ≤ S50257x1024.size a := fun v342 k0_hw28 => k0_hw28

def k0_off57 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v349 : BitVec 32 := Scalar.addi v0 c28_i32
  let v350 : Index := Scalar.indexCast v349
  ![v350.toNat]
def k0_off58 (v351 : BitVec 32) : Fin 2 → Nat :=
  let c0_i32_195 : BitVec 32 := 0#32
  ![v351.toNat, 0]

def k0_chk29 (v351 : BitVec 32) : Prop :=
  (∀ a, (k0_off58 v351) a + S1x1024.size a ≤ S50257x1024.size a)
instance k0_chk29.dec : ∀ (v351 : BitVec 32), Decidable (k0_chk29 v351) := fun v351 => decidable_of_iff' _ (Iff.of_eq (k0_chk29.eq_1 v351))
theorem k0_off58_inb : ∀ (v351 : BitVec 32) (k0_hw29 : k0_chk29 v351), ∀ a, (k0_off58 v351) a + S1x1024.size a ≤ S50257x1024.size a := fun v351 k0_hw29 => k0_hw29

def k0_off59 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v358 : BitVec 32 := Scalar.addi v0 c29_i32
  let v359 : Index := Scalar.indexCast v358
  ![v359.toNat]
def k0_off60 (v360 : BitVec 32) : Fin 2 → Nat :=
  let c0_i32_199 : BitVec 32 := 0#32
  ![v360.toNat, 0]

def k0_chk30 (v360 : BitVec 32) : Prop :=
  (∀ a, (k0_off60 v360) a + S1x1024.size a ≤ S50257x1024.size a)
instance k0_chk30.dec : ∀ (v360 : BitVec 32), Decidable (k0_chk30 v360) := fun v360 => decidable_of_iff' _ (Iff.of_eq (k0_chk30.eq_1 v360))
theorem k0_off60_inb : ∀ (v360 : BitVec 32) (k0_hw30 : k0_chk30 v360), ∀ a, (k0_off60 v360) a + S1x1024.size a ≤ S50257x1024.size a := fun v360 k0_hw30 => k0_hw30

def k0_off61 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v367 : BitVec 32 := Scalar.addi v0 c30_i32
  let v368 : Index := Scalar.indexCast v367
  ![v368.toNat]
def k0_off62 (v369 : BitVec 32) : Fin 2 → Nat :=
  let c0_i32_203 : BitVec 32 := 0#32
  ![v369.toNat, 0]

def k0_chk31 (v369 : BitVec 32) : Prop :=
  (∀ a, (k0_off62 v369) a + S1x1024.size a ≤ S50257x1024.size a)
instance k0_chk31.dec : ∀ (v369 : BitVec 32), Decidable (k0_chk31 v369) := fun v369 => decidable_of_iff' _ (Iff.of_eq (k0_chk31.eq_1 v369))
theorem k0_off62_inb : ∀ (v369 : BitVec 32) (k0_hw31 : k0_chk31 v369), ∀ a, (k0_off62 v369) a + S1x1024.size a ≤ S50257x1024.size a := fun v369 k0_hw31 => k0_hw31

def k0_off63 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v376 : BitVec 32 := Scalar.addi v0 c31_i32
  let v377 : Index := Scalar.indexCast v376
  ![v377.toNat]
def k0_off64 (v378 : BitVec 32) : Fin 2 → Nat :=
  let c0_i32_207 : BitVec 32 := 0#32
  ![v378.toNat, 0]

def k0_chk32 (v378 : BitVec 32) : Prop :=
  (∀ a, (k0_off64 v378) a + S1x1024.size a ≤ S50257x1024.size a)
instance k0_chk32.dec : ∀ (v378 : BitVec 32), Decidable (k0_chk32 v378) := fun v378 => decidable_of_iff' _ (Iff.of_eq (k0_chk32.eq_1 v378))
theorem k0_off64_inb : ∀ (v378 : BitVec 32) (k0_hw32 : k0_chk32 v378), ∀ a, (k0_off64 v378) a + S1x1024.size a ≤ S50257x1024.size a := fun v378 k0_hw32 => k0_hw32

def k0_off65 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v481 : BitVec 32 := Scalar.addi v0 c32_i32
  let v482 : Index := Scalar.indexCast v481
  ![v482.toNat]
def k0_off66 (v483 : BitVec 32) : Fin 2 → Nat :=
  let c0_i32_291 : BitVec 32 := 0#32
  ![v483.toNat, 0]

def k0_chk33 (v483 : BitVec 32) : Prop :=
  (∀ a, (k0_off66 v483) a + S1x1024.size a ≤ S50257x1024.size a)
instance k0_chk33.dec : ∀ (v483 : BitVec 32), Decidable (k0_chk33 v483) := fun v483 => decidable_of_iff' _ (Iff.of_eq (k0_chk33.eq_1 v483))
theorem k0_off66_inb : ∀ (v483 : BitVec 32) (k0_hw33 : k0_chk33 v483), ∀ a, (k0_off66 v483) a + S1x1024.size a ≤ S50257x1024.size a := fun v483 k0_hw33 => k0_hw33

def k0_off67 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v490 : BitVec 32 := Scalar.addi v0 c33_i32
  let v491 : Index := Scalar.indexCast v490
  ![v491.toNat]
def k0_off68 (v492 : BitVec 32) : Fin 2 → Nat :=
  let c0_i32_295 : BitVec 32 := 0#32
  ![v492.toNat, 0]

def k0_chk34 (v492 : BitVec 32) : Prop :=
  (∀ a, (k0_off68 v492) a + S1x1024.size a ≤ S50257x1024.size a)
instance k0_chk34.dec : ∀ (v492 : BitVec 32), Decidable (k0_chk34 v492) := fun v492 => decidable_of_iff' _ (Iff.of_eq (k0_chk34.eq_1 v492))
theorem k0_off68_inb : ∀ (v492 : BitVec 32) (k0_hw34 : k0_chk34 v492), ∀ a, (k0_off68 v492) a + S1x1024.size a ≤ S50257x1024.size a := fun v492 k0_hw34 => k0_hw34

def k0_off69 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v499 : BitVec 32 := Scalar.addi v0 c34_i32
  let v500 : Index := Scalar.indexCast v499
  ![v500.toNat]
def k0_off70 (v501 : BitVec 32) : Fin 2 → Nat :=
  let c0_i32_299 : BitVec 32 := 0#32
  ![v501.toNat, 0]

def k0_chk35 (v501 : BitVec 32) : Prop :=
  (∀ a, (k0_off70 v501) a + S1x1024.size a ≤ S50257x1024.size a)
instance k0_chk35.dec : ∀ (v501 : BitVec 32), Decidable (k0_chk35 v501) := fun v501 => decidable_of_iff' _ (Iff.of_eq (k0_chk35.eq_1 v501))
theorem k0_off70_inb : ∀ (v501 : BitVec 32) (k0_hw35 : k0_chk35 v501), ∀ a, (k0_off70 v501) a + S1x1024.size a ≤ S50257x1024.size a := fun v501 k0_hw35 => k0_hw35

def k0_off71 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v508 : BitVec 32 := Scalar.addi v0 c35_i32
  let v509 : Index := Scalar.indexCast v508
  ![v509.toNat]
def k0_off72 (v510 : BitVec 32) : Fin 2 → Nat :=
  let c0_i32_303 : BitVec 32 := 0#32
  ![v510.toNat, 0]

def k0_chk36 (v510 : BitVec 32) : Prop :=
  (∀ a, (k0_off72 v510) a + S1x1024.size a ≤ S50257x1024.size a)
instance k0_chk36.dec : ∀ (v510 : BitVec 32), Decidable (k0_chk36 v510) := fun v510 => decidable_of_iff' _ (Iff.of_eq (k0_chk36.eq_1 v510))
theorem k0_off72_inb : ∀ (v510 : BitVec 32) (k0_hw36 : k0_chk36 v510), ∀ a, (k0_off72 v510) a + S1x1024.size a ≤ S50257x1024.size a := fun v510 k0_hw36 => k0_hw36

def k0_off73 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v517 : BitVec 32 := Scalar.addi v0 c36_i32
  let v518 : Index := Scalar.indexCast v517
  ![v518.toNat]
def k0_off74 (v519 : BitVec 32) : Fin 2 → Nat :=
  let c0_i32_307 : BitVec 32 := 0#32
  ![v519.toNat, 0]

def k0_chk37 (v519 : BitVec 32) : Prop :=
  (∀ a, (k0_off74 v519) a + S1x1024.size a ≤ S50257x1024.size a)
instance k0_chk37.dec : ∀ (v519 : BitVec 32), Decidable (k0_chk37 v519) := fun v519 => decidable_of_iff' _ (Iff.of_eq (k0_chk37.eq_1 v519))
theorem k0_off74_inb : ∀ (v519 : BitVec 32) (k0_hw37 : k0_chk37 v519), ∀ a, (k0_off74 v519) a + S1x1024.size a ≤ S50257x1024.size a := fun v519 k0_hw37 => k0_hw37

def k0_off75 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v526 : BitVec 32 := Scalar.addi v0 c37_i32
  let v527 : Index := Scalar.indexCast v526
  ![v527.toNat]
def k0_off76 (v528 : BitVec 32) : Fin 2 → Nat :=
  let c0_i32_311 : BitVec 32 := 0#32
  ![v528.toNat, 0]

def k0_chk38 (v528 : BitVec 32) : Prop :=
  (∀ a, (k0_off76 v528) a + S1x1024.size a ≤ S50257x1024.size a)
instance k0_chk38.dec : ∀ (v528 : BitVec 32), Decidable (k0_chk38 v528) := fun v528 => decidable_of_iff' _ (Iff.of_eq (k0_chk38.eq_1 v528))
theorem k0_off76_inb : ∀ (v528 : BitVec 32) (k0_hw38 : k0_chk38 v528), ∀ a, (k0_off76 v528) a + S1x1024.size a ≤ S50257x1024.size a := fun v528 k0_hw38 => k0_hw38

def k0_off77 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v535 : BitVec 32 := Scalar.addi v0 c38_i32
  let v536 : Index := Scalar.indexCast v535
  ![v536.toNat]
def k0_off78 (v537 : BitVec 32) : Fin 2 → Nat :=
  let c0_i32_315 : BitVec 32 := 0#32
  ![v537.toNat, 0]

def k0_chk39 (v537 : BitVec 32) : Prop :=
  (∀ a, (k0_off78 v537) a + S1x1024.size a ≤ S50257x1024.size a)
instance k0_chk39.dec : ∀ (v537 : BitVec 32), Decidable (k0_chk39 v537) := fun v537 => decidable_of_iff' _ (Iff.of_eq (k0_chk39.eq_1 v537))
theorem k0_off78_inb : ∀ (v537 : BitVec 32) (k0_hw39 : k0_chk39 v537), ∀ a, (k0_off78 v537) a + S1x1024.size a ≤ S50257x1024.size a := fun v537 k0_hw39 => k0_hw39

def k0_off79 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v544 : BitVec 32 := Scalar.addi v0 c39_i32
  let v545 : Index := Scalar.indexCast v544
  ![v545.toNat]
def k0_off80 (v546 : BitVec 32) : Fin 2 → Nat :=
  let c0_i32_319 : BitVec 32 := 0#32
  ![v546.toNat, 0]

def k0_chk40 (v546 : BitVec 32) : Prop :=
  (∀ a, (k0_off80 v546) a + S1x1024.size a ≤ S50257x1024.size a)
instance k0_chk40.dec : ∀ (v546 : BitVec 32), Decidable (k0_chk40 v546) := fun v546 => decidable_of_iff' _ (Iff.of_eq (k0_chk40.eq_1 v546))
theorem k0_off80_inb : ∀ (v546 : BitVec 32) (k0_hw40 : k0_chk40 v546), ∀ a, (k0_off80 v546) a + S1x1024.size a ≤ S50257x1024.size a := fun v546 k0_hw40 => k0_hw40

def k0_off81 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v553 : BitVec 32 := Scalar.addi v0 c40_i32
  let v554 : Index := Scalar.indexCast v553
  ![v554.toNat]
def k0_off82 (v555 : BitVec 32) : Fin 2 → Nat :=
  let c0_i32_323 : BitVec 32 := 0#32
  ![v555.toNat, 0]

def k0_chk41 (v555 : BitVec 32) : Prop :=
  (∀ a, (k0_off82 v555) a + S1x1024.size a ≤ S50257x1024.size a)
instance k0_chk41.dec : ∀ (v555 : BitVec 32), Decidable (k0_chk41 v555) := fun v555 => decidable_of_iff' _ (Iff.of_eq (k0_chk41.eq_1 v555))
theorem k0_off82_inb : ∀ (v555 : BitVec 32) (k0_hw41 : k0_chk41 v555), ∀ a, (k0_off82 v555) a + S1x1024.size a ≤ S50257x1024.size a := fun v555 k0_hw41 => k0_hw41

def k0_off83 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v562 : BitVec 32 := Scalar.addi v0 c41_i32
  let v563 : Index := Scalar.indexCast v562
  ![v563.toNat]
def k0_off84 (v564 : BitVec 32) : Fin 2 → Nat :=
  let c0_i32_327 : BitVec 32 := 0#32
  ![v564.toNat, 0]

def k0_chk42 (v564 : BitVec 32) : Prop :=
  (∀ a, (k0_off84 v564) a + S1x1024.size a ≤ S50257x1024.size a)
instance k0_chk42.dec : ∀ (v564 : BitVec 32), Decidable (k0_chk42 v564) := fun v564 => decidable_of_iff' _ (Iff.of_eq (k0_chk42.eq_1 v564))
theorem k0_off84_inb : ∀ (v564 : BitVec 32) (k0_hw42 : k0_chk42 v564), ∀ a, (k0_off84 v564) a + S1x1024.size a ≤ S50257x1024.size a := fun v564 k0_hw42 => k0_hw42

def k0_off85 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v571 : BitVec 32 := Scalar.addi v0 c42_i32
  let v572 : Index := Scalar.indexCast v571
  ![v572.toNat]
def k0_off86 (v573 : BitVec 32) : Fin 2 → Nat :=
  let c0_i32_331 : BitVec 32 := 0#32
  ![v573.toNat, 0]

def k0_chk43 (v573 : BitVec 32) : Prop :=
  (∀ a, (k0_off86 v573) a + S1x1024.size a ≤ S50257x1024.size a)
instance k0_chk43.dec : ∀ (v573 : BitVec 32), Decidable (k0_chk43 v573) := fun v573 => decidable_of_iff' _ (Iff.of_eq (k0_chk43.eq_1 v573))
theorem k0_off86_inb : ∀ (v573 : BitVec 32) (k0_hw43 : k0_chk43 v573), ∀ a, (k0_off86 v573) a + S1x1024.size a ≤ S50257x1024.size a := fun v573 k0_hw43 => k0_hw43

def k0_off87 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v580 : BitVec 32 := Scalar.addi v0 c43_i32
  let v581 : Index := Scalar.indexCast v580
  ![v581.toNat]
def k0_off88 (v582 : BitVec 32) : Fin 2 → Nat :=
  let c0_i32_335 : BitVec 32 := 0#32
  ![v582.toNat, 0]

def k0_chk44 (v582 : BitVec 32) : Prop :=
  (∀ a, (k0_off88 v582) a + S1x1024.size a ≤ S50257x1024.size a)
instance k0_chk44.dec : ∀ (v582 : BitVec 32), Decidable (k0_chk44 v582) := fun v582 => decidable_of_iff' _ (Iff.of_eq (k0_chk44.eq_1 v582))
theorem k0_off88_inb : ∀ (v582 : BitVec 32) (k0_hw44 : k0_chk44 v582), ∀ a, (k0_off88 v582) a + S1x1024.size a ≤ S50257x1024.size a := fun v582 k0_hw44 => k0_hw44

def k0_off89 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v589 : BitVec 32 := Scalar.addi v0 c44_i32
  let v590 : Index := Scalar.indexCast v589
  ![v590.toNat]
def k0_off90 (v591 : BitVec 32) : Fin 2 → Nat :=
  let c0_i32_339 : BitVec 32 := 0#32
  ![v591.toNat, 0]

def k0_chk45 (v591 : BitVec 32) : Prop :=
  (∀ a, (k0_off90 v591) a + S1x1024.size a ≤ S50257x1024.size a)
instance k0_chk45.dec : ∀ (v591 : BitVec 32), Decidable (k0_chk45 v591) := fun v591 => decidable_of_iff' _ (Iff.of_eq (k0_chk45.eq_1 v591))
theorem k0_off90_inb : ∀ (v591 : BitVec 32) (k0_hw45 : k0_chk45 v591), ∀ a, (k0_off90 v591) a + S1x1024.size a ≤ S50257x1024.size a := fun v591 k0_hw45 => k0_hw45

def k0_off91 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v598 : BitVec 32 := Scalar.addi v0 c45_i32
  let v599 : Index := Scalar.indexCast v598
  ![v599.toNat]
def k0_off92 (v600 : BitVec 32) : Fin 2 → Nat :=
  let c0_i32_343 : BitVec 32 := 0#32
  ![v600.toNat, 0]

def k0_chk46 (v600 : BitVec 32) : Prop :=
  (∀ a, (k0_off92 v600) a + S1x1024.size a ≤ S50257x1024.size a)
instance k0_chk46.dec : ∀ (v600 : BitVec 32), Decidable (k0_chk46 v600) := fun v600 => decidable_of_iff' _ (Iff.of_eq (k0_chk46.eq_1 v600))
theorem k0_off92_inb : ∀ (v600 : BitVec 32) (k0_hw46 : k0_chk46 v600), ∀ a, (k0_off92 v600) a + S1x1024.size a ≤ S50257x1024.size a := fun v600 k0_hw46 => k0_hw46

def k0_off93 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v607 : BitVec 32 := Scalar.addi v0 c46_i32
  let v608 : Index := Scalar.indexCast v607
  ![v608.toNat]
def k0_off94 (v609 : BitVec 32) : Fin 2 → Nat :=
  let c0_i32_347 : BitVec 32 := 0#32
  ![v609.toNat, 0]

def k0_chk47 (v609 : BitVec 32) : Prop :=
  (∀ a, (k0_off94 v609) a + S1x1024.size a ≤ S50257x1024.size a)
instance k0_chk47.dec : ∀ (v609 : BitVec 32), Decidable (k0_chk47 v609) := fun v609 => decidable_of_iff' _ (Iff.of_eq (k0_chk47.eq_1 v609))
theorem k0_off94_inb : ∀ (v609 : BitVec 32) (k0_hw47 : k0_chk47 v609), ∀ a, (k0_off94 v609) a + S1x1024.size a ≤ S50257x1024.size a := fun v609 k0_hw47 => k0_hw47

def k0_off95 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v616 : BitVec 32 := Scalar.addi v0 c47_i32
  let v617 : Index := Scalar.indexCast v616
  ![v617.toNat]
def k0_off96 (v618 : BitVec 32) : Fin 2 → Nat :=
  let c0_i32_351 : BitVec 32 := 0#32
  ![v618.toNat, 0]

def k0_chk48 (v618 : BitVec 32) : Prop :=
  (∀ a, (k0_off96 v618) a + S1x1024.size a ≤ S50257x1024.size a)
instance k0_chk48.dec : ∀ (v618 : BitVec 32), Decidable (k0_chk48 v618) := fun v618 => decidable_of_iff' _ (Iff.of_eq (k0_chk48.eq_1 v618))
theorem k0_off96_inb : ∀ (v618 : BitVec 32) (k0_hw48 : k0_chk48 v618), ∀ a, (k0_off96 v618) a + S1x1024.size a ≤ S50257x1024.size a := fun v618 k0_hw48 => k0_hw48

def k0_off97 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v721 : BitVec 32 := Scalar.addi v0 c48_i32
  let v722 : Index := Scalar.indexCast v721
  ![v722.toNat]
def k0_off98 (v723 : BitVec 32) : Fin 2 → Nat :=
  let c0_i32_435 : BitVec 32 := 0#32
  ![v723.toNat, 0]

def k0_chk49 (v723 : BitVec 32) : Prop :=
  (∀ a, (k0_off98 v723) a + S1x1024.size a ≤ S50257x1024.size a)
instance k0_chk49.dec : ∀ (v723 : BitVec 32), Decidable (k0_chk49 v723) := fun v723 => decidable_of_iff' _ (Iff.of_eq (k0_chk49.eq_1 v723))
theorem k0_off98_inb : ∀ (v723 : BitVec 32) (k0_hw49 : k0_chk49 v723), ∀ a, (k0_off98 v723) a + S1x1024.size a ≤ S50257x1024.size a := fun v723 k0_hw49 => k0_hw49

def k0_off99 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v730 : BitVec 32 := Scalar.addi v0 c49_i32
  let v731 : Index := Scalar.indexCast v730
  ![v731.toNat]
def k0_off100 (v732 : BitVec 32) : Fin 2 → Nat :=
  let c0_i32_439 : BitVec 32 := 0#32
  ![v732.toNat, 0]

def k0_chk50 (v732 : BitVec 32) : Prop :=
  (∀ a, (k0_off100 v732) a + S1x1024.size a ≤ S50257x1024.size a)
instance k0_chk50.dec : ∀ (v732 : BitVec 32), Decidable (k0_chk50 v732) := fun v732 => decidable_of_iff' _ (Iff.of_eq (k0_chk50.eq_1 v732))
theorem k0_off100_inb : ∀ (v732 : BitVec 32) (k0_hw50 : k0_chk50 v732), ∀ a, (k0_off100 v732) a + S1x1024.size a ≤ S50257x1024.size a := fun v732 k0_hw50 => k0_hw50

def k0_off101 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v739 : BitVec 32 := Scalar.addi v0 c50_i32
  let v740 : Index := Scalar.indexCast v739
  ![v740.toNat]
def k0_off102 (v741 : BitVec 32) : Fin 2 → Nat :=
  let c0_i32_443 : BitVec 32 := 0#32
  ![v741.toNat, 0]

def k0_chk51 (v741 : BitVec 32) : Prop :=
  (∀ a, (k0_off102 v741) a + S1x1024.size a ≤ S50257x1024.size a)
instance k0_chk51.dec : ∀ (v741 : BitVec 32), Decidable (k0_chk51 v741) := fun v741 => decidable_of_iff' _ (Iff.of_eq (k0_chk51.eq_1 v741))
theorem k0_off102_inb : ∀ (v741 : BitVec 32) (k0_hw51 : k0_chk51 v741), ∀ a, (k0_off102 v741) a + S1x1024.size a ≤ S50257x1024.size a := fun v741 k0_hw51 => k0_hw51

def k0_off103 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v748 : BitVec 32 := Scalar.addi v0 c51_i32
  let v749 : Index := Scalar.indexCast v748
  ![v749.toNat]
def k0_off104 (v750 : BitVec 32) : Fin 2 → Nat :=
  let c0_i32_447 : BitVec 32 := 0#32
  ![v750.toNat, 0]

def k0_chk52 (v750 : BitVec 32) : Prop :=
  (∀ a, (k0_off104 v750) a + S1x1024.size a ≤ S50257x1024.size a)
instance k0_chk52.dec : ∀ (v750 : BitVec 32), Decidable (k0_chk52 v750) := fun v750 => decidable_of_iff' _ (Iff.of_eq (k0_chk52.eq_1 v750))
theorem k0_off104_inb : ∀ (v750 : BitVec 32) (k0_hw52 : k0_chk52 v750), ∀ a, (k0_off104 v750) a + S1x1024.size a ≤ S50257x1024.size a := fun v750 k0_hw52 => k0_hw52

def k0_off105 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v757 : BitVec 32 := Scalar.addi v0 c52_i32
  let v758 : Index := Scalar.indexCast v757
  ![v758.toNat]
def k0_off106 (v759 : BitVec 32) : Fin 2 → Nat :=
  let c0_i32_451 : BitVec 32 := 0#32
  ![v759.toNat, 0]

def k0_chk53 (v759 : BitVec 32) : Prop :=
  (∀ a, (k0_off106 v759) a + S1x1024.size a ≤ S50257x1024.size a)
instance k0_chk53.dec : ∀ (v759 : BitVec 32), Decidable (k0_chk53 v759) := fun v759 => decidable_of_iff' _ (Iff.of_eq (k0_chk53.eq_1 v759))
theorem k0_off106_inb : ∀ (v759 : BitVec 32) (k0_hw53 : k0_chk53 v759), ∀ a, (k0_off106 v759) a + S1x1024.size a ≤ S50257x1024.size a := fun v759 k0_hw53 => k0_hw53

def k0_off107 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v766 : BitVec 32 := Scalar.addi v0 c53_i32
  let v767 : Index := Scalar.indexCast v766
  ![v767.toNat]
def k0_off108 (v768 : BitVec 32) : Fin 2 → Nat :=
  let c0_i32_455 : BitVec 32 := 0#32
  ![v768.toNat, 0]

def k0_chk54 (v768 : BitVec 32) : Prop :=
  (∀ a, (k0_off108 v768) a + S1x1024.size a ≤ S50257x1024.size a)
instance k0_chk54.dec : ∀ (v768 : BitVec 32), Decidable (k0_chk54 v768) := fun v768 => decidable_of_iff' _ (Iff.of_eq (k0_chk54.eq_1 v768))
theorem k0_off108_inb : ∀ (v768 : BitVec 32) (k0_hw54 : k0_chk54 v768), ∀ a, (k0_off108 v768) a + S1x1024.size a ≤ S50257x1024.size a := fun v768 k0_hw54 => k0_hw54

def k0_off109 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v775 : BitVec 32 := Scalar.addi v0 c54_i32
  let v776 : Index := Scalar.indexCast v775
  ![v776.toNat]
def k0_off110 (v777 : BitVec 32) : Fin 2 → Nat :=
  let c0_i32_459 : BitVec 32 := 0#32
  ![v777.toNat, 0]

def k0_chk55 (v777 : BitVec 32) : Prop :=
  (∀ a, (k0_off110 v777) a + S1x1024.size a ≤ S50257x1024.size a)
instance k0_chk55.dec : ∀ (v777 : BitVec 32), Decidable (k0_chk55 v777) := fun v777 => decidable_of_iff' _ (Iff.of_eq (k0_chk55.eq_1 v777))
theorem k0_off110_inb : ∀ (v777 : BitVec 32) (k0_hw55 : k0_chk55 v777), ∀ a, (k0_off110 v777) a + S1x1024.size a ≤ S50257x1024.size a := fun v777 k0_hw55 => k0_hw55

def k0_off111 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v784 : BitVec 32 := Scalar.addi v0 c55_i32
  let v785 : Index := Scalar.indexCast v784
  ![v785.toNat]
def k0_off112 (v786 : BitVec 32) : Fin 2 → Nat :=
  let c0_i32_463 : BitVec 32 := 0#32
  ![v786.toNat, 0]

def k0_chk56 (v786 : BitVec 32) : Prop :=
  (∀ a, (k0_off112 v786) a + S1x1024.size a ≤ S50257x1024.size a)
instance k0_chk56.dec : ∀ (v786 : BitVec 32), Decidable (k0_chk56 v786) := fun v786 => decidable_of_iff' _ (Iff.of_eq (k0_chk56.eq_1 v786))
theorem k0_off112_inb : ∀ (v786 : BitVec 32) (k0_hw56 : k0_chk56 v786), ∀ a, (k0_off112 v786) a + S1x1024.size a ≤ S50257x1024.size a := fun v786 k0_hw56 => k0_hw56

def k0_off113 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v793 : BitVec 32 := Scalar.addi v0 c56_i32
  let v794 : Index := Scalar.indexCast v793
  ![v794.toNat]
def k0_off114 (v795 : BitVec 32) : Fin 2 → Nat :=
  let c0_i32_467 : BitVec 32 := 0#32
  ![v795.toNat, 0]

def k0_chk57 (v795 : BitVec 32) : Prop :=
  (∀ a, (k0_off114 v795) a + S1x1024.size a ≤ S50257x1024.size a)
instance k0_chk57.dec : ∀ (v795 : BitVec 32), Decidable (k0_chk57 v795) := fun v795 => decidable_of_iff' _ (Iff.of_eq (k0_chk57.eq_1 v795))
theorem k0_off114_inb : ∀ (v795 : BitVec 32) (k0_hw57 : k0_chk57 v795), ∀ a, (k0_off114 v795) a + S1x1024.size a ≤ S50257x1024.size a := fun v795 k0_hw57 => k0_hw57

def k0_off115 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v802 : BitVec 32 := Scalar.addi v0 c57_i32
  let v803 : Index := Scalar.indexCast v802
  ![v803.toNat]
def k0_off116 (v804 : BitVec 32) : Fin 2 → Nat :=
  let c0_i32_471 : BitVec 32 := 0#32
  ![v804.toNat, 0]

def k0_chk58 (v804 : BitVec 32) : Prop :=
  (∀ a, (k0_off116 v804) a + S1x1024.size a ≤ S50257x1024.size a)
instance k0_chk58.dec : ∀ (v804 : BitVec 32), Decidable (k0_chk58 v804) := fun v804 => decidable_of_iff' _ (Iff.of_eq (k0_chk58.eq_1 v804))
theorem k0_off116_inb : ∀ (v804 : BitVec 32) (k0_hw58 : k0_chk58 v804), ∀ a, (k0_off116 v804) a + S1x1024.size a ≤ S50257x1024.size a := fun v804 k0_hw58 => k0_hw58

def k0_off117 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v811 : BitVec 32 := Scalar.addi v0 c58_i32
  let v812 : Index := Scalar.indexCast v811
  ![v812.toNat]
def k0_off118 (v813 : BitVec 32) : Fin 2 → Nat :=
  let c0_i32_475 : BitVec 32 := 0#32
  ![v813.toNat, 0]

def k0_chk59 (v813 : BitVec 32) : Prop :=
  (∀ a, (k0_off118 v813) a + S1x1024.size a ≤ S50257x1024.size a)
instance k0_chk59.dec : ∀ (v813 : BitVec 32), Decidable (k0_chk59 v813) := fun v813 => decidable_of_iff' _ (Iff.of_eq (k0_chk59.eq_1 v813))
theorem k0_off118_inb : ∀ (v813 : BitVec 32) (k0_hw59 : k0_chk59 v813), ∀ a, (k0_off118 v813) a + S1x1024.size a ≤ S50257x1024.size a := fun v813 k0_hw59 => k0_hw59

def k0_off119 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v820 : BitVec 32 := Scalar.addi v0 c59_i32
  let v821 : Index := Scalar.indexCast v820
  ![v821.toNat]
def k0_off120 (v822 : BitVec 32) : Fin 2 → Nat :=
  let c0_i32_479 : BitVec 32 := 0#32
  ![v822.toNat, 0]

def k0_chk60 (v822 : BitVec 32) : Prop :=
  (∀ a, (k0_off120 v822) a + S1x1024.size a ≤ S50257x1024.size a)
instance k0_chk60.dec : ∀ (v822 : BitVec 32), Decidable (k0_chk60 v822) := fun v822 => decidable_of_iff' _ (Iff.of_eq (k0_chk60.eq_1 v822))
theorem k0_off120_inb : ∀ (v822 : BitVec 32) (k0_hw60 : k0_chk60 v822), ∀ a, (k0_off120 v822) a + S1x1024.size a ≤ S50257x1024.size a := fun v822 k0_hw60 => k0_hw60

def k0_off121 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v829 : BitVec 32 := Scalar.addi v0 c60_i32
  let v830 : Index := Scalar.indexCast v829
  ![v830.toNat]
def k0_off122 (v831 : BitVec 32) : Fin 2 → Nat :=
  let c0_i32_483 : BitVec 32 := 0#32
  ![v831.toNat, 0]

def k0_chk61 (v831 : BitVec 32) : Prop :=
  (∀ a, (k0_off122 v831) a + S1x1024.size a ≤ S50257x1024.size a)
instance k0_chk61.dec : ∀ (v831 : BitVec 32), Decidable (k0_chk61 v831) := fun v831 => decidable_of_iff' _ (Iff.of_eq (k0_chk61.eq_1 v831))
theorem k0_off122_inb : ∀ (v831 : BitVec 32) (k0_hw61 : k0_chk61 v831), ∀ a, (k0_off122 v831) a + S1x1024.size a ≤ S50257x1024.size a := fun v831 k0_hw61 => k0_hw61

def k0_off123 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v838 : BitVec 32 := Scalar.addi v0 c61_i32
  let v839 : Index := Scalar.indexCast v838
  ![v839.toNat]
def k0_off124 (v840 : BitVec 32) : Fin 2 → Nat :=
  let c0_i32_487 : BitVec 32 := 0#32
  ![v840.toNat, 0]

def k0_chk62 (v840 : BitVec 32) : Prop :=
  (∀ a, (k0_off124 v840) a + S1x1024.size a ≤ S50257x1024.size a)
instance k0_chk62.dec : ∀ (v840 : BitVec 32), Decidable (k0_chk62 v840) := fun v840 => decidable_of_iff' _ (Iff.of_eq (k0_chk62.eq_1 v840))
theorem k0_off124_inb : ∀ (v840 : BitVec 32) (k0_hw62 : k0_chk62 v840), ∀ a, (k0_off124 v840) a + S1x1024.size a ≤ S50257x1024.size a := fun v840 k0_hw62 => k0_hw62

def k0_off125 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v847 : BitVec 32 := Scalar.addi v0 c62_i32
  let v848 : Index := Scalar.indexCast v847
  ![v848.toNat]
def k0_off126 (v849 : BitVec 32) : Fin 2 → Nat :=
  let c0_i32_491 : BitVec 32 := 0#32
  ![v849.toNat, 0]

def k0_chk63 (v849 : BitVec 32) : Prop :=
  (∀ a, (k0_off126 v849) a + S1x1024.size a ≤ S50257x1024.size a)
instance k0_chk63.dec : ∀ (v849 : BitVec 32), Decidable (k0_chk63 v849) := fun v849 => decidable_of_iff' _ (Iff.of_eq (k0_chk63.eq_1 v849))
theorem k0_off126_inb : ∀ (v849 : BitVec 32) (k0_hw63 : k0_chk63 v849), ∀ a, (k0_off126 v849) a + S1x1024.size a ≤ S50257x1024.size a := fun v849 k0_hw63 => k0_hw63

def k0_off127 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v856 : BitVec 32 := Scalar.addi v0 c63_i32
  let v857 : Index := Scalar.indexCast v856
  ![v857.toNat]
def k0_off128 (v858 : BitVec 32) : Fin 2 → Nat :=
  let c0_i32_495 : BitVec 32 := 0#32
  ![v858.toNat, 0]

def k0_chk64 (v858 : BitVec 32) : Prop :=
  (∀ a, (k0_off128 v858) a + S1x1024.size a ≤ S50257x1024.size a)
instance k0_chk64.dec : ∀ (v858 : BitVec 32), Decidable (k0_chk64 v858) := fun v858 => decidable_of_iff' _ (Iff.of_eq (k0_chk64.eq_1 v858))
theorem k0_off128_inb : ∀ (v858 : BitVec 32) (k0_hw64 : k0_chk64 v858), ∀ a, (k0_off128 v858) a + S1x1024.size a ≤ S50257x1024.size a := fun v858 k0_hw64 => k0_hw64

def k0_off129 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v961 : BitVec 32 := Scalar.addi v0 c64_i32
  let v962 : Index := Scalar.indexCast v961
  ![v962.toNat]
def k0_off130 (v963 : BitVec 32) : Fin 2 → Nat :=
  let c0_i32_579 : BitVec 32 := 0#32
  ![v963.toNat, 0]

def k0_chk65 (v963 : BitVec 32) : Prop :=
  (∀ a, (k0_off130 v963) a + S1x1024.size a ≤ S50257x1024.size a)
instance k0_chk65.dec : ∀ (v963 : BitVec 32), Decidable (k0_chk65 v963) := fun v963 => decidable_of_iff' _ (Iff.of_eq (k0_chk65.eq_1 v963))
theorem k0_off130_inb : ∀ (v963 : BitVec 32) (k0_hw65 : k0_chk65 v963), ∀ a, (k0_off130 v963) a + S1x1024.size a ≤ S50257x1024.size a := fun v963 k0_hw65 => k0_hw65

def k0_off131 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v970 : BitVec 32 := Scalar.addi v0 c65_i32
  let v971 : Index := Scalar.indexCast v970
  ![v971.toNat]
def k0_off132 (v972 : BitVec 32) : Fin 2 → Nat :=
  let c0_i32_583 : BitVec 32 := 0#32
  ![v972.toNat, 0]

def k0_chk66 (v972 : BitVec 32) : Prop :=
  (∀ a, (k0_off132 v972) a + S1x1024.size a ≤ S50257x1024.size a)
instance k0_chk66.dec : ∀ (v972 : BitVec 32), Decidable (k0_chk66 v972) := fun v972 => decidable_of_iff' _ (Iff.of_eq (k0_chk66.eq_1 v972))
theorem k0_off132_inb : ∀ (v972 : BitVec 32) (k0_hw66 : k0_chk66 v972), ∀ a, (k0_off132 v972) a + S1x1024.size a ≤ S50257x1024.size a := fun v972 k0_hw66 => k0_hw66

def k0_off133 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v979 : BitVec 32 := Scalar.addi v0 c66_i32
  let v980 : Index := Scalar.indexCast v979
  ![v980.toNat]
def k0_off134 (v981 : BitVec 32) : Fin 2 → Nat :=
  let c0_i32_587 : BitVec 32 := 0#32
  ![v981.toNat, 0]

def k0_chk67 (v981 : BitVec 32) : Prop :=
  (∀ a, (k0_off134 v981) a + S1x1024.size a ≤ S50257x1024.size a)
instance k0_chk67.dec : ∀ (v981 : BitVec 32), Decidable (k0_chk67 v981) := fun v981 => decidable_of_iff' _ (Iff.of_eq (k0_chk67.eq_1 v981))
theorem k0_off134_inb : ∀ (v981 : BitVec 32) (k0_hw67 : k0_chk67 v981), ∀ a, (k0_off134 v981) a + S1x1024.size a ≤ S50257x1024.size a := fun v981 k0_hw67 => k0_hw67

def k0_off135 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v988 : BitVec 32 := Scalar.addi v0 c67_i32
  let v989 : Index := Scalar.indexCast v988
  ![v989.toNat]
def k0_off136 (v990 : BitVec 32) : Fin 2 → Nat :=
  let c0_i32_591 : BitVec 32 := 0#32
  ![v990.toNat, 0]

def k0_chk68 (v990 : BitVec 32) : Prop :=
  (∀ a, (k0_off136 v990) a + S1x1024.size a ≤ S50257x1024.size a)
instance k0_chk68.dec : ∀ (v990 : BitVec 32), Decidable (k0_chk68 v990) := fun v990 => decidable_of_iff' _ (Iff.of_eq (k0_chk68.eq_1 v990))
theorem k0_off136_inb : ∀ (v990 : BitVec 32) (k0_hw68 : k0_chk68 v990), ∀ a, (k0_off136 v990) a + S1x1024.size a ≤ S50257x1024.size a := fun v990 k0_hw68 => k0_hw68

def k0_off137 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v997 : BitVec 32 := Scalar.addi v0 c68_i32
  let v998 : Index := Scalar.indexCast v997
  ![v998.toNat]
def k0_off138 (v999 : BitVec 32) : Fin 2 → Nat :=
  let c0_i32_595 : BitVec 32 := 0#32
  ![v999.toNat, 0]

def k0_chk69 (v999 : BitVec 32) : Prop :=
  (∀ a, (k0_off138 v999) a + S1x1024.size a ≤ S50257x1024.size a)
instance k0_chk69.dec : ∀ (v999 : BitVec 32), Decidable (k0_chk69 v999) := fun v999 => decidable_of_iff' _ (Iff.of_eq (k0_chk69.eq_1 v999))
theorem k0_off138_inb : ∀ (v999 : BitVec 32) (k0_hw69 : k0_chk69 v999), ∀ a, (k0_off138 v999) a + S1x1024.size a ≤ S50257x1024.size a := fun v999 k0_hw69 => k0_hw69

def k0_off139 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v1006 : BitVec 32 := Scalar.addi v0 c69_i32
  let v1007 : Index := Scalar.indexCast v1006
  ![v1007.toNat]
def k0_off140 (v1008 : BitVec 32) : Fin 2 → Nat :=
  let c0_i32_599 : BitVec 32 := 0#32
  ![v1008.toNat, 0]

def k0_chk70 (v1008 : BitVec 32) : Prop :=
  (∀ a, (k0_off140 v1008) a + S1x1024.size a ≤ S50257x1024.size a)
instance k0_chk70.dec : ∀ (v1008 : BitVec 32), Decidable (k0_chk70 v1008) := fun v1008 => decidable_of_iff' _ (Iff.of_eq (k0_chk70.eq_1 v1008))
theorem k0_off140_inb : ∀ (v1008 : BitVec 32) (k0_hw70 : k0_chk70 v1008), ∀ a, (k0_off140 v1008) a + S1x1024.size a ≤ S50257x1024.size a := fun v1008 k0_hw70 => k0_hw70

def k0_off141 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v1015 : BitVec 32 := Scalar.addi v0 c70_i32
  let v1016 : Index := Scalar.indexCast v1015
  ![v1016.toNat]
def k0_off142 (v1017 : BitVec 32) : Fin 2 → Nat :=
  let c0_i32_603 : BitVec 32 := 0#32
  ![v1017.toNat, 0]

def k0_chk71 (v1017 : BitVec 32) : Prop :=
  (∀ a, (k0_off142 v1017) a + S1x1024.size a ≤ S50257x1024.size a)
instance k0_chk71.dec : ∀ (v1017 : BitVec 32), Decidable (k0_chk71 v1017) := fun v1017 => decidable_of_iff' _ (Iff.of_eq (k0_chk71.eq_1 v1017))
theorem k0_off142_inb : ∀ (v1017 : BitVec 32) (k0_hw71 : k0_chk71 v1017), ∀ a, (k0_off142 v1017) a + S1x1024.size a ≤ S50257x1024.size a := fun v1017 k0_hw71 => k0_hw71

def k0_off143 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v1024 : BitVec 32 := Scalar.addi v0 c71_i32
  let v1025 : Index := Scalar.indexCast v1024
  ![v1025.toNat]
def k0_off144 (v1026 : BitVec 32) : Fin 2 → Nat :=
  let c0_i32_607 : BitVec 32 := 0#32
  ![v1026.toNat, 0]

def k0_chk72 (v1026 : BitVec 32) : Prop :=
  (∀ a, (k0_off144 v1026) a + S1x1024.size a ≤ S50257x1024.size a)
instance k0_chk72.dec : ∀ (v1026 : BitVec 32), Decidable (k0_chk72 v1026) := fun v1026 => decidable_of_iff' _ (Iff.of_eq (k0_chk72.eq_1 v1026))
theorem k0_off144_inb : ∀ (v1026 : BitVec 32) (k0_hw72 : k0_chk72 v1026), ∀ a, (k0_off144 v1026) a + S1x1024.size a ≤ S50257x1024.size a := fun v1026 k0_hw72 => k0_hw72

def k0_off145 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v1033 : BitVec 32 := Scalar.addi v0 c72_i32
  let v1034 : Index := Scalar.indexCast v1033
  ![v1034.toNat]
def k0_off146 (v1035 : BitVec 32) : Fin 2 → Nat :=
  let c0_i32_611 : BitVec 32 := 0#32
  ![v1035.toNat, 0]

def k0_chk73 (v1035 : BitVec 32) : Prop :=
  (∀ a, (k0_off146 v1035) a + S1x1024.size a ≤ S50257x1024.size a)
instance k0_chk73.dec : ∀ (v1035 : BitVec 32), Decidable (k0_chk73 v1035) := fun v1035 => decidable_of_iff' _ (Iff.of_eq (k0_chk73.eq_1 v1035))
theorem k0_off146_inb : ∀ (v1035 : BitVec 32) (k0_hw73 : k0_chk73 v1035), ∀ a, (k0_off146 v1035) a + S1x1024.size a ≤ S50257x1024.size a := fun v1035 k0_hw73 => k0_hw73

def k0_off147 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v1042 : BitVec 32 := Scalar.addi v0 c73_i32
  let v1043 : Index := Scalar.indexCast v1042
  ![v1043.toNat]
def k0_off148 (v1044 : BitVec 32) : Fin 2 → Nat :=
  let c0_i32_615 : BitVec 32 := 0#32
  ![v1044.toNat, 0]

def k0_chk74 (v1044 : BitVec 32) : Prop :=
  (∀ a, (k0_off148 v1044) a + S1x1024.size a ≤ S50257x1024.size a)
instance k0_chk74.dec : ∀ (v1044 : BitVec 32), Decidable (k0_chk74 v1044) := fun v1044 => decidable_of_iff' _ (Iff.of_eq (k0_chk74.eq_1 v1044))
theorem k0_off148_inb : ∀ (v1044 : BitVec 32) (k0_hw74 : k0_chk74 v1044), ∀ a, (k0_off148 v1044) a + S1x1024.size a ≤ S50257x1024.size a := fun v1044 k0_hw74 => k0_hw74

def k0_off149 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v1051 : BitVec 32 := Scalar.addi v0 c74_i32
  let v1052 : Index := Scalar.indexCast v1051
  ![v1052.toNat]
def k0_off150 (v1053 : BitVec 32) : Fin 2 → Nat :=
  let c0_i32_619 : BitVec 32 := 0#32
  ![v1053.toNat, 0]

def k0_chk75 (v1053 : BitVec 32) : Prop :=
  (∀ a, (k0_off150 v1053) a + S1x1024.size a ≤ S50257x1024.size a)
instance k0_chk75.dec : ∀ (v1053 : BitVec 32), Decidable (k0_chk75 v1053) := fun v1053 => decidable_of_iff' _ (Iff.of_eq (k0_chk75.eq_1 v1053))
theorem k0_off150_inb : ∀ (v1053 : BitVec 32) (k0_hw75 : k0_chk75 v1053), ∀ a, (k0_off150 v1053) a + S1x1024.size a ≤ S50257x1024.size a := fun v1053 k0_hw75 => k0_hw75

def k0_off151 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v1060 : BitVec 32 := Scalar.addi v0 c75_i32
  let v1061 : Index := Scalar.indexCast v1060
  ![v1061.toNat]
def k0_off152 (v1062 : BitVec 32) : Fin 2 → Nat :=
  let c0_i32_623 : BitVec 32 := 0#32
  ![v1062.toNat, 0]

def k0_chk76 (v1062 : BitVec 32) : Prop :=
  (∀ a, (k0_off152 v1062) a + S1x1024.size a ≤ S50257x1024.size a)
instance k0_chk76.dec : ∀ (v1062 : BitVec 32), Decidable (k0_chk76 v1062) := fun v1062 => decidable_of_iff' _ (Iff.of_eq (k0_chk76.eq_1 v1062))
theorem k0_off152_inb : ∀ (v1062 : BitVec 32) (k0_hw76 : k0_chk76 v1062), ∀ a, (k0_off152 v1062) a + S1x1024.size a ≤ S50257x1024.size a := fun v1062 k0_hw76 => k0_hw76

def k0_off153 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v1069 : BitVec 32 := Scalar.addi v0 c76_i32
  let v1070 : Index := Scalar.indexCast v1069
  ![v1070.toNat]
def k0_off154 (v1071 : BitVec 32) : Fin 2 → Nat :=
  let c0_i32_627 : BitVec 32 := 0#32
  ![v1071.toNat, 0]

def k0_chk77 (v1071 : BitVec 32) : Prop :=
  (∀ a, (k0_off154 v1071) a + S1x1024.size a ≤ S50257x1024.size a)
instance k0_chk77.dec : ∀ (v1071 : BitVec 32), Decidable (k0_chk77 v1071) := fun v1071 => decidable_of_iff' _ (Iff.of_eq (k0_chk77.eq_1 v1071))
theorem k0_off154_inb : ∀ (v1071 : BitVec 32) (k0_hw77 : k0_chk77 v1071), ∀ a, (k0_off154 v1071) a + S1x1024.size a ≤ S50257x1024.size a := fun v1071 k0_hw77 => k0_hw77

def k0_off155 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v1078 : BitVec 32 := Scalar.addi v0 c77_i32
  let v1079 : Index := Scalar.indexCast v1078
  ![v1079.toNat]
def k0_off156 (v1080 : BitVec 32) : Fin 2 → Nat :=
  let c0_i32_631 : BitVec 32 := 0#32
  ![v1080.toNat, 0]

def k0_chk78 (v1080 : BitVec 32) : Prop :=
  (∀ a, (k0_off156 v1080) a + S1x1024.size a ≤ S50257x1024.size a)
instance k0_chk78.dec : ∀ (v1080 : BitVec 32), Decidable (k0_chk78 v1080) := fun v1080 => decidable_of_iff' _ (Iff.of_eq (k0_chk78.eq_1 v1080))
theorem k0_off156_inb : ∀ (v1080 : BitVec 32) (k0_hw78 : k0_chk78 v1080), ∀ a, (k0_off156 v1080) a + S1x1024.size a ≤ S50257x1024.size a := fun v1080 k0_hw78 => k0_hw78

def k0_off157 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v1087 : BitVec 32 := Scalar.addi v0 c78_i32
  let v1088 : Index := Scalar.indexCast v1087
  ![v1088.toNat]
def k0_off158 (v1089 : BitVec 32) : Fin 2 → Nat :=
  let c0_i32_635 : BitVec 32 := 0#32
  ![v1089.toNat, 0]

def k0_chk79 (v1089 : BitVec 32) : Prop :=
  (∀ a, (k0_off158 v1089) a + S1x1024.size a ≤ S50257x1024.size a)
instance k0_chk79.dec : ∀ (v1089 : BitVec 32), Decidable (k0_chk79 v1089) := fun v1089 => decidable_of_iff' _ (Iff.of_eq (k0_chk79.eq_1 v1089))
theorem k0_off158_inb : ∀ (v1089 : BitVec 32) (k0_hw79 : k0_chk79 v1089), ∀ a, (k0_off158 v1089) a + S1x1024.size a ≤ S50257x1024.size a := fun v1089 k0_hw79 => k0_hw79

def k0_off159 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v1096 : BitVec 32 := Scalar.addi v0 c79_i32
  let v1097 : Index := Scalar.indexCast v1096
  ![v1097.toNat]
def k0_off160 (v1098 : BitVec 32) : Fin 2 → Nat :=
  let c0_i32_639 : BitVec 32 := 0#32
  ![v1098.toNat, 0]

def k0_chk80 (v1098 : BitVec 32) : Prop :=
  (∀ a, (k0_off160 v1098) a + S1x1024.size a ≤ S50257x1024.size a)
instance k0_chk80.dec : ∀ (v1098 : BitVec 32), Decidable (k0_chk80 v1098) := fun v1098 => decidable_of_iff' _ (Iff.of_eq (k0_chk80.eq_1 v1098))
theorem k0_off160_inb : ∀ (v1098 : BitVec 32) (k0_hw80 : k0_chk80 v1098), ∀ a, (k0_off160 v1098) a + S1x1024.size a ≤ S50257x1024.size a := fun v1098 k0_hw80 => k0_hw80

def k0_off161 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v1201 : BitVec 32 := Scalar.addi v0 c80_i32
  let v1202 : Index := Scalar.indexCast v1201
  ![v1202.toNat]
def k0_off162 (v1203 : BitVec 32) : Fin 2 → Nat :=
  let c0_i32_723 : BitVec 32 := 0#32
  ![v1203.toNat, 0]

def k0_chk81 (v1203 : BitVec 32) : Prop :=
  (∀ a, (k0_off162 v1203) a + S1x1024.size a ≤ S50257x1024.size a)
instance k0_chk81.dec : ∀ (v1203 : BitVec 32), Decidable (k0_chk81 v1203) := fun v1203 => decidable_of_iff' _ (Iff.of_eq (k0_chk81.eq_1 v1203))
theorem k0_off162_inb : ∀ (v1203 : BitVec 32) (k0_hw81 : k0_chk81 v1203), ∀ a, (k0_off162 v1203) a + S1x1024.size a ≤ S50257x1024.size a := fun v1203 k0_hw81 => k0_hw81

def k0_off163 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v1210 : BitVec 32 := Scalar.addi v0 c81_i32
  let v1211 : Index := Scalar.indexCast v1210
  ![v1211.toNat]
def k0_off164 (v1212 : BitVec 32) : Fin 2 → Nat :=
  let c0_i32_727 : BitVec 32 := 0#32
  ![v1212.toNat, 0]

def k0_chk82 (v1212 : BitVec 32) : Prop :=
  (∀ a, (k0_off164 v1212) a + S1x1024.size a ≤ S50257x1024.size a)
instance k0_chk82.dec : ∀ (v1212 : BitVec 32), Decidable (k0_chk82 v1212) := fun v1212 => decidable_of_iff' _ (Iff.of_eq (k0_chk82.eq_1 v1212))
theorem k0_off164_inb : ∀ (v1212 : BitVec 32) (k0_hw82 : k0_chk82 v1212), ∀ a, (k0_off164 v1212) a + S1x1024.size a ≤ S50257x1024.size a := fun v1212 k0_hw82 => k0_hw82

def k0_off165 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v1219 : BitVec 32 := Scalar.addi v0 c82_i32
  let v1220 : Index := Scalar.indexCast v1219
  ![v1220.toNat]
def k0_off166 (v1221 : BitVec 32) : Fin 2 → Nat :=
  let c0_i32_731 : BitVec 32 := 0#32
  ![v1221.toNat, 0]

def k0_chk83 (v1221 : BitVec 32) : Prop :=
  (∀ a, (k0_off166 v1221) a + S1x1024.size a ≤ S50257x1024.size a)
instance k0_chk83.dec : ∀ (v1221 : BitVec 32), Decidable (k0_chk83 v1221) := fun v1221 => decidable_of_iff' _ (Iff.of_eq (k0_chk83.eq_1 v1221))
theorem k0_off166_inb : ∀ (v1221 : BitVec 32) (k0_hw83 : k0_chk83 v1221), ∀ a, (k0_off166 v1221) a + S1x1024.size a ≤ S50257x1024.size a := fun v1221 k0_hw83 => k0_hw83

def k0_off167 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v1228 : BitVec 32 := Scalar.addi v0 c83_i32
  let v1229 : Index := Scalar.indexCast v1228
  ![v1229.toNat]
def k0_off168 (v1230 : BitVec 32) : Fin 2 → Nat :=
  let c0_i32_735 : BitVec 32 := 0#32
  ![v1230.toNat, 0]

def k0_chk84 (v1230 : BitVec 32) : Prop :=
  (∀ a, (k0_off168 v1230) a + S1x1024.size a ≤ S50257x1024.size a)
instance k0_chk84.dec : ∀ (v1230 : BitVec 32), Decidable (k0_chk84 v1230) := fun v1230 => decidable_of_iff' _ (Iff.of_eq (k0_chk84.eq_1 v1230))
theorem k0_off168_inb : ∀ (v1230 : BitVec 32) (k0_hw84 : k0_chk84 v1230), ∀ a, (k0_off168 v1230) a + S1x1024.size a ≤ S50257x1024.size a := fun v1230 k0_hw84 => k0_hw84

def k0_off169 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v1237 : BitVec 32 := Scalar.addi v0 c84_i32
  let v1238 : Index := Scalar.indexCast v1237
  ![v1238.toNat]
def k0_off170 (v1239 : BitVec 32) : Fin 2 → Nat :=
  let c0_i32_739 : BitVec 32 := 0#32
  ![v1239.toNat, 0]

def k0_chk85 (v1239 : BitVec 32) : Prop :=
  (∀ a, (k0_off170 v1239) a + S1x1024.size a ≤ S50257x1024.size a)
instance k0_chk85.dec : ∀ (v1239 : BitVec 32), Decidable (k0_chk85 v1239) := fun v1239 => decidable_of_iff' _ (Iff.of_eq (k0_chk85.eq_1 v1239))
theorem k0_off170_inb : ∀ (v1239 : BitVec 32) (k0_hw85 : k0_chk85 v1239), ∀ a, (k0_off170 v1239) a + S1x1024.size a ≤ S50257x1024.size a := fun v1239 k0_hw85 => k0_hw85

def k0_off171 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v1246 : BitVec 32 := Scalar.addi v0 c85_i32
  let v1247 : Index := Scalar.indexCast v1246
  ![v1247.toNat]
def k0_off172 (v1248 : BitVec 32) : Fin 2 → Nat :=
  let c0_i32_743 : BitVec 32 := 0#32
  ![v1248.toNat, 0]

def k0_chk86 (v1248 : BitVec 32) : Prop :=
  (∀ a, (k0_off172 v1248) a + S1x1024.size a ≤ S50257x1024.size a)
instance k0_chk86.dec : ∀ (v1248 : BitVec 32), Decidable (k0_chk86 v1248) := fun v1248 => decidable_of_iff' _ (Iff.of_eq (k0_chk86.eq_1 v1248))
theorem k0_off172_inb : ∀ (v1248 : BitVec 32) (k0_hw86 : k0_chk86 v1248), ∀ a, (k0_off172 v1248) a + S1x1024.size a ≤ S50257x1024.size a := fun v1248 k0_hw86 => k0_hw86

def k0_off173 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v1255 : BitVec 32 := Scalar.addi v0 c86_i32
  let v1256 : Index := Scalar.indexCast v1255
  ![v1256.toNat]
def k0_off174 (v1257 : BitVec 32) : Fin 2 → Nat :=
  let c0_i32_747 : BitVec 32 := 0#32
  ![v1257.toNat, 0]

def k0_chk87 (v1257 : BitVec 32) : Prop :=
  (∀ a, (k0_off174 v1257) a + S1x1024.size a ≤ S50257x1024.size a)
instance k0_chk87.dec : ∀ (v1257 : BitVec 32), Decidable (k0_chk87 v1257) := fun v1257 => decidable_of_iff' _ (Iff.of_eq (k0_chk87.eq_1 v1257))
theorem k0_off174_inb : ∀ (v1257 : BitVec 32) (k0_hw87 : k0_chk87 v1257), ∀ a, (k0_off174 v1257) a + S1x1024.size a ≤ S50257x1024.size a := fun v1257 k0_hw87 => k0_hw87

def k0_off175 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v1264 : BitVec 32 := Scalar.addi v0 c87_i32
  let v1265 : Index := Scalar.indexCast v1264
  ![v1265.toNat]
def k0_off176 (v1266 : BitVec 32) : Fin 2 → Nat :=
  let c0_i32_751 : BitVec 32 := 0#32
  ![v1266.toNat, 0]

def k0_chk88 (v1266 : BitVec 32) : Prop :=
  (∀ a, (k0_off176 v1266) a + S1x1024.size a ≤ S50257x1024.size a)
instance k0_chk88.dec : ∀ (v1266 : BitVec 32), Decidable (k0_chk88 v1266) := fun v1266 => decidable_of_iff' _ (Iff.of_eq (k0_chk88.eq_1 v1266))
theorem k0_off176_inb : ∀ (v1266 : BitVec 32) (k0_hw88 : k0_chk88 v1266), ∀ a, (k0_off176 v1266) a + S1x1024.size a ≤ S50257x1024.size a := fun v1266 k0_hw88 => k0_hw88

def k0_off177 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v1273 : BitVec 32 := Scalar.addi v0 c88_i32
  let v1274 : Index := Scalar.indexCast v1273
  ![v1274.toNat]
def k0_off178 (v1275 : BitVec 32) : Fin 2 → Nat :=
  let c0_i32_755 : BitVec 32 := 0#32
  ![v1275.toNat, 0]

def k0_chk89 (v1275 : BitVec 32) : Prop :=
  (∀ a, (k0_off178 v1275) a + S1x1024.size a ≤ S50257x1024.size a)
instance k0_chk89.dec : ∀ (v1275 : BitVec 32), Decidable (k0_chk89 v1275) := fun v1275 => decidable_of_iff' _ (Iff.of_eq (k0_chk89.eq_1 v1275))
theorem k0_off178_inb : ∀ (v1275 : BitVec 32) (k0_hw89 : k0_chk89 v1275), ∀ a, (k0_off178 v1275) a + S1x1024.size a ≤ S50257x1024.size a := fun v1275 k0_hw89 => k0_hw89

def k0_off179 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v1282 : BitVec 32 := Scalar.addi v0 c89_i32
  let v1283 : Index := Scalar.indexCast v1282
  ![v1283.toNat]
def k0_off180 (v1284 : BitVec 32) : Fin 2 → Nat :=
  let c0_i32_759 : BitVec 32 := 0#32
  ![v1284.toNat, 0]

def k0_chk90 (v1284 : BitVec 32) : Prop :=
  (∀ a, (k0_off180 v1284) a + S1x1024.size a ≤ S50257x1024.size a)
instance k0_chk90.dec : ∀ (v1284 : BitVec 32), Decidable (k0_chk90 v1284) := fun v1284 => decidable_of_iff' _ (Iff.of_eq (k0_chk90.eq_1 v1284))
theorem k0_off180_inb : ∀ (v1284 : BitVec 32) (k0_hw90 : k0_chk90 v1284), ∀ a, (k0_off180 v1284) a + S1x1024.size a ≤ S50257x1024.size a := fun v1284 k0_hw90 => k0_hw90

def k0_off181 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v1291 : BitVec 32 := Scalar.addi v0 c90_i32
  let v1292 : Index := Scalar.indexCast v1291
  ![v1292.toNat]
def k0_off182 (v1293 : BitVec 32) : Fin 2 → Nat :=
  let c0_i32_763 : BitVec 32 := 0#32
  ![v1293.toNat, 0]

def k0_chk91 (v1293 : BitVec 32) : Prop :=
  (∀ a, (k0_off182 v1293) a + S1x1024.size a ≤ S50257x1024.size a)
instance k0_chk91.dec : ∀ (v1293 : BitVec 32), Decidable (k0_chk91 v1293) := fun v1293 => decidable_of_iff' _ (Iff.of_eq (k0_chk91.eq_1 v1293))
theorem k0_off182_inb : ∀ (v1293 : BitVec 32) (k0_hw91 : k0_chk91 v1293), ∀ a, (k0_off182 v1293) a + S1x1024.size a ≤ S50257x1024.size a := fun v1293 k0_hw91 => k0_hw91

def k0_off183 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v1300 : BitVec 32 := Scalar.addi v0 c91_i32
  let v1301 : Index := Scalar.indexCast v1300
  ![v1301.toNat]
def k0_off184 (v1302 : BitVec 32) : Fin 2 → Nat :=
  let c0_i32_767 : BitVec 32 := 0#32
  ![v1302.toNat, 0]

def k0_chk92 (v1302 : BitVec 32) : Prop :=
  (∀ a, (k0_off184 v1302) a + S1x1024.size a ≤ S50257x1024.size a)
instance k0_chk92.dec : ∀ (v1302 : BitVec 32), Decidable (k0_chk92 v1302) := fun v1302 => decidable_of_iff' _ (Iff.of_eq (k0_chk92.eq_1 v1302))
theorem k0_off184_inb : ∀ (v1302 : BitVec 32) (k0_hw92 : k0_chk92 v1302), ∀ a, (k0_off184 v1302) a + S1x1024.size a ≤ S50257x1024.size a := fun v1302 k0_hw92 => k0_hw92

def k0_off185 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v1309 : BitVec 32 := Scalar.addi v0 c92_i32
  let v1310 : Index := Scalar.indexCast v1309
  ![v1310.toNat]
def k0_off186 (v1311 : BitVec 32) : Fin 2 → Nat :=
  let c0_i32_771 : BitVec 32 := 0#32
  ![v1311.toNat, 0]

def k0_chk93 (v1311 : BitVec 32) : Prop :=
  (∀ a, (k0_off186 v1311) a + S1x1024.size a ≤ S50257x1024.size a)
instance k0_chk93.dec : ∀ (v1311 : BitVec 32), Decidable (k0_chk93 v1311) := fun v1311 => decidable_of_iff' _ (Iff.of_eq (k0_chk93.eq_1 v1311))
theorem k0_off186_inb : ∀ (v1311 : BitVec 32) (k0_hw93 : k0_chk93 v1311), ∀ a, (k0_off186 v1311) a + S1x1024.size a ≤ S50257x1024.size a := fun v1311 k0_hw93 => k0_hw93

def k0_off187 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v1318 : BitVec 32 := Scalar.addi v0 c93_i32
  let v1319 : Index := Scalar.indexCast v1318
  ![v1319.toNat]
def k0_off188 (v1320 : BitVec 32) : Fin 2 → Nat :=
  let c0_i32_775 : BitVec 32 := 0#32
  ![v1320.toNat, 0]

def k0_chk94 (v1320 : BitVec 32) : Prop :=
  (∀ a, (k0_off188 v1320) a + S1x1024.size a ≤ S50257x1024.size a)
instance k0_chk94.dec : ∀ (v1320 : BitVec 32), Decidable (k0_chk94 v1320) := fun v1320 => decidable_of_iff' _ (Iff.of_eq (k0_chk94.eq_1 v1320))
theorem k0_off188_inb : ∀ (v1320 : BitVec 32) (k0_hw94 : k0_chk94 v1320), ∀ a, (k0_off188 v1320) a + S1x1024.size a ≤ S50257x1024.size a := fun v1320 k0_hw94 => k0_hw94

def k0_off189 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v1327 : BitVec 32 := Scalar.addi v0 c94_i32
  let v1328 : Index := Scalar.indexCast v1327
  ![v1328.toNat]
def k0_off190 (v1329 : BitVec 32) : Fin 2 → Nat :=
  let c0_i32_779 : BitVec 32 := 0#32
  ![v1329.toNat, 0]

def k0_chk95 (v1329 : BitVec 32) : Prop :=
  (∀ a, (k0_off190 v1329) a + S1x1024.size a ≤ S50257x1024.size a)
instance k0_chk95.dec : ∀ (v1329 : BitVec 32), Decidable (k0_chk95 v1329) := fun v1329 => decidable_of_iff' _ (Iff.of_eq (k0_chk95.eq_1 v1329))
theorem k0_off190_inb : ∀ (v1329 : BitVec 32) (k0_hw95 : k0_chk95 v1329), ∀ a, (k0_off190 v1329) a + S1x1024.size a ≤ S50257x1024.size a := fun v1329 k0_hw95 => k0_hw95

def k0_off191 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v1336 : BitVec 32 := Scalar.addi v0 c95_i32
  let v1337 : Index := Scalar.indexCast v1336
  ![v1337.toNat]
def k0_off192 (v1338 : BitVec 32) : Fin 2 → Nat :=
  let c0_i32_783 : BitVec 32 := 0#32
  ![v1338.toNat, 0]

def k0_chk96 (v1338 : BitVec 32) : Prop :=
  (∀ a, (k0_off192 v1338) a + S1x1024.size a ≤ S50257x1024.size a)
instance k0_chk96.dec : ∀ (v1338 : BitVec 32), Decidable (k0_chk96 v1338) := fun v1338 => decidable_of_iff' _ (Iff.of_eq (k0_chk96.eq_1 v1338))
theorem k0_off192_inb : ∀ (v1338 : BitVec 32) (k0_hw96 : k0_chk96 v1338), ∀ a, (k0_off192 v1338) a + S1x1024.size a ≤ S50257x1024.size a := fun v1338 k0_hw96 => k0_hw96

def k0_off193 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v1441 : BitVec 32 := Scalar.addi v0 c96_i32
  let v1442 : Index := Scalar.indexCast v1441
  ![v1442.toNat]
def k0_off194 (v1443 : BitVec 32) : Fin 2 → Nat :=
  let c0_i32_867 : BitVec 32 := 0#32
  ![v1443.toNat, 0]

def k0_chk97 (v1443 : BitVec 32) : Prop :=
  (∀ a, (k0_off194 v1443) a + S1x1024.size a ≤ S50257x1024.size a)
instance k0_chk97.dec : ∀ (v1443 : BitVec 32), Decidable (k0_chk97 v1443) := fun v1443 => decidable_of_iff' _ (Iff.of_eq (k0_chk97.eq_1 v1443))
theorem k0_off194_inb : ∀ (v1443 : BitVec 32) (k0_hw97 : k0_chk97 v1443), ∀ a, (k0_off194 v1443) a + S1x1024.size a ≤ S50257x1024.size a := fun v1443 k0_hw97 => k0_hw97

def k0_off195 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v1450 : BitVec 32 := Scalar.addi v0 c97_i32
  let v1451 : Index := Scalar.indexCast v1450
  ![v1451.toNat]
def k0_off196 (v1452 : BitVec 32) : Fin 2 → Nat :=
  let c0_i32_871 : BitVec 32 := 0#32
  ![v1452.toNat, 0]

def k0_chk98 (v1452 : BitVec 32) : Prop :=
  (∀ a, (k0_off196 v1452) a + S1x1024.size a ≤ S50257x1024.size a)
instance k0_chk98.dec : ∀ (v1452 : BitVec 32), Decidable (k0_chk98 v1452) := fun v1452 => decidable_of_iff' _ (Iff.of_eq (k0_chk98.eq_1 v1452))
theorem k0_off196_inb : ∀ (v1452 : BitVec 32) (k0_hw98 : k0_chk98 v1452), ∀ a, (k0_off196 v1452) a + S1x1024.size a ≤ S50257x1024.size a := fun v1452 k0_hw98 => k0_hw98

def k0_off197 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v1459 : BitVec 32 := Scalar.addi v0 c98_i32
  let v1460 : Index := Scalar.indexCast v1459
  ![v1460.toNat]
def k0_off198 (v1461 : BitVec 32) : Fin 2 → Nat :=
  let c0_i32_875 : BitVec 32 := 0#32
  ![v1461.toNat, 0]

def k0_chk99 (v1461 : BitVec 32) : Prop :=
  (∀ a, (k0_off198 v1461) a + S1x1024.size a ≤ S50257x1024.size a)
instance k0_chk99.dec : ∀ (v1461 : BitVec 32), Decidable (k0_chk99 v1461) := fun v1461 => decidable_of_iff' _ (Iff.of_eq (k0_chk99.eq_1 v1461))
theorem k0_off198_inb : ∀ (v1461 : BitVec 32) (k0_hw99 : k0_chk99 v1461), ∀ a, (k0_off198 v1461) a + S1x1024.size a ≤ S50257x1024.size a := fun v1461 k0_hw99 => k0_hw99

def k0_off199 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v1468 : BitVec 32 := Scalar.addi v0 c99_i32
  let v1469 : Index := Scalar.indexCast v1468
  ![v1469.toNat]
def k0_off200 (v1470 : BitVec 32) : Fin 2 → Nat :=
  let c0_i32_879 : BitVec 32 := 0#32
  ![v1470.toNat, 0]

def k0_chk100 (v1470 : BitVec 32) : Prop :=
  (∀ a, (k0_off200 v1470) a + S1x1024.size a ≤ S50257x1024.size a)
instance k0_chk100.dec : ∀ (v1470 : BitVec 32), Decidable (k0_chk100 v1470) := fun v1470 => decidable_of_iff' _ (Iff.of_eq (k0_chk100.eq_1 v1470))
theorem k0_off200_inb : ∀ (v1470 : BitVec 32) (k0_hw100 : k0_chk100 v1470), ∀ a, (k0_off200 v1470) a + S1x1024.size a ≤ S50257x1024.size a := fun v1470 k0_hw100 => k0_hw100

def k0_off201 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v1477 : BitVec 32 := Scalar.addi v0 c100_i32
  let v1478 : Index := Scalar.indexCast v1477
  ![v1478.toNat]
def k0_off202 (v1479 : BitVec 32) : Fin 2 → Nat :=
  let c0_i32_883 : BitVec 32 := 0#32
  ![v1479.toNat, 0]

def k0_chk101 (v1479 : BitVec 32) : Prop :=
  (∀ a, (k0_off202 v1479) a + S1x1024.size a ≤ S50257x1024.size a)
instance k0_chk101.dec : ∀ (v1479 : BitVec 32), Decidable (k0_chk101 v1479) := fun v1479 => decidable_of_iff' _ (Iff.of_eq (k0_chk101.eq_1 v1479))
theorem k0_off202_inb : ∀ (v1479 : BitVec 32) (k0_hw101 : k0_chk101 v1479), ∀ a, (k0_off202 v1479) a + S1x1024.size a ≤ S50257x1024.size a := fun v1479 k0_hw101 => k0_hw101

def k0_off203 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v1486 : BitVec 32 := Scalar.addi v0 c101_i32
  let v1487 : Index := Scalar.indexCast v1486
  ![v1487.toNat]
def k0_off204 (v1488 : BitVec 32) : Fin 2 → Nat :=
  let c0_i32_887 : BitVec 32 := 0#32
  ![v1488.toNat, 0]

def k0_chk102 (v1488 : BitVec 32) : Prop :=
  (∀ a, (k0_off204 v1488) a + S1x1024.size a ≤ S50257x1024.size a)
instance k0_chk102.dec : ∀ (v1488 : BitVec 32), Decidable (k0_chk102 v1488) := fun v1488 => decidable_of_iff' _ (Iff.of_eq (k0_chk102.eq_1 v1488))
theorem k0_off204_inb : ∀ (v1488 : BitVec 32) (k0_hw102 : k0_chk102 v1488), ∀ a, (k0_off204 v1488) a + S1x1024.size a ≤ S50257x1024.size a := fun v1488 k0_hw102 => k0_hw102

def k0_off205 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v1495 : BitVec 32 := Scalar.addi v0 c102_i32
  let v1496 : Index := Scalar.indexCast v1495
  ![v1496.toNat]
def k0_off206 (v1497 : BitVec 32) : Fin 2 → Nat :=
  let c0_i32_891 : BitVec 32 := 0#32
  ![v1497.toNat, 0]

def k0_chk103 (v1497 : BitVec 32) : Prop :=
  (∀ a, (k0_off206 v1497) a + S1x1024.size a ≤ S50257x1024.size a)
instance k0_chk103.dec : ∀ (v1497 : BitVec 32), Decidable (k0_chk103 v1497) := fun v1497 => decidable_of_iff' _ (Iff.of_eq (k0_chk103.eq_1 v1497))
theorem k0_off206_inb : ∀ (v1497 : BitVec 32) (k0_hw103 : k0_chk103 v1497), ∀ a, (k0_off206 v1497) a + S1x1024.size a ≤ S50257x1024.size a := fun v1497 k0_hw103 => k0_hw103

def k0_off207 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v1504 : BitVec 32 := Scalar.addi v0 c103_i32
  let v1505 : Index := Scalar.indexCast v1504
  ![v1505.toNat]
def k0_off208 (v1506 : BitVec 32) : Fin 2 → Nat :=
  let c0_i32_895 : BitVec 32 := 0#32
  ![v1506.toNat, 0]

def k0_chk104 (v1506 : BitVec 32) : Prop :=
  (∀ a, (k0_off208 v1506) a + S1x1024.size a ≤ S50257x1024.size a)
instance k0_chk104.dec : ∀ (v1506 : BitVec 32), Decidable (k0_chk104 v1506) := fun v1506 => decidable_of_iff' _ (Iff.of_eq (k0_chk104.eq_1 v1506))
theorem k0_off208_inb : ∀ (v1506 : BitVec 32) (k0_hw104 : k0_chk104 v1506), ∀ a, (k0_off208 v1506) a + S1x1024.size a ≤ S50257x1024.size a := fun v1506 k0_hw104 => k0_hw104

def k0_off209 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v1513 : BitVec 32 := Scalar.addi v0 c104_i32
  let v1514 : Index := Scalar.indexCast v1513
  ![v1514.toNat]
def k0_off210 (v1515 : BitVec 32) : Fin 2 → Nat :=
  let c0_i32_899 : BitVec 32 := 0#32
  ![v1515.toNat, 0]

def k0_chk105 (v1515 : BitVec 32) : Prop :=
  (∀ a, (k0_off210 v1515) a + S1x1024.size a ≤ S50257x1024.size a)
instance k0_chk105.dec : ∀ (v1515 : BitVec 32), Decidable (k0_chk105 v1515) := fun v1515 => decidable_of_iff' _ (Iff.of_eq (k0_chk105.eq_1 v1515))
theorem k0_off210_inb : ∀ (v1515 : BitVec 32) (k0_hw105 : k0_chk105 v1515), ∀ a, (k0_off210 v1515) a + S1x1024.size a ≤ S50257x1024.size a := fun v1515 k0_hw105 => k0_hw105

def k0_off211 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v1522 : BitVec 32 := Scalar.addi v0 c105_i32
  let v1523 : Index := Scalar.indexCast v1522
  ![v1523.toNat]
def k0_off212 (v1524 : BitVec 32) : Fin 2 → Nat :=
  let c0_i32_903 : BitVec 32 := 0#32
  ![v1524.toNat, 0]

def k0_chk106 (v1524 : BitVec 32) : Prop :=
  (∀ a, (k0_off212 v1524) a + S1x1024.size a ≤ S50257x1024.size a)
instance k0_chk106.dec : ∀ (v1524 : BitVec 32), Decidable (k0_chk106 v1524) := fun v1524 => decidable_of_iff' _ (Iff.of_eq (k0_chk106.eq_1 v1524))
theorem k0_off212_inb : ∀ (v1524 : BitVec 32) (k0_hw106 : k0_chk106 v1524), ∀ a, (k0_off212 v1524) a + S1x1024.size a ≤ S50257x1024.size a := fun v1524 k0_hw106 => k0_hw106

def k0_off213 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v1531 : BitVec 32 := Scalar.addi v0 c106_i32
  let v1532 : Index := Scalar.indexCast v1531
  ![v1532.toNat]
def k0_off214 (v1533 : BitVec 32) : Fin 2 → Nat :=
  let c0_i32_907 : BitVec 32 := 0#32
  ![v1533.toNat, 0]

def k0_chk107 (v1533 : BitVec 32) : Prop :=
  (∀ a, (k0_off214 v1533) a + S1x1024.size a ≤ S50257x1024.size a)
instance k0_chk107.dec : ∀ (v1533 : BitVec 32), Decidable (k0_chk107 v1533) := fun v1533 => decidable_of_iff' _ (Iff.of_eq (k0_chk107.eq_1 v1533))
theorem k0_off214_inb : ∀ (v1533 : BitVec 32) (k0_hw107 : k0_chk107 v1533), ∀ a, (k0_off214 v1533) a + S1x1024.size a ≤ S50257x1024.size a := fun v1533 k0_hw107 => k0_hw107

def k0_off215 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v1540 : BitVec 32 := Scalar.addi v0 c107_i32
  let v1541 : Index := Scalar.indexCast v1540
  ![v1541.toNat]
def k0_off216 (v1542 : BitVec 32) : Fin 2 → Nat :=
  let c0_i32_911 : BitVec 32 := 0#32
  ![v1542.toNat, 0]

def k0_chk108 (v1542 : BitVec 32) : Prop :=
  (∀ a, (k0_off216 v1542) a + S1x1024.size a ≤ S50257x1024.size a)
instance k0_chk108.dec : ∀ (v1542 : BitVec 32), Decidable (k0_chk108 v1542) := fun v1542 => decidable_of_iff' _ (Iff.of_eq (k0_chk108.eq_1 v1542))
theorem k0_off216_inb : ∀ (v1542 : BitVec 32) (k0_hw108 : k0_chk108 v1542), ∀ a, (k0_off216 v1542) a + S1x1024.size a ≤ S50257x1024.size a := fun v1542 k0_hw108 => k0_hw108

def k0_off217 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v1549 : BitVec 32 := Scalar.addi v0 c108_i32
  let v1550 : Index := Scalar.indexCast v1549
  ![v1550.toNat]
def k0_off218 (v1551 : BitVec 32) : Fin 2 → Nat :=
  let c0_i32_915 : BitVec 32 := 0#32
  ![v1551.toNat, 0]

def k0_chk109 (v1551 : BitVec 32) : Prop :=
  (∀ a, (k0_off218 v1551) a + S1x1024.size a ≤ S50257x1024.size a)
instance k0_chk109.dec : ∀ (v1551 : BitVec 32), Decidable (k0_chk109 v1551) := fun v1551 => decidable_of_iff' _ (Iff.of_eq (k0_chk109.eq_1 v1551))
theorem k0_off218_inb : ∀ (v1551 : BitVec 32) (k0_hw109 : k0_chk109 v1551), ∀ a, (k0_off218 v1551) a + S1x1024.size a ≤ S50257x1024.size a := fun v1551 k0_hw109 => k0_hw109

def k0_off219 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v1558 : BitVec 32 := Scalar.addi v0 c109_i32
  let v1559 : Index := Scalar.indexCast v1558
  ![v1559.toNat]
def k0_off220 (v1560 : BitVec 32) : Fin 2 → Nat :=
  let c0_i32_919 : BitVec 32 := 0#32
  ![v1560.toNat, 0]

def k0_chk110 (v1560 : BitVec 32) : Prop :=
  (∀ a, (k0_off220 v1560) a + S1x1024.size a ≤ S50257x1024.size a)
instance k0_chk110.dec : ∀ (v1560 : BitVec 32), Decidable (k0_chk110 v1560) := fun v1560 => decidable_of_iff' _ (Iff.of_eq (k0_chk110.eq_1 v1560))
theorem k0_off220_inb : ∀ (v1560 : BitVec 32) (k0_hw110 : k0_chk110 v1560), ∀ a, (k0_off220 v1560) a + S1x1024.size a ≤ S50257x1024.size a := fun v1560 k0_hw110 => k0_hw110

def k0_off221 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v1567 : BitVec 32 := Scalar.addi v0 c110_i32
  let v1568 : Index := Scalar.indexCast v1567
  ![v1568.toNat]
def k0_off222 (v1569 : BitVec 32) : Fin 2 → Nat :=
  let c0_i32_923 : BitVec 32 := 0#32
  ![v1569.toNat, 0]

def k0_chk111 (v1569 : BitVec 32) : Prop :=
  (∀ a, (k0_off222 v1569) a + S1x1024.size a ≤ S50257x1024.size a)
instance k0_chk111.dec : ∀ (v1569 : BitVec 32), Decidable (k0_chk111 v1569) := fun v1569 => decidable_of_iff' _ (Iff.of_eq (k0_chk111.eq_1 v1569))
theorem k0_off222_inb : ∀ (v1569 : BitVec 32) (k0_hw111 : k0_chk111 v1569), ∀ a, (k0_off222 v1569) a + S1x1024.size a ≤ S50257x1024.size a := fun v1569 k0_hw111 => k0_hw111

def k0_off223 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1576 : BitVec 32 := Scalar.addi v0 c111_i32
  let v1577 : Index := Scalar.indexCast v1576
  ![v1577.toNat]
def k0_off224 (v1578 : BitVec 32) : Fin 2 → Nat :=
  let c0_i32_927 : BitVec 32 := 0#32
  ![v1578.toNat, 0]

def k0_chk112 (v1578 : BitVec 32) : Prop :=
  (∀ a, (k0_off224 v1578) a + S1x1024.size a ≤ S50257x1024.size a)
instance k0_chk112.dec : ∀ (v1578 : BitVec 32), Decidable (k0_chk112 v1578) := fun v1578 => decidable_of_iff' _ (Iff.of_eq (k0_chk112.eq_1 v1578))
theorem k0_off224_inb : ∀ (v1578 : BitVec 32) (k0_hw112 : k0_chk112 v1578), ∀ a, (k0_off224 v1578) a + S1x1024.size a ≤ S50257x1024.size a := fun v1578 k0_hw112 => k0_hw112

def k0_off225 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1681 : BitVec 32 := Scalar.addi v0 c112_i32
  let v1682 : Index := Scalar.indexCast v1681
  ![v1682.toNat]
def k0_off226 (v1683 : BitVec 32) : Fin 2 → Nat :=
  let c0_i32_1011 : BitVec 32 := 0#32
  ![v1683.toNat, 0]

def k0_chk113 (v1683 : BitVec 32) : Prop :=
  (∀ a, (k0_off226 v1683) a + S1x1024.size a ≤ S50257x1024.size a)
instance k0_chk113.dec : ∀ (v1683 : BitVec 32), Decidable (k0_chk113 v1683) := fun v1683 => decidable_of_iff' _ (Iff.of_eq (k0_chk113.eq_1 v1683))
theorem k0_off226_inb : ∀ (v1683 : BitVec 32) (k0_hw113 : k0_chk113 v1683), ∀ a, (k0_off226 v1683) a + S1x1024.size a ≤ S50257x1024.size a := fun v1683 k0_hw113 => k0_hw113

def k0_off227 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1690 : BitVec 32 := Scalar.addi v0 c113_i32
  let v1691 : Index := Scalar.indexCast v1690
  ![v1691.toNat]
def k0_off228 (v1692 : BitVec 32) : Fin 2 → Nat :=
  let c0_i32_1015 : BitVec 32 := 0#32
  ![v1692.toNat, 0]

def k0_chk114 (v1692 : BitVec 32) : Prop :=
  (∀ a, (k0_off228 v1692) a + S1x1024.size a ≤ S50257x1024.size a)
instance k0_chk114.dec : ∀ (v1692 : BitVec 32), Decidable (k0_chk114 v1692) := fun v1692 => decidable_of_iff' _ (Iff.of_eq (k0_chk114.eq_1 v1692))
theorem k0_off228_inb : ∀ (v1692 : BitVec 32) (k0_hw114 : k0_chk114 v1692), ∀ a, (k0_off228 v1692) a + S1x1024.size a ≤ S50257x1024.size a := fun v1692 k0_hw114 => k0_hw114

def k0_off229 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1699 : BitVec 32 := Scalar.addi v0 c114_i32
  let v1700 : Index := Scalar.indexCast v1699
  ![v1700.toNat]
def k0_off230 (v1701 : BitVec 32) : Fin 2 → Nat :=
  let c0_i32_1019 : BitVec 32 := 0#32
  ![v1701.toNat, 0]

def k0_chk115 (v1701 : BitVec 32) : Prop :=
  (∀ a, (k0_off230 v1701) a + S1x1024.size a ≤ S50257x1024.size a)
instance k0_chk115.dec : ∀ (v1701 : BitVec 32), Decidable (k0_chk115 v1701) := fun v1701 => decidable_of_iff' _ (Iff.of_eq (k0_chk115.eq_1 v1701))
theorem k0_off230_inb : ∀ (v1701 : BitVec 32) (k0_hw115 : k0_chk115 v1701), ∀ a, (k0_off230 v1701) a + S1x1024.size a ≤ S50257x1024.size a := fun v1701 k0_hw115 => k0_hw115

def k0_off231 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1708 : BitVec 32 := Scalar.addi v0 c115_i32
  let v1709 : Index := Scalar.indexCast v1708
  ![v1709.toNat]
def k0_off232 (v1710 : BitVec 32) : Fin 2 → Nat :=
  let c0_i32_1023 : BitVec 32 := 0#32
  ![v1710.toNat, 0]

def k0_chk116 (v1710 : BitVec 32) : Prop :=
  (∀ a, (k0_off232 v1710) a + S1x1024.size a ≤ S50257x1024.size a)
instance k0_chk116.dec : ∀ (v1710 : BitVec 32), Decidable (k0_chk116 v1710) := fun v1710 => decidable_of_iff' _ (Iff.of_eq (k0_chk116.eq_1 v1710))
theorem k0_off232_inb : ∀ (v1710 : BitVec 32) (k0_hw116 : k0_chk116 v1710), ∀ a, (k0_off232 v1710) a + S1x1024.size a ≤ S50257x1024.size a := fun v1710 k0_hw116 => k0_hw116

def k0_off233 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1717 : BitVec 32 := Scalar.addi v0 c116_i32
  let v1718 : Index := Scalar.indexCast v1717
  ![v1718.toNat]
def k0_off234 (v1719 : BitVec 32) : Fin 2 → Nat :=
  let c0_i32_1027 : BitVec 32 := 0#32
  ![v1719.toNat, 0]

def k0_chk117 (v1719 : BitVec 32) : Prop :=
  (∀ a, (k0_off234 v1719) a + S1x1024.size a ≤ S50257x1024.size a)
instance k0_chk117.dec : ∀ (v1719 : BitVec 32), Decidable (k0_chk117 v1719) := fun v1719 => decidable_of_iff' _ (Iff.of_eq (k0_chk117.eq_1 v1719))
theorem k0_off234_inb : ∀ (v1719 : BitVec 32) (k0_hw117 : k0_chk117 v1719), ∀ a, (k0_off234 v1719) a + S1x1024.size a ≤ S50257x1024.size a := fun v1719 k0_hw117 => k0_hw117

def k0_off235 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1726 : BitVec 32 := Scalar.addi v0 c117_i32
  let v1727 : Index := Scalar.indexCast v1726
  ![v1727.toNat]
def k0_off236 (v1728 : BitVec 32) : Fin 2 → Nat :=
  let c0_i32_1031 : BitVec 32 := 0#32
  ![v1728.toNat, 0]

def k0_chk118 (v1728 : BitVec 32) : Prop :=
  (∀ a, (k0_off236 v1728) a + S1x1024.size a ≤ S50257x1024.size a)
instance k0_chk118.dec : ∀ (v1728 : BitVec 32), Decidable (k0_chk118 v1728) := fun v1728 => decidable_of_iff' _ (Iff.of_eq (k0_chk118.eq_1 v1728))
theorem k0_off236_inb : ∀ (v1728 : BitVec 32) (k0_hw118 : k0_chk118 v1728), ∀ a, (k0_off236 v1728) a + S1x1024.size a ≤ S50257x1024.size a := fun v1728 k0_hw118 => k0_hw118

def k0_off237 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1735 : BitVec 32 := Scalar.addi v0 c118_i32
  let v1736 : Index := Scalar.indexCast v1735
  ![v1736.toNat]
def k0_off238 (v1737 : BitVec 32) : Fin 2 → Nat :=
  let c0_i32_1035 : BitVec 32 := 0#32
  ![v1737.toNat, 0]

def k0_chk119 (v1737 : BitVec 32) : Prop :=
  (∀ a, (k0_off238 v1737) a + S1x1024.size a ≤ S50257x1024.size a)
instance k0_chk119.dec : ∀ (v1737 : BitVec 32), Decidable (k0_chk119 v1737) := fun v1737 => decidable_of_iff' _ (Iff.of_eq (k0_chk119.eq_1 v1737))
theorem k0_off238_inb : ∀ (v1737 : BitVec 32) (k0_hw119 : k0_chk119 v1737), ∀ a, (k0_off238 v1737) a + S1x1024.size a ≤ S50257x1024.size a := fun v1737 k0_hw119 => k0_hw119

def k0_off239 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1744 : BitVec 32 := Scalar.addi v0 c119_i32
  let v1745 : Index := Scalar.indexCast v1744
  ![v1745.toNat]
def k0_off240 (v1746 : BitVec 32) : Fin 2 → Nat :=
  let c0_i32_1039 : BitVec 32 := 0#32
  ![v1746.toNat, 0]

def k0_chk120 (v1746 : BitVec 32) : Prop :=
  (∀ a, (k0_off240 v1746) a + S1x1024.size a ≤ S50257x1024.size a)
instance k0_chk120.dec : ∀ (v1746 : BitVec 32), Decidable (k0_chk120 v1746) := fun v1746 => decidable_of_iff' _ (Iff.of_eq (k0_chk120.eq_1 v1746))
theorem k0_off240_inb : ∀ (v1746 : BitVec 32) (k0_hw120 : k0_chk120 v1746), ∀ a, (k0_off240 v1746) a + S1x1024.size a ≤ S50257x1024.size a := fun v1746 k0_hw120 => k0_hw120

def k0_off241 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1753 : BitVec 32 := Scalar.addi v0 c120_i32
  let v1754 : Index := Scalar.indexCast v1753
  ![v1754.toNat]
def k0_off242 (v1755 : BitVec 32) : Fin 2 → Nat :=
  let c0_i32_1043 : BitVec 32 := 0#32
  ![v1755.toNat, 0]

def k0_chk121 (v1755 : BitVec 32) : Prop :=
  (∀ a, (k0_off242 v1755) a + S1x1024.size a ≤ S50257x1024.size a)
instance k0_chk121.dec : ∀ (v1755 : BitVec 32), Decidable (k0_chk121 v1755) := fun v1755 => decidable_of_iff' _ (Iff.of_eq (k0_chk121.eq_1 v1755))
theorem k0_off242_inb : ∀ (v1755 : BitVec 32) (k0_hw121 : k0_chk121 v1755), ∀ a, (k0_off242 v1755) a + S1x1024.size a ≤ S50257x1024.size a := fun v1755 k0_hw121 => k0_hw121

def k0_off243 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1762 : BitVec 32 := Scalar.addi v0 c121_i32
  let v1763 : Index := Scalar.indexCast v1762
  ![v1763.toNat]
def k0_off244 (v1764 : BitVec 32) : Fin 2 → Nat :=
  let c0_i32_1047 : BitVec 32 := 0#32
  ![v1764.toNat, 0]

def k0_chk122 (v1764 : BitVec 32) : Prop :=
  (∀ a, (k0_off244 v1764) a + S1x1024.size a ≤ S50257x1024.size a)
instance k0_chk122.dec : ∀ (v1764 : BitVec 32), Decidable (k0_chk122 v1764) := fun v1764 => decidable_of_iff' _ (Iff.of_eq (k0_chk122.eq_1 v1764))
theorem k0_off244_inb : ∀ (v1764 : BitVec 32) (k0_hw122 : k0_chk122 v1764), ∀ a, (k0_off244 v1764) a + S1x1024.size a ≤ S50257x1024.size a := fun v1764 k0_hw122 => k0_hw122

def k0_off245 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1771 : BitVec 32 := Scalar.addi v0 c122_i32
  let v1772 : Index := Scalar.indexCast v1771
  ![v1772.toNat]
def k0_off246 (v1773 : BitVec 32) : Fin 2 → Nat :=
  let c0_i32_1051 : BitVec 32 := 0#32
  ![v1773.toNat, 0]

def k0_chk123 (v1773 : BitVec 32) : Prop :=
  (∀ a, (k0_off246 v1773) a + S1x1024.size a ≤ S50257x1024.size a)
instance k0_chk123.dec : ∀ (v1773 : BitVec 32), Decidable (k0_chk123 v1773) := fun v1773 => decidable_of_iff' _ (Iff.of_eq (k0_chk123.eq_1 v1773))
theorem k0_off246_inb : ∀ (v1773 : BitVec 32) (k0_hw123 : k0_chk123 v1773), ∀ a, (k0_off246 v1773) a + S1x1024.size a ≤ S50257x1024.size a := fun v1773 k0_hw123 => k0_hw123

def k0_off247 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1780 : BitVec 32 := Scalar.addi v0 c123_i32
  let v1781 : Index := Scalar.indexCast v1780
  ![v1781.toNat]
def k0_off248 (v1782 : BitVec 32) : Fin 2 → Nat :=
  let c0_i32_1055 : BitVec 32 := 0#32
  ![v1782.toNat, 0]

def k0_chk124 (v1782 : BitVec 32) : Prop :=
  (∀ a, (k0_off248 v1782) a + S1x1024.size a ≤ S50257x1024.size a)
instance k0_chk124.dec : ∀ (v1782 : BitVec 32), Decidable (k0_chk124 v1782) := fun v1782 => decidable_of_iff' _ (Iff.of_eq (k0_chk124.eq_1 v1782))
theorem k0_off248_inb : ∀ (v1782 : BitVec 32) (k0_hw124 : k0_chk124 v1782), ∀ a, (k0_off248 v1782) a + S1x1024.size a ≤ S50257x1024.size a := fun v1782 k0_hw124 => k0_hw124

def k0_off249 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1789 : BitVec 32 := Scalar.addi v0 c124_i32
  let v1790 : Index := Scalar.indexCast v1789
  ![v1790.toNat]
def k0_off250 (v1791 : BitVec 32) : Fin 2 → Nat :=
  let c0_i32_1059 : BitVec 32 := 0#32
  ![v1791.toNat, 0]

def k0_chk125 (v1791 : BitVec 32) : Prop :=
  (∀ a, (k0_off250 v1791) a + S1x1024.size a ≤ S50257x1024.size a)
instance k0_chk125.dec : ∀ (v1791 : BitVec 32), Decidable (k0_chk125 v1791) := fun v1791 => decidable_of_iff' _ (Iff.of_eq (k0_chk125.eq_1 v1791))
theorem k0_off250_inb : ∀ (v1791 : BitVec 32) (k0_hw125 : k0_chk125 v1791), ∀ a, (k0_off250 v1791) a + S1x1024.size a ≤ S50257x1024.size a := fun v1791 k0_hw125 => k0_hw125

def k0_off251 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1798 : BitVec 32 := Scalar.addi v0 c125_i32
  let v1799 : Index := Scalar.indexCast v1798
  ![v1799.toNat]
def k0_off252 (v1800 : BitVec 32) : Fin 2 → Nat :=
  let c0_i32_1063 : BitVec 32 := 0#32
  ![v1800.toNat, 0]

def k0_chk126 (v1800 : BitVec 32) : Prop :=
  (∀ a, (k0_off252 v1800) a + S1x1024.size a ≤ S50257x1024.size a)
instance k0_chk126.dec : ∀ (v1800 : BitVec 32), Decidable (k0_chk126 v1800) := fun v1800 => decidable_of_iff' _ (Iff.of_eq (k0_chk126.eq_1 v1800))
theorem k0_off252_inb : ∀ (v1800 : BitVec 32) (k0_hw126 : k0_chk126 v1800), ∀ a, (k0_off252 v1800) a + S1x1024.size a ≤ S50257x1024.size a := fun v1800 k0_hw126 => k0_hw126

def k0_off253 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1807 : BitVec 32 := Scalar.addi v0 c126_i32
  let v1808 : Index := Scalar.indexCast v1807
  ![v1808.toNat]
def k0_off254 (v1809 : BitVec 32) : Fin 2 → Nat :=
  let c0_i32_1067 : BitVec 32 := 0#32
  ![v1809.toNat, 0]

def k0_chk127 (v1809 : BitVec 32) : Prop :=
  (∀ a, (k0_off254 v1809) a + S1x1024.size a ≤ S50257x1024.size a)
instance k0_chk127.dec : ∀ (v1809 : BitVec 32), Decidable (k0_chk127 v1809) := fun v1809 => decidable_of_iff' _ (Iff.of_eq (k0_chk127.eq_1 v1809))
theorem k0_off254_inb : ∀ (v1809 : BitVec 32) (k0_hw127 : k0_chk127 v1809), ∀ a, (k0_off254 v1809) a + S1x1024.size a ≤ S50257x1024.size a := fun v1809 k0_hw127 => k0_hw127

def k0_off255 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1816 : BitVec 32 := Scalar.addi v0 c127_i32
  let v1817 : Index := Scalar.indexCast v1816
  ![v1817.toNat]
def k0_off256 (v1818 : BitVec 32) : Fin 2 → Nat :=
  let c0_i32_1071 : BitVec 32 := 0#32
  ![v1818.toNat, 0]

def k0_chk128 (v1818 : BitVec 32) : Prop :=
  (∀ a, (k0_off256 v1818) a + S1x1024.size a ≤ S50257x1024.size a)
instance k0_chk128.dec : ∀ (v1818 : BitVec 32), Decidable (k0_chk128 v1818) := fun v1818 => decidable_of_iff' _ (Iff.of_eq (k0_chk128.eq_1 v1818))
theorem k0_off256_inb : ∀ (v1818 : BitVec 32) (k0_hw128 : k0_chk128 v1818), ∀ a, (k0_off256 v1818) a + S1x1024.size a ≤ S50257x1024.size a := fun v1818 k0_hw128 => k0_hw128

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  shapeCasts_S4x4096_S16384 : S4x4096.ShapeCasts S16384
  numel1_S1 : S1.numel = 1
  inb_S16_S1_0 : ∀ a, (![0] : Fin 1 → Nat) a + S1.size a ≤ S16.size a
  squeezes_S1_S_ : S1.Squeezes S_
  inb_S128x1024_S1x1024_0_0 : ∀ a, (![0, 0] : Fin 2 → Nat) a + S1x1024.size a ≤ S128x1024.size a
  squeezes_S1x1024_S1024 : S1x1024.Squeezes S1024
  inb_S16_S1_1 : ∀ a, (![1] : Fin 1 → Nat) a + S1.size a ≤ S16.size a
  inb_S128x1024_S1x1024_1_0 : ∀ a, (![1, 0] : Fin 2 → Nat) a + S1x1024.size a ≤ S128x1024.size a
  inb_S16_S1_2 : ∀ a, (![2] : Fin 1 → Nat) a + S1.size a ≤ S16.size a
  inb_S128x1024_S1x1024_2_0 : ∀ a, (![2, 0] : Fin 2 → Nat) a + S1x1024.size a ≤ S128x1024.size a
  inb_S16_S1_3 : ∀ a, (![3] : Fin 1 → Nat) a + S1.size a ≤ S16.size a
  inb_S128x1024_S1x1024_3_0 : ∀ a, (![3, 0] : Fin 2 → Nat) a + S1x1024.size a ≤ S128x1024.size a
  inb_S16_S1_4 : ∀ a, (![4] : Fin 1 → Nat) a + S1.size a ≤ S16.size a
  inb_S128x1024_S1x1024_4_0 : ∀ a, (![4, 0] : Fin 2 → Nat) a + S1x1024.size a ≤ S128x1024.size a
  inb_S16_S1_5 : ∀ a, (![5] : Fin 1 → Nat) a + S1.size a ≤ S16.size a
  inb_S128x1024_S1x1024_5_0 : ∀ a, (![5, 0] : Fin 2 → Nat) a + S1x1024.size a ≤ S128x1024.size a
  inb_S16_S1_6 : ∀ a, (![6] : Fin 1 → Nat) a + S1.size a ≤ S16.size a
  inb_S128x1024_S1x1024_6_0 : ∀ a, (![6, 0] : Fin 2 → Nat) a + S1x1024.size a ≤ S128x1024.size a
  inb_S16_S1_7 : ∀ a, (![7] : Fin 1 → Nat) a + S1.size a ≤ S16.size a
  inb_S128x1024_S1x1024_7_0 : ∀ a, (![7, 0] : Fin 2 → Nat) a + S1x1024.size a ≤ S128x1024.size a
  inb_S16_S1_8 : ∀ a, (![8] : Fin 1 → Nat) a + S1.size a ≤ S16.size a
  inb_S128x1024_S1x1024_8_0 : ∀ a, (![8, 0] : Fin 2 → Nat) a + S1x1024.size a ≤ S128x1024.size a
  inb_S16_S1_9 : ∀ a, (![9] : Fin 1 → Nat) a + S1.size a ≤ S16.size a
  inb_S128x1024_S1x1024_9_0 : ∀ a, (![9, 0] : Fin 2 → Nat) a + S1x1024.size a ≤ S128x1024.size a
  inb_S16_S1_10 : ∀ a, (![10] : Fin 1 → Nat) a + S1.size a ≤ S16.size a
  inb_S128x1024_S1x1024_10_0 : ∀ a, (![10, 0] : Fin 2 → Nat) a + S1x1024.size a ≤ S128x1024.size a
  inb_S16_S1_11 : ∀ a, (![11] : Fin 1 → Nat) a + S1.size a ≤ S16.size a
  inb_S128x1024_S1x1024_11_0 : ∀ a, (![11, 0] : Fin 2 → Nat) a + S1x1024.size a ≤ S128x1024.size a
  inb_S16_S1_12 : ∀ a, (![12] : Fin 1 → Nat) a + S1.size a ≤ S16.size a
  inb_S128x1024_S1x1024_12_0 : ∀ a, (![12, 0] : Fin 2 → Nat) a + S1x1024.size a ≤ S128x1024.size a
  inb_S16_S1_13 : ∀ a, (![13] : Fin 1 → Nat) a + S1.size a ≤ S16.size a
  inb_S128x1024_S1x1024_13_0 : ∀ a, (![13, 0] : Fin 2 → Nat) a + S1x1024.size a ≤ S128x1024.size a
  inb_S16_S1_14 : ∀ a, (![14] : Fin 1 → Nat) a + S1.size a ≤ S16.size a
  inb_S128x1024_S1x1024_14_0 : ∀ a, (![14, 0] : Fin 2 → Nat) a + S1x1024.size a ≤ S128x1024.size a
  inb_S16_S1_15 : ∀ a, (![15] : Fin 1 → Nat) a + S1.size a ≤ S16.size a
  inb_S128x1024_S1x1024_15_0 : ∀ a, (![15, 0] : Fin 2 → Nat) a + S1x1024.size a ≤ S128x1024.size a
  inb_S50257x1024_S1x1024_0_0 : ∀ a, (![0, 0] : Fin 2 → Nat) a + S1x1024.size a ≤ S50257x1024.size a
  inb_S128x1024_S1x1024_16_0 : ∀ a, (![16, 0] : Fin 2 → Nat) a + S1x1024.size a ≤ S128x1024.size a
  inb_S128x1024_S1x1024_17_0 : ∀ a, (![17, 0] : Fin 2 → Nat) a + S1x1024.size a ≤ S128x1024.size a
  inb_S128x1024_S1x1024_18_0 : ∀ a, (![18, 0] : Fin 2 → Nat) a + S1x1024.size a ≤ S128x1024.size a
  inb_S128x1024_S1x1024_19_0 : ∀ a, (![19, 0] : Fin 2 → Nat) a + S1x1024.size a ≤ S128x1024.size a
  inb_S128x1024_S1x1024_20_0 : ∀ a, (![20, 0] : Fin 2 → Nat) a + S1x1024.size a ≤ S128x1024.size a
  inb_S128x1024_S1x1024_21_0 : ∀ a, (![21, 0] : Fin 2 → Nat) a + S1x1024.size a ≤ S128x1024.size a
  inb_S128x1024_S1x1024_22_0 : ∀ a, (![22, 0] : Fin 2 → Nat) a + S1x1024.size a ≤ S128x1024.size a
  inb_S128x1024_S1x1024_23_0 : ∀ a, (![23, 0] : Fin 2 → Nat) a + S1x1024.size a ≤ S128x1024.size a
  inb_S128x1024_S1x1024_24_0 : ∀ a, (![24, 0] : Fin 2 → Nat) a + S1x1024.size a ≤ S128x1024.size a
  inb_S128x1024_S1x1024_25_0 : ∀ a, (![25, 0] : Fin 2 → Nat) a + S1x1024.size a ≤ S128x1024.size a
  inb_S128x1024_S1x1024_26_0 : ∀ a, (![26, 0] : Fin 2 → Nat) a + S1x1024.size a ≤ S128x1024.size a
  inb_S128x1024_S1x1024_27_0 : ∀ a, (![27, 0] : Fin 2 → Nat) a + S1x1024.size a ≤ S128x1024.size a
  inb_S128x1024_S1x1024_28_0 : ∀ a, (![28, 0] : Fin 2 → Nat) a + S1x1024.size a ≤ S128x1024.size a
  inb_S128x1024_S1x1024_29_0 : ∀ a, (![29, 0] : Fin 2 → Nat) a + S1x1024.size a ≤ S128x1024.size a
  inb_S128x1024_S1x1024_30_0 : ∀ a, (![30, 0] : Fin 2 → Nat) a + S1x1024.size a ≤ S128x1024.size a
  inb_S128x1024_S1x1024_31_0 : ∀ a, (![31, 0] : Fin 2 → Nat) a + S1x1024.size a ≤ S128x1024.size a
  inb_S128x1024_S1x1024_32_0 : ∀ a, (![32, 0] : Fin 2 → Nat) a + S1x1024.size a ≤ S128x1024.size a
  inb_S128x1024_S1x1024_33_0 : ∀ a, (![33, 0] : Fin 2 → Nat) a + S1x1024.size a ≤ S128x1024.size a
  inb_S128x1024_S1x1024_34_0 : ∀ a, (![34, 0] : Fin 2 → Nat) a + S1x1024.size a ≤ S128x1024.size a
  inb_S128x1024_S1x1024_35_0 : ∀ a, (![35, 0] : Fin 2 → Nat) a + S1x1024.size a ≤ S128x1024.size a
  inb_S128x1024_S1x1024_36_0 : ∀ a, (![36, 0] : Fin 2 → Nat) a + S1x1024.size a ≤ S128x1024.size a
  inb_S128x1024_S1x1024_37_0 : ∀ a, (![37, 0] : Fin 2 → Nat) a + S1x1024.size a ≤ S128x1024.size a
  inb_S128x1024_S1x1024_38_0 : ∀ a, (![38, 0] : Fin 2 → Nat) a + S1x1024.size a ≤ S128x1024.size a
  inb_S128x1024_S1x1024_39_0 : ∀ a, (![39, 0] : Fin 2 → Nat) a + S1x1024.size a ≤ S128x1024.size a
  inb_S128x1024_S1x1024_40_0 : ∀ a, (![40, 0] : Fin 2 → Nat) a + S1x1024.size a ≤ S128x1024.size a
  inb_S128x1024_S1x1024_41_0 : ∀ a, (![41, 0] : Fin 2 → Nat) a + S1x1024.size a ≤ S128x1024.size a
  inb_S128x1024_S1x1024_42_0 : ∀ a, (![42, 0] : Fin 2 → Nat) a + S1x1024.size a ≤ S128x1024.size a
  inb_S128x1024_S1x1024_43_0 : ∀ a, (![43, 0] : Fin 2 → Nat) a + S1x1024.size a ≤ S128x1024.size a
  inb_S128x1024_S1x1024_44_0 : ∀ a, (![44, 0] : Fin 2 → Nat) a + S1x1024.size a ≤ S128x1024.size a
  inb_S128x1024_S1x1024_45_0 : ∀ a, (![45, 0] : Fin 2 → Nat) a + S1x1024.size a ≤ S128x1024.size a
  inb_S128x1024_S1x1024_46_0 : ∀ a, (![46, 0] : Fin 2 → Nat) a + S1x1024.size a ≤ S128x1024.size a
  inb_S128x1024_S1x1024_47_0 : ∀ a, (![47, 0] : Fin 2 → Nat) a + S1x1024.size a ≤ S128x1024.size a
  inb_S128x1024_S1x1024_48_0 : ∀ a, (![48, 0] : Fin 2 → Nat) a + S1x1024.size a ≤ S128x1024.size a
  inb_S128x1024_S1x1024_49_0 : ∀ a, (![49, 0] : Fin 2 → Nat) a + S1x1024.size a ≤ S128x1024.size a
  inb_S128x1024_S1x1024_50_0 : ∀ a, (![50, 0] : Fin 2 → Nat) a + S1x1024.size a ≤ S128x1024.size a
  inb_S128x1024_S1x1024_51_0 : ∀ a, (![51, 0] : Fin 2 → Nat) a + S1x1024.size a ≤ S128x1024.size a
  inb_S128x1024_S1x1024_52_0 : ∀ a, (![52, 0] : Fin 2 → Nat) a + S1x1024.size a ≤ S128x1024.size a
  inb_S128x1024_S1x1024_53_0 : ∀ a, (![53, 0] : Fin 2 → Nat) a + S1x1024.size a ≤ S128x1024.size a
  inb_S128x1024_S1x1024_54_0 : ∀ a, (![54, 0] : Fin 2 → Nat) a + S1x1024.size a ≤ S128x1024.size a
  inb_S128x1024_S1x1024_55_0 : ∀ a, (![55, 0] : Fin 2 → Nat) a + S1x1024.size a ≤ S128x1024.size a
  inb_S128x1024_S1x1024_56_0 : ∀ a, (![56, 0] : Fin 2 → Nat) a + S1x1024.size a ≤ S128x1024.size a
  inb_S128x1024_S1x1024_57_0 : ∀ a, (![57, 0] : Fin 2 → Nat) a + S1x1024.size a ≤ S128x1024.size a
  inb_S128x1024_S1x1024_58_0 : ∀ a, (![58, 0] : Fin 2 → Nat) a + S1x1024.size a ≤ S128x1024.size a
  inb_S128x1024_S1x1024_59_0 : ∀ a, (![59, 0] : Fin 2 → Nat) a + S1x1024.size a ≤ S128x1024.size a
  inb_S128x1024_S1x1024_60_0 : ∀ a, (![60, 0] : Fin 2 → Nat) a + S1x1024.size a ≤ S128x1024.size a
  inb_S128x1024_S1x1024_61_0 : ∀ a, (![61, 0] : Fin 2 → Nat) a + S1x1024.size a ≤ S128x1024.size a
  inb_S128x1024_S1x1024_62_0 : ∀ a, (![62, 0] : Fin 2 → Nat) a + S1x1024.size a ≤ S128x1024.size a
  inb_S128x1024_S1x1024_63_0 : ∀ a, (![63, 0] : Fin 2 → Nat) a + S1x1024.size a ≤ S128x1024.size a
  inb_S128x1024_S1x1024_64_0 : ∀ a, (![64, 0] : Fin 2 → Nat) a + S1x1024.size a ≤ S128x1024.size a
  inb_S128x1024_S1x1024_65_0 : ∀ a, (![65, 0] : Fin 2 → Nat) a + S1x1024.size a ≤ S128x1024.size a
  inb_S128x1024_S1x1024_66_0 : ∀ a, (![66, 0] : Fin 2 → Nat) a + S1x1024.size a ≤ S128x1024.size a
  inb_S128x1024_S1x1024_67_0 : ∀ a, (![67, 0] : Fin 2 → Nat) a + S1x1024.size a ≤ S128x1024.size a
  inb_S128x1024_S1x1024_68_0 : ∀ a, (![68, 0] : Fin 2 → Nat) a + S1x1024.size a ≤ S128x1024.size a
  inb_S128x1024_S1x1024_69_0 : ∀ a, (![69, 0] : Fin 2 → Nat) a + S1x1024.size a ≤ S128x1024.size a
  inb_S128x1024_S1x1024_70_0 : ∀ a, (![70, 0] : Fin 2 → Nat) a + S1x1024.size a ≤ S128x1024.size a
  inb_S128x1024_S1x1024_71_0 : ∀ a, (![71, 0] : Fin 2 → Nat) a + S1x1024.size a ≤ S128x1024.size a
  inb_S128x1024_S1x1024_72_0 : ∀ a, (![72, 0] : Fin 2 → Nat) a + S1x1024.size a ≤ S128x1024.size a
  inb_S128x1024_S1x1024_73_0 : ∀ a, (![73, 0] : Fin 2 → Nat) a + S1x1024.size a ≤ S128x1024.size a
  inb_S128x1024_S1x1024_74_0 : ∀ a, (![74, 0] : Fin 2 → Nat) a + S1x1024.size a ≤ S128x1024.size a
  inb_S128x1024_S1x1024_75_0 : ∀ a, (![75, 0] : Fin 2 → Nat) a + S1x1024.size a ≤ S128x1024.size a
  inb_S128x1024_S1x1024_76_0 : ∀ a, (![76, 0] : Fin 2 → Nat) a + S1x1024.size a ≤ S128x1024.size a
  inb_S128x1024_S1x1024_77_0 : ∀ a, (![77, 0] : Fin 2 → Nat) a + S1x1024.size a ≤ S128x1024.size a
  inb_S128x1024_S1x1024_78_0 : ∀ a, (![78, 0] : Fin 2 → Nat) a + S1x1024.size a ≤ S128x1024.size a
  inb_S128x1024_S1x1024_79_0 : ∀ a, (![79, 0] : Fin 2 → Nat) a + S1x1024.size a ≤ S128x1024.size a
  inb_S128x1024_S1x1024_80_0 : ∀ a, (![80, 0] : Fin 2 → Nat) a + S1x1024.size a ≤ S128x1024.size a
  inb_S128x1024_S1x1024_81_0 : ∀ a, (![81, 0] : Fin 2 → Nat) a + S1x1024.size a ≤ S128x1024.size a
  inb_S128x1024_S1x1024_82_0 : ∀ a, (![82, 0] : Fin 2 → Nat) a + S1x1024.size a ≤ S128x1024.size a
  inb_S128x1024_S1x1024_83_0 : ∀ a, (![83, 0] : Fin 2 → Nat) a + S1x1024.size a ≤ S128x1024.size a
  inb_S128x1024_S1x1024_84_0 : ∀ a, (![84, 0] : Fin 2 → Nat) a + S1x1024.size a ≤ S128x1024.size a
  inb_S128x1024_S1x1024_85_0 : ∀ a, (![85, 0] : Fin 2 → Nat) a + S1x1024.size a ≤ S128x1024.size a
  inb_S128x1024_S1x1024_86_0 : ∀ a, (![86, 0] : Fin 2 → Nat) a + S1x1024.size a ≤ S128x1024.size a
  inb_S128x1024_S1x1024_87_0 : ∀ a, (![87, 0] : Fin 2 → Nat) a + S1x1024.size a ≤ S128x1024.size a
  inb_S128x1024_S1x1024_88_0 : ∀ a, (![88, 0] : Fin 2 → Nat) a + S1x1024.size a ≤ S128x1024.size a
  inb_S128x1024_S1x1024_89_0 : ∀ a, (![89, 0] : Fin 2 → Nat) a + S1x1024.size a ≤ S128x1024.size a
  inb_S128x1024_S1x1024_90_0 : ∀ a, (![90, 0] : Fin 2 → Nat) a + S1x1024.size a ≤ S128x1024.size a
  inb_S128x1024_S1x1024_91_0 : ∀ a, (![91, 0] : Fin 2 → Nat) a + S1x1024.size a ≤ S128x1024.size a
  inb_S128x1024_S1x1024_92_0 : ∀ a, (![92, 0] : Fin 2 → Nat) a + S1x1024.size a ≤ S128x1024.size a
  inb_S128x1024_S1x1024_93_0 : ∀ a, (![93, 0] : Fin 2 → Nat) a + S1x1024.size a ≤ S128x1024.size a
  inb_S128x1024_S1x1024_94_0 : ∀ a, (![94, 0] : Fin 2 → Nat) a + S1x1024.size a ≤ S128x1024.size a
  inb_S128x1024_S1x1024_95_0 : ∀ a, (![95, 0] : Fin 2 → Nat) a + S1x1024.size a ≤ S128x1024.size a
  inb_S128x1024_S1x1024_96_0 : ∀ a, (![96, 0] : Fin 2 → Nat) a + S1x1024.size a ≤ S128x1024.size a
  inb_S128x1024_S1x1024_97_0 : ∀ a, (![97, 0] : Fin 2 → Nat) a + S1x1024.size a ≤ S128x1024.size a
  inb_S128x1024_S1x1024_98_0 : ∀ a, (![98, 0] : Fin 2 → Nat) a + S1x1024.size a ≤ S128x1024.size a
  inb_S128x1024_S1x1024_99_0 : ∀ a, (![99, 0] : Fin 2 → Nat) a + S1x1024.size a ≤ S128x1024.size a
  inb_S128x1024_S1x1024_100_0 : ∀ a, (![100, 0] : Fin 2 → Nat) a + S1x1024.size a ≤ S128x1024.size a
  inb_S128x1024_S1x1024_101_0 : ∀ a, (![101, 0] : Fin 2 → Nat) a + S1x1024.size a ≤ S128x1024.size a
  inb_S128x1024_S1x1024_102_0 : ∀ a, (![102, 0] : Fin 2 → Nat) a + S1x1024.size a ≤ S128x1024.size a
  inb_S128x1024_S1x1024_103_0 : ∀ a, (![103, 0] : Fin 2 → Nat) a + S1x1024.size a ≤ S128x1024.size a
  inb_S128x1024_S1x1024_104_0 : ∀ a, (![104, 0] : Fin 2 → Nat) a + S1x1024.size a ≤ S128x1024.size a
  inb_S128x1024_S1x1024_105_0 : ∀ a, (![105, 0] : Fin 2 → Nat) a + S1x1024.size a ≤ S128x1024.size a
  inb_S128x1024_S1x1024_106_0 : ∀ a, (![106, 0] : Fin 2 → Nat) a + S1x1024.size a ≤ S128x1024.size a
  inb_S128x1024_S1x1024_107_0 : ∀ a, (![107, 0] : Fin 2 → Nat) a + S1x1024.size a ≤ S128x1024.size a
  inb_S128x1024_S1x1024_108_0 : ∀ a, (![108, 0] : Fin 2 → Nat) a + S1x1024.size a ≤ S128x1024.size a
  inb_S128x1024_S1x1024_109_0 : ∀ a, (![109, 0] : Fin 2 → Nat) a + S1x1024.size a ≤ S128x1024.size a
  inb_S128x1024_S1x1024_110_0 : ∀ a, (![110, 0] : Fin 2 → Nat) a + S1x1024.size a ≤ S128x1024.size a
  inb_S128x1024_S1x1024_111_0 : ∀ a, (![111, 0] : Fin 2 → Nat) a + S1x1024.size a ≤ S128x1024.size a
  inb_S128x1024_S1x1024_112_0 : ∀ a, (![112, 0] : Fin 2 → Nat) a + S1x1024.size a ≤ S128x1024.size a
  inb_S128x1024_S1x1024_113_0 : ∀ a, (![113, 0] : Fin 2 → Nat) a + S1x1024.size a ≤ S128x1024.size a
  inb_S128x1024_S1x1024_114_0 : ∀ a, (![114, 0] : Fin 2 → Nat) a + S1x1024.size a ≤ S128x1024.size a
  inb_S128x1024_S1x1024_115_0 : ∀ a, (![115, 0] : Fin 2 → Nat) a + S1x1024.size a ≤ S128x1024.size a
  inb_S128x1024_S1x1024_116_0 : ∀ a, (![116, 0] : Fin 2 → Nat) a + S1x1024.size a ≤ S128x1024.size a
  inb_S128x1024_S1x1024_117_0 : ∀ a, (![117, 0] : Fin 2 → Nat) a + S1x1024.size a ≤ S128x1024.size a
  inb_S128x1024_S1x1024_118_0 : ∀ a, (![118, 0] : Fin 2 → Nat) a + S1x1024.size a ≤ S128x1024.size a
  inb_S128x1024_S1x1024_119_0 : ∀ a, (![119, 0] : Fin 2 → Nat) a + S1x1024.size a ≤ S128x1024.size a
  inb_S128x1024_S1x1024_120_0 : ∀ a, (![120, 0] : Fin 2 → Nat) a + S1x1024.size a ≤ S128x1024.size a
  inb_S128x1024_S1x1024_121_0 : ∀ a, (![121, 0] : Fin 2 → Nat) a + S1x1024.size a ≤ S128x1024.size a
  inb_S128x1024_S1x1024_122_0 : ∀ a, (![122, 0] : Fin 2 → Nat) a + S1x1024.size a ≤ S128x1024.size a
  inb_S128x1024_S1x1024_123_0 : ∀ a, (![123, 0] : Fin 2 → Nat) a + S1x1024.size a ≤ S128x1024.size a
  inb_S128x1024_S1x1024_124_0 : ∀ a, (![124, 0] : Fin 2 → Nat) a + S1x1024.size a ≤ S128x1024.size a
  inb_S128x1024_S1x1024_125_0 : ∀ a, (![125, 0] : Fin 2 → Nat) a + S1x1024.size a ≤ S128x1024.size a
  inb_S128x1024_S1x1024_126_0 : ∀ a, (![126, 0] : Fin 2 → Nat) a + S1x1024.size a ≤ S128x1024.size a
  inb_S128x1024_S1x1024_127_0 : ∀ a, (![127, 0] : Fin 2 → Nat) a + S1x1024.size a ≤ S128x1024.size a
  shapeCasts_S16384x1024_S4x4096x1024 : S16384x1024.ShapeCasts S4x4096x1024
  hcc0_scratch0 : 2 + S16.numel ≤ 18
  hrank0 : 0 < grid0.rank
  k0_off1_inb : ∀ i : grid0.Coords, ∀ a, (k0_off1 i) a + S1.size a ≤ S16384.size a
  k0_off3_inb : ∀ i : grid0.Coords, ∀ a, (k0_off3 i) a + S1.size a ≤ S16384.size a
  k0_off5_inb : ∀ i : grid0.Coords, ∀ a, (k0_off5 i) a + S1.size a ≤ S16384.size a
  k0_off7_inb : ∀ i : grid0.Coords, ∀ a, (k0_off7 i) a + S1.size a ≤ S16384.size a
  k0_off9_inb : ∀ i : grid0.Coords, ∀ a, (k0_off9 i) a + S1.size a ≤ S16384.size a
  k0_off11_inb : ∀ i : grid0.Coords, ∀ a, (k0_off11 i) a + S1.size a ≤ S16384.size a
  k0_off13_inb : ∀ i : grid0.Coords, ∀ a, (k0_off13 i) a + S1.size a ≤ S16384.size a
  k0_off15_inb : ∀ i : grid0.Coords, ∀ a, (k0_off15 i) a + S1.size a ≤ S16384.size a
  k0_off17_inb : ∀ i : grid0.Coords, ∀ a, (k0_off17 i) a + S1.size a ≤ S16384.size a
  k0_off19_inb : ∀ i : grid0.Coords, ∀ a, (k0_off19 i) a + S1.size a ≤ S16384.size a
  k0_off21_inb : ∀ i : grid0.Coords, ∀ a, (k0_off21 i) a + S1.size a ≤ S16384.size a
  k0_off23_inb : ∀ i : grid0.Coords, ∀ a, (k0_off23 i) a + S1.size a ≤ S16384.size a
  k0_off25_inb : ∀ i : grid0.Coords, ∀ a, (k0_off25 i) a + S1.size a ≤ S16384.size a
  k0_off27_inb : ∀ i : grid0.Coords, ∀ a, (k0_off27 i) a + S1.size a ≤ S16384.size a
  k0_off29_inb : ∀ i : grid0.Coords, ∀ a, (k0_off29 i) a + S1.size a ≤ S16384.size a
  k0_off31_inb : ∀ i : grid0.Coords, ∀ a, (k0_off31 i) a + S1.size a ≤ S16384.size a
  k0_off33_inb : ∀ i : grid0.Coords, ∀ a, (k0_off33 i) a + S1.size a ≤ S16384.size a
  k0_off35_inb : ∀ i : grid0.Coords, ∀ a, (k0_off35 i) a + S1.size a ≤ S16384.size a
  k0_off37_inb : ∀ i : grid0.Coords, ∀ a, (k0_off37 i) a + S1.size a ≤ S16384.size a
  k0_off39_inb : ∀ i : grid0.Coords, ∀ a, (k0_off39 i) a + S1.size a ≤ S16384.size a
  k0_off41_inb : ∀ i : grid0.Coords, ∀ a, (k0_off41 i) a + S1.size a ≤ S16384.size a
  k0_off43_inb : ∀ i : grid0.Coords, ∀ a, (k0_off43 i) a + S1.size a ≤ S16384.size a
  k0_off45_inb : ∀ i : grid0.Coords, ∀ a, (k0_off45 i) a + S1.size a ≤ S16384.size a
  k0_off47_inb : ∀ i : grid0.Coords, ∀ a, (k0_off47 i) a + S1.size a ≤ S16384.size a
  k0_off49_inb : ∀ i : grid0.Coords, ∀ a, (k0_off49 i) a + S1.size a ≤ S16384.size a
  k0_off51_inb : ∀ i : grid0.Coords, ∀ a, (k0_off51 i) a + S1.size a ≤ S16384.size a
  k0_off53_inb : ∀ i : grid0.Coords, ∀ a, (k0_off53 i) a + S1.size a ≤ S16384.size a
  k0_off55_inb : ∀ i : grid0.Coords, ∀ a, (k0_off55 i) a + S1.size a ≤ S16384.size a
  k0_off57_inb : ∀ i : grid0.Coords, ∀ a, (k0_off57 i) a + S1.size a ≤ S16384.size a
  k0_off59_inb : ∀ i : grid0.Coords, ∀ a, (k0_off59 i) a + S1.size a ≤ S16384.size a
  k0_off61_inb : ∀ i : grid0.Coords, ∀ a, (k0_off61 i) a + S1.size a ≤ S16384.size a
  k0_off63_inb : ∀ i : grid0.Coords, ∀ a, (k0_off63 i) a + S1.size a ≤ S16384.size a
  k0_off65_inb : ∀ i : grid0.Coords, ∀ a, (k0_off65 i) a + S1.size a ≤ S16384.size a
  k0_off67_inb : ∀ i : grid0.Coords, ∀ a, (k0_off67 i) a + S1.size a ≤ S16384.size a
  k0_off69_inb : ∀ i : grid0.Coords, ∀ a, (k0_off69 i) a + S1.size a ≤ S16384.size a
  k0_off71_inb : ∀ i : grid0.Coords, ∀ a, (k0_off71 i) a + S1.size a ≤ S16384.size a
  k0_off73_inb : ∀ i : grid0.Coords, ∀ a, (k0_off73 i) a + S1.size a ≤ S16384.size a
  k0_off75_inb : ∀ i : grid0.Coords, ∀ a, (k0_off75 i) a + S1.size a ≤ S16384.size a
  k0_off77_inb : ∀ i : grid0.Coords, ∀ a, (k0_off77 i) a + S1.size a ≤ S16384.size a
  k0_off79_inb : ∀ i : grid0.Coords, ∀ a, (k0_off79 i) a + S1.size a ≤ S16384.size a
  k0_off81_inb : ∀ i : grid0.Coords, ∀ a, (k0_off81 i) a + S1.size a ≤ S16384.size a
  k0_off83_inb : ∀ i : grid0.Coords, ∀ a, (k0_off83 i) a + S1.size a ≤ S16384.size a
  k0_off85_inb : ∀ i : grid0.Coords, ∀ a, (k0_off85 i) a + S1.size a ≤ S16384.size a
  k0_off87_inb : ∀ i : grid0.Coords, ∀ a, (k0_off87 i) a + S1.size a ≤ S16384.size a
  k0_off89_inb : ∀ i : grid0.Coords, ∀ a, (k0_off89 i) a + S1.size a ≤ S16384.size a
  k0_off91_inb : ∀ i : grid0.Coords, ∀ a, (k0_off91 i) a + S1.size a ≤ S16384.size a
  k0_off93_inb : ∀ i : grid0.Coords, ∀ a, (k0_off93 i) a + S1.size a ≤ S16384.size a
  k0_off95_inb : ∀ i : grid0.Coords, ∀ a, (k0_off95 i) a + S1.size a ≤ S16384.size a
  k0_off97_inb : ∀ i : grid0.Coords, ∀ a, (k0_off97 i) a + S1.size a ≤ S16384.size a
  k0_off99_inb : ∀ i : grid0.Coords, ∀ a, (k0_off99 i) a + S1.size a ≤ S16384.size a
  k0_off101_inb : ∀ i : grid0.Coords, ∀ a, (k0_off101 i) a + S1.size a ≤ S16384.size a
  k0_off103_inb : ∀ i : grid0.Coords, ∀ a, (k0_off103 i) a + S1.size a ≤ S16384.size a
  k0_off105_inb : ∀ i : grid0.Coords, ∀ a, (k0_off105 i) a + S1.size a ≤ S16384.size a
  k0_off107_inb : ∀ i : grid0.Coords, ∀ a, (k0_off107 i) a + S1.size a ≤ S16384.size a
  k0_off109_inb : ∀ i : grid0.Coords, ∀ a, (k0_off109 i) a + S1.size a ≤ S16384.size a
  k0_off111_inb : ∀ i : grid0.Coords, ∀ a, (k0_off111 i) a + S1.size a ≤ S16384.size a
  k0_off113_inb : ∀ i : grid0.Coords, ∀ a, (k0_off113 i) a + S1.size a ≤ S16384.size a
  k0_off115_inb : ∀ i : grid0.Coords, ∀ a, (k0_off115 i) a + S1.size a ≤ S16384.size a
  k0_off117_inb : ∀ i : grid0.Coords, ∀ a, (k0_off117 i) a + S1.size a ≤ S16384.size a
  k0_off119_inb : ∀ i : grid0.Coords, ∀ a, (k0_off119 i) a + S1.size a ≤ S16384.size a
  k0_off121_inb : ∀ i : grid0.Coords, ∀ a, (k0_off121 i) a + S1.size a ≤ S16384.size a
  k0_off123_inb : ∀ i : grid0.Coords, ∀ a, (k0_off123 i) a + S1.size a ≤ S16384.size a
  k0_off125_inb : ∀ i : grid0.Coords, ∀ a, (k0_off125 i) a + S1.size a ≤ S16384.size a
  k0_off127_inb : ∀ i : grid0.Coords, ∀ a, (k0_off127 i) a + S1.size a ≤ S16384.size a
  k0_off129_inb : ∀ i : grid0.Coords, ∀ a, (k0_off129 i) a + S1.size a ≤ S16384.size a
  k0_off131_inb : ∀ i : grid0.Coords, ∀ a, (k0_off131 i) a + S1.size a ≤ S16384.size a
  k0_off133_inb : ∀ i : grid0.Coords, ∀ a, (k0_off133 i) a + S1.size a ≤ S16384.size a
  k0_off135_inb : ∀ i : grid0.Coords, ∀ a, (k0_off135 i) a + S1.size a ≤ S16384.size a
  k0_off137_inb : ∀ i : grid0.Coords, ∀ a, (k0_off137 i) a + S1.size a ≤ S16384.size a
  k0_off139_inb : ∀ i : grid0.Coords, ∀ a, (k0_off139 i) a + S1.size a ≤ S16384.size a
  k0_off141_inb : ∀ i : grid0.Coords, ∀ a, (k0_off141 i) a + S1.size a ≤ S16384.size a
  k0_off143_inb : ∀ i : grid0.Coords, ∀ a, (k0_off143 i) a + S1.size a ≤ S16384.size a
  k0_off145_inb : ∀ i : grid0.Coords, ∀ a, (k0_off145 i) a + S1.size a ≤ S16384.size a
  k0_off147_inb : ∀ i : grid0.Coords, ∀ a, (k0_off147 i) a + S1.size a ≤ S16384.size a
  k0_off149_inb : ∀ i : grid0.Coords, ∀ a, (k0_off149 i) a + S1.size a ≤ S16384.size a
  k0_off151_inb : ∀ i : grid0.Coords, ∀ a, (k0_off151 i) a + S1.size a ≤ S16384.size a
  k0_off153_inb : ∀ i : grid0.Coords, ∀ a, (k0_off153 i) a + S1.size a ≤ S16384.size a
  k0_off155_inb : ∀ i : grid0.Coords, ∀ a, (k0_off155 i) a + S1.size a ≤ S16384.size a
  k0_off157_inb : ∀ i : grid0.Coords, ∀ a, (k0_off157 i) a + S1.size a ≤ S16384.size a
  k0_off159_inb : ∀ i : grid0.Coords, ∀ a, (k0_off159 i) a + S1.size a ≤ S16384.size a
  k0_off161_inb : ∀ i : grid0.Coords, ∀ a, (k0_off161 i) a + S1.size a ≤ S16384.size a
  k0_off163_inb : ∀ i : grid0.Coords, ∀ a, (k0_off163 i) a + S1.size a ≤ S16384.size a
  k0_off165_inb : ∀ i : grid0.Coords, ∀ a, (k0_off165 i) a + S1.size a ≤ S16384.size a
  k0_off167_inb : ∀ i : grid0.Coords, ∀ a, (k0_off167 i) a + S1.size a ≤ S16384.size a
  k0_off169_inb : ∀ i : grid0.Coords, ∀ a, (k0_off169 i) a + S1.size a ≤ S16384.size a
  k0_off171_inb : ∀ i : grid0.Coords, ∀ a, (k0_off171 i) a + S1.size a ≤ S16384.size a
  k0_off173_inb : ∀ i : grid0.Coords, ∀ a, (k0_off173 i) a + S1.size a ≤ S16384.size a
  k0_off175_inb : ∀ i : grid0.Coords, ∀ a, (k0_off175 i) a + S1.size a ≤ S16384.size a
  k0_off177_inb : ∀ i : grid0.Coords, ∀ a, (k0_off177 i) a + S1.size a ≤ S16384.size a
  k0_off179_inb : ∀ i : grid0.Coords, ∀ a, (k0_off179 i) a + S1.size a ≤ S16384.size a
  k0_off181_inb : ∀ i : grid0.Coords, ∀ a, (k0_off181 i) a + S1.size a ≤ S16384.size a
  k0_off183_inb : ∀ i : grid0.Coords, ∀ a, (k0_off183 i) a + S1.size a ≤ S16384.size a
  k0_off185_inb : ∀ i : grid0.Coords, ∀ a, (k0_off185 i) a + S1.size a ≤ S16384.size a
  k0_off187_inb : ∀ i : grid0.Coords, ∀ a, (k0_off187 i) a + S1.size a ≤ S16384.size a
  k0_off189_inb : ∀ i : grid0.Coords, ∀ a, (k0_off189 i) a + S1.size a ≤ S16384.size a
  k0_off191_inb : ∀ i : grid0.Coords, ∀ a, (k0_off191 i) a + S1.size a ≤ S16384.size a
  k0_off193_inb : ∀ i : grid0.Coords, ∀ a, (k0_off193 i) a + S1.size a ≤ S16384.size a
  k0_off195_inb : ∀ i : grid0.Coords, ∀ a, (k0_off195 i) a + S1.size a ≤ S16384.size a
  k0_off197_inb : ∀ i : grid0.Coords, ∀ a, (k0_off197 i) a + S1.size a ≤ S16384.size a
  k0_off199_inb : ∀ i : grid0.Coords, ∀ a, (k0_off199 i) a + S1.size a ≤ S16384.size a
  k0_off201_inb : ∀ i : grid0.Coords, ∀ a, (k0_off201 i) a + S1.size a ≤ S16384.size a
  k0_off203_inb : ∀ i : grid0.Coords, ∀ a, (k0_off203 i) a + S1.size a ≤ S16384.size a
  k0_off205_inb : ∀ i : grid0.Coords, ∀ a, (k0_off205 i) a + S1.size a ≤ S16384.size a
  k0_off207_inb : ∀ i : grid0.Coords, ∀ a, (k0_off207 i) a + S1.size a ≤ S16384.size a
  k0_off209_inb : ∀ i : grid0.Coords, ∀ a, (k0_off209 i) a + S1.size a ≤ S16384.size a
  k0_off211_inb : ∀ i : grid0.Coords, ∀ a, (k0_off211 i) a + S1.size a ≤ S16384.size a
  k0_off213_inb : ∀ i : grid0.Coords, ∀ a, (k0_off213 i) a + S1.size a ≤ S16384.size a
  k0_off215_inb : ∀ i : grid0.Coords, ∀ a, (k0_off215 i) a + S1.size a ≤ S16384.size a
  k0_off217_inb : ∀ i : grid0.Coords, ∀ a, (k0_off217 i) a + S1.size a ≤ S16384.size a
  k0_off219_inb : ∀ i : grid0.Coords, ∀ a, (k0_off219 i) a + S1.size a ≤ S16384.size a
  k0_off221_inb : ∀ i : grid0.Coords, ∀ a, (k0_off221 i) a + S1.size a ≤ S16384.size a
  k0_off223_inb : ∀ i : grid0.Coords, ∀ a, (k0_off223 i) a + S1.size a ≤ S16384.size a
  k0_off225_inb : ∀ i : grid0.Coords, ∀ a, (k0_off225 i) a + S1.size a ≤ S16384.size a
  k0_off227_inb : ∀ i : grid0.Coords, ∀ a, (k0_off227 i) a + S1.size a ≤ S16384.size a
  k0_off229_inb : ∀ i : grid0.Coords, ∀ a, (k0_off229 i) a + S1.size a ≤ S16384.size a
  k0_off231_inb : ∀ i : grid0.Coords, ∀ a, (k0_off231 i) a + S1.size a ≤ S16384.size a
  k0_off233_inb : ∀ i : grid0.Coords, ∀ a, (k0_off233 i) a + S1.size a ≤ S16384.size a
  k0_off235_inb : ∀ i : grid0.Coords, ∀ a, (k0_off235 i) a + S1.size a ≤ S16384.size a
  k0_off237_inb : ∀ i : grid0.Coords, ∀ a, (k0_off237 i) a + S1.size a ≤ S16384.size a
  k0_off239_inb : ∀ i : grid0.Coords, ∀ a, (k0_off239 i) a + S1.size a ≤ S16384.size a
  k0_off241_inb : ∀ i : grid0.Coords, ∀ a, (k0_off241 i) a + S1.size a ≤ S16384.size a
  k0_off243_inb : ∀ i : grid0.Coords, ∀ a, (k0_off243 i) a + S1.size a ≤ S16384.size a
  k0_off245_inb : ∀ i : grid0.Coords, ∀ a, (k0_off245 i) a + S1.size a ≤ S16384.size a
  k0_off247_inb : ∀ i : grid0.Coords, ∀ a, (k0_off247 i) a + S1.size a ≤ S16384.size a
  k0_off249_inb : ∀ i : grid0.Coords, ∀ a, (k0_off249 i) a + S1.size a ≤ S16384.size a
  k0_off251_inb : ∀ i : grid0.Coords, ∀ a, (k0_off251 i) a + S1.size a ≤ S16384.size a
  k0_off253_inb : ∀ i : grid0.Coords, ∀ a, (k0_off253 i) a + S1.size a ≤ S16384.size a
  k0_off255_inb : ∀ i : grid0.Coords, ∀ a, (k0_off255 i) a + S1.size a ≤ S16384.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S128x1024.size a ≤ S16384x1024.size a
  hwx0_0 : ∀ i : grid0.Coords, EltTy.bits .f32 = 32 ∨ (Rect.block (s := S16384x1024) S128x1024.size (cc0_transform_1 i) (hinb0_0 i)).WholeWords (EltTy.packing .f32)

variable [Facts₀]

abbrev cc0_scratch0 : DmaSems sig S16 := SemArray.consecutive 2 S16 hcc0_scratch0

abbrev spec0_0 : Pipeline.WinSpec sig grid0.rank :=
  Pipeline.WinSpec.ofSpec (Memref.whole main_v1) S128x1024.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S4x4096 : Shape := ⟨2, ![4, 4096]⟩
abbrev S50257x1024 : Shape := ⟨2, ![50257, 1024]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x1024 : Shape := ⟨3, ![4, 4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S50257x1024, .f32⟩
  | .hbm, ⟨2, _⟩ => ⟨S_, .i32⟩
  | .hbm, ⟨3, _⟩ => ⟨S4x4096, .i32⟩
  | .hbm, ⟨4, _⟩ => ⟨S4x4096, .i1⟩
  | .hbm, ⟨5, _⟩ => ⟨S_, .i32⟩
  | .hbm, ⟨6, _⟩ => ⟨S4x4096, .i32⟩
  | .hbm, ⟨7, _⟩ => ⟨S4x4096, .i32⟩
  | .hbm, ⟨8, _⟩ => ⟨S4x4096, .i32⟩
  | .hbm, ⟨9, _⟩ => ⟨S4x4096x1, .i32⟩
  | .hbm, ⟨10, _⟩ => ⟨S1, .i32⟩
  | .hbm, ⟨11, _⟩ => ⟨S_, .i32⟩
  | .hbm, ⟨12, _⟩ => ⟨S4x4096x1, .i32⟩
  | .hbm, ⟨13, _⟩ => ⟨S4x4096x1, .i1⟩
  | .hbm, ⟨14, _⟩ => ⟨S1x1x1, .i32⟩
  | .hbm, ⟨15, _⟩ => ⟨S4x4096x1, .i32⟩
  | .hbm, ⟨16, _⟩ => ⟨S4x4096x1, .i1⟩
  | .hbm, ⟨17, _⟩ => ⟨S4x4096x1, .i1⟩
  | .hbm, ⟨18, _⟩ => ⟨S_, .i1⟩
  | .hbm, ⟨19, _⟩ => ⟨S4x4096, .i1⟩
  | .hbm, ⟨20, _⟩ => ⟨S4x4096x1024, .f32⟩
  | .hbm, ⟨21, _⟩ => ⟨S4x4096x1024, .i1⟩
  | .hbm, ⟨22, _⟩ => ⟨S_, .f32⟩
  | .hbm, ⟨23, _⟩ => ⟨S4x4096x1024, .f32⟩
  | .hbm, ⟨24, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  gather_S50257x1024_S4x4096x1_S4x4096x1024_2_0_n_n_0_2_11024_wf : GatherDims.WF S50257x1024 S4x4096x1 S4x4096x1024 [2] [0] [] [0] [] 2 ![1, 1024]

variable [Facts₀]

def gather_S50257x1024_S4x4096x1_S4x4096x1024_2_0_n_n_0_2_11024 : GatherDims S50257x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S50257x1024_S4x4096x1_S4x4096x1024_2_0_n_n_0_2_11024_wf

class Facts : Prop extends Facts₀ where

variable [Facts]
-- ==== Proof.IdxRange.lean ====
/-
  The precondition read at an index: when the printed predicate is all ones, every index word is
  (as an unsigned number) below the number of table rows.
-/
import proofs.«408429_j14147622273767_1_alg».proof.Pre_finite_inputs
import proofs.«408429_j14147622273767_1_alg».proof.Proof.Gen.Pre_finite_inputs
import Idealize.ShloMosaic.Lib.ReduceAll
import Idealize.ShloMosaic.Lib.StableHlo.Predicate
import Idealize.ShloMosaic.Lib.ValueIdx

noncomputable section

namespace Cert.IdxRange

open Idealize.ShloMosaic Cert.Pre_finite_inputs

/-- The scalar shape has a single index. -/
instance : Subsingleton S_.Idx := ⟨fun a b => funext fun d => d.elim0⟩

/-- A 32-bit word that is signed-at-least 0 and signed-below 50257 is, read unsigned, below 50257:
    a non-negative signed value is the unsigned value. -/
theorem toNat_lt_of_signed (w : BitVec 32) (h0 : IntOp.cmpi .sge w 0#32 = 1#1)
    (h1 : IntOp.cmpi .slt w 50257#32 = 1#1) : w.toNat < 50257 := by
  simp only [IntOp.cmpi, StableHlo.Predicate.ofBool_eq_one_iff, BitVec.sle, BitVec.slt, decide_eq_true_eq] at h0 h1
  have e0 : (0#32 : BitVec 32).toInt = 0 := by decide
  have e1 : (50257#32 : BitVec 32).toInt = 50257 := by decide
  rw [e0] at h0
  rw [e1] at h1
  rw [BitVec.toInt_eq_toNat_cond] at h0 h1
  split at h0 <;> omega

/-- Under the precondition every index word lies in [0, 50257): read as an unsigned number it is below 50257. -/
theorem idx_lt {F : FTy → Type} [FloatOps F] (a0 : IVec S4x4096 32) (a1 : FVec F S50257x1024 .f32)
    (h : Cert.Pre_finite_inputs.fn (F := F) a0 a1 = fun _ => 1#1) : ∀ j : S4x4096.Idx, (a0 j).toNat < 50257 := by
  intro j
  have h0 := congrFun h ValueIdx.ix0
  dsimp only [Cert.Pre_finite_inputs.fn] at h0
  -- the outer conjunction: keep the half that speaks of the index words
  obtain ⟨_, h9⟩ := IntOp.andi_eq_one.1 h0
  -- the conjunction over all positions holds at position j
  have h8 := Host.reduce_andi_all _ _ _ _ _ h9 j
  -- at position j: 0 ≤ word (signed) and word < 50257 (signed)
  obtain ⟨h5, h7⟩ := IntOp.andi_eq_one.1 h8
  exact toNat_lt_of_signed (a0 j) h5 h7

end Cert.IdxRange

end
-- ==== Proof.Spec.lean ====
/-
  The lookup every side of this certificate computes: entry (b, s, k) of the result is entry
  (idx[b, s], k) of the table. The row an index word names is taken modulo the number of rows, so
  that the function is total; on a word below the number of rows that changes nothing.
-/
import Idealize.ShloMosaic.Lib.ValueIdx

namespace Cert.GatherSpec

open Idealize.ShloMosaic Idealize.ShloMosaic.ValueIdx

/-- The index array, the table and the result, as shapes. -/
abbrev SIdx : Shape := ⟨2, ![4, 4096]⟩
abbrev STab : Shape := ⟨2, ![50257, 1024]⟩
abbrev SOut : Shape := ⟨3, ![4, 4096, 1024]⟩

/-- The table row a 32-bit index word names. -/
def rowOf (w : BitVec 32) : Fin 50257 := ⟨w.toNat % 50257, Nat.mod_lt _ (by decide)⟩

/-- A word below the number of rows names the row of its own value. -/
theorem rowOf_val (w : BitVec 32) (h : w.toNat < 50257) : (rowOf w).val = w.toNat := Nat.mod_eq_of_lt h

/-- Row lookup: entry (b, s, k) of the result is entry (idx[b, s], k) of the table. -/
def lookup {α : Type} (tab : STab.Idx → α) (idx : SIdx.Idx → BitVec 32) : SOut.Idx → α :=
  fun j => tab (ix2 (rowOf (idx (ix2 (j 0) (j 1)))) (j 2))

theorem lookup_apply {α : Type} (tab : STab.Idx → α) (idx : SIdx.Idx → BitVec 32) (b : Fin 4) (s : Fin 4096) (k : Fin 1024) :
    lookup tab idx (ix3 b s k) = tab (ix2 (rowOf (idx (ix2 b s))) k) := rfl

end Cert.GatherSpec
-- ==== Proof.RefRun.lean ====
/-
  The reference's run, and its result as a row lookup.
-/
import proofs.«408429_j14147622273767_1_alg».proof.ReferenceIdeal
import proofs.«408429_j14147622273767_1_alg».proof.Proof.Gen.ReferenceIdeal
import proofs.«408429_j14147622273767_1_alg».proof.Proof.Spec
import Idealize.ShloMosaic.Lib.StableHlo.Run
import Idealize.ShloMosaic.Lib.StableHlo.Predicate
import Idealize.ShloMosaic.Lib.ValueIdx
import Idealize.ShloMosaic.PureOps.Ideal
import Idealize.ShloMosaic.PureOps.Reduce

noncomputable section

namespace Cert.ReferenceIdeal.RefRun

open Idealize.ShloMosaic Idealize.ShloMosaic.TcCoe Idealize.SL.Sem Cert.ReferenceIdeal Cert.ReferenceIdeal.Gen
open Idealize.ShloMosaic.StableHlo Idealize.ShloMosaic.StableHlo.Predicate Idealize.ShloMosaic.ValueIdx

variable {F : FTy → Type} [FloatOps F]

/-! ## The result as a term of the two arguments -/

/-- The index array with every negative word moved up by the number of rows. -/
def wrapIdx (idx : S4x4096.Idx → BitVec 32) : S4x4096.Idx → BitVec 32 :=
  select (cmpi .slt idx (broadcastInDim S4x4096 ![] bcast_S_S4x4096 (constantI S_ 32 0#32)))
    (addi idx (broadcastInDim S4x4096 ![] bcast_S_S4x4096 (constantI S_ 32 50257#32))) idx

/-- The wrapped indices as a column: one start index per position. -/
def idxCol (idx : S4x4096.Idx → BitVec 32) : S4x4096x1.Idx → BitVec 32 :=
  broadcastInDim S4x4096x1 ![0, 1] bcast_S4x4096_S4x4096x1_0_1 (wrapIdx idx)

/-- Per position, whether the wrapped index names a row: 0 ≤ · ≤ 50256, the conjunction over the column's one entry. -/
def inRange (idx : S4x4096.Idx → BitVec 32) : S4x4096.Idx → BitVec 1 :=
  Host.reduce IntOp.andi
    (andi (cmpi .sge (idxCol idx) (broadcastInDim S4x4096x1 ![] bcast_S_S4x4096x1 (constantI S_ 32 0#32)))
      (cmpi .sle (idxCol idx)
        (broadcastInDim S4x4096x1 ![0, 1, 2] bcast_S1x1x1_S4x4096x1_0_1_2
          (broadcastInDim S1x1x1 ![2] bcast_S1_S1x1x1_2 (constantI S1 32 50256#32)))))
    (constantI S_ 1 1#1) reducesTo_S4x4096x1_S4x4096_d2 h_S_

/-- The table's rows gathered at the wrapped indices. -/
def gathered (tab : S50257x1024.Idx → Elt F .f32) (idx : S4x4096.Idx → BitVec 32) : S4x4096x1024.Idx → Elt F .f32 :=
  Host.gather gather_S50257x1024_S4x4096x1_S4x4096x1024_2_0_n_n_0_2_11024 tab (idxCol idx)

/-- The reference's result: the gathered rows where the index names a row, a quiet NaN elsewhere. -/
def takeTerm (tab : S50257x1024.Idx → Elt F .f32) (idx : S4x4096.Idx → BitVec 32) : S4x4096x1024.Idx → Elt F .f32 :=
  select (broadcastInDim S4x4096x1024 ![0, 1] bcast_S4x4096_S4x4096x1024_0_1 (inRange idx)) (gathered tab idx)
    (broadcastInDim S4x4096x1024 ![] bcast_S_S4x4096x1024 (constant S_ .f32 0x7FC00000#32))

/-! ## The run -/

/-- The reference's 23 operations in order: the one call's, with the select of the call nested in it in its place. -/
abbrev ops : List (HloOp τ sig (Elt F)) :=
  [ TRef.nullary main_call0.c (constantI S_ 32 0#32),
    TRef.unary main_call0.c main_call0.v0 (broadcastInDim S4x4096 ![] bcast_S_S4x4096),
    TRef.binary (.of main_arg0) main_call0.v0 main_call0.v1 (cmpi .slt),
    TRef.nullary main_call0.c_0 (constantI S_ 32 50257#32),
    TRef.unary main_call0.c_0 main_call0.v2 (broadcastInDim S4x4096 ![] bcast_S_S4x4096),
    TRef.binary (.of main_arg0) main_call0.v2 main_call0.v3 addi,
    TRef.ternary main_call0.v1 main_call0.v3 (.of main_arg0) main_call0.call0.v0 select,
    TRef.unary main_call0.call0.v0 main_call0.v5 (broadcastInDim S4x4096x1 ![0, 1] bcast_S4x4096_S4x4096x1_0_1),
    TRef.nullary main_call0.c_1 (constantI S1 32 50256#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_arg1) main_call0.v5 main_call0.v13 (fun x i => Host.gather gather_S50257x1024_S4x4096x1_S4x4096x1024_2_0_n_n_0_2_11024 x i),
    TRef.unary main_call0.v12 main_call0.v14 (broadcastInDim S4x4096x1024 ![0, 1] bcast_S4x4096_S4x4096x1024_0_1),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select ]

set_option maxRecDepth 1024 in
/-- The reference is that straight line: the two functions unfolded at their calls and sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
/-- The result buffer after the operations holds the composed term of the two argument buffers' contents. -/
theorem out_eq (V : Valuation τ sig (Elt F)) :
    after ops V (main_v0 : DevRef τ sig) = takeTerm (F := F) (V (main_arg1 : DevRef τ sig)) (V (main_arg0 : DevRef τ sig)) := by
  after_results
  rfl

/-- No operation writes the index array. -/
theorem arg0_eq (V : Valuation τ sig (Elt F)) :
    after ops V (main_arg0 : DevRef τ sig) = V (main_arg0 : DevRef τ sig) := by
  simp only [after_cons, after_nil]
  rfl

/-- No operation writes the table. -/
theorem arg1_eq (V : Valuation τ sig (Elt F)) :
    after ops V (main_arg1 : DevRef τ sig) = V (main_arg1 : DevRef τ sig) := by
  simp only [after_cons, after_nil]
  rfl

/-- From any memory with zero counters: every weakly fair execution of the reference terminates with its result the
    composed term of its arguments, which end unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = takeTerm (F := F) (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

/-! ## The value -/

/-- A word below the number of rows is not negative read signed. -/
theorem not_neg (w : BitVec 32) (h : w.toNat < 50257) : IntOp.cmpi .slt w 0#32 = 0#1 := by
  refine eq_zero_of_ne_one fun h1 => ?_
  have h2 := (slt_iff_toNat (a := w) (b := 0#32) (by omega) (by decide)).1 h1
  have h0 : (0#32 : BitVec 32).toNat = 0 := rfl
  omega

/-- A word below the number of rows passes both bound checks, 0 ≤ · and · ≤ 50256, read signed. -/
theorem in_range_word (w : BitVec 32) (h : w.toNat < 50257) :
    IntOp.andi (IntOp.cmpi .sge w 0#32) (IntOp.cmpi .sle w 50256#32) = 1#1 := by
  have h0 : (0#32 : BitVec 32).toNat = 0 := rfl
  have h5 : (50256#32 : BitVec 32).toNat = 50256 := rfl
  have h1 : IntOp.cmpi .sge w 0#32 = 1#1 := (sge_iff_toNat (a := w) (b := 0#32) (by omega) (by decide)).2 (by omega)
  have h2 : IntOp.cmpi .sle w 50256#32 = 1#1 := (sle_iff_toNat (a := w) (b := 50256#32) (by omega) (by decide)).2 (by omega)
  rw [h1, h2]; rfl

/-- A conjunction started at 1 over entries that are all 1 is 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_ones f hf l _ (by rw [h, hf a]; rfl)

/-- The gather's dimension numbers: rows taken along axis 0, one start index per position. -/
abbrev gd : GatherDims S50257x1024 S4x4096x1 S4x4096x1024 := gather_S50257x1024_S4x4096x1_S4x4096x1024_2_0_n_n_0_2_11024

section
variable (idx : S4x4096.Idx → BitVec 32) (h : ∀ j, (idx j).toNat < 50257)
include h

/-- No word is negative, so none is moved. -/
theorem wrapIdx_eq : wrapIdx idx = idx := by
  funext j
  show Scalar.select (IntOp.cmpi .slt (idx j) 0#32) (IntOp.addi (idx j) 50257#32) (idx j) = idx j
  rw [not_neg _ (h j), select_zero]

/-- The column at (b, s, 0) is the index word at (b, s). -/
theorem idxCol_apply (i : S4x4096x1.Idx) : idxCol idx i = idx (ix2 (i 0) (i 1)) := by
  unfold idxCol
  rw [wrapIdx_eq idx h]
  show idx _ = idx _
  congr 1
  funext a
  match a with
  | ⟨0, _⟩ => rfl
  | ⟨1, _⟩ => rfl

/-- Every position's index names a row. -/
theorem inRange_eq_one (p : S4x4096.Idx) : inRange idx p = 1#1 := by
  unfold inRange
  rw [Host.reduce_eq_foldl]
  refine foldl_andi_ones _ (fun i => ?_) _ _ rfl
  show IntOp.andi (IntOp.cmpi .sge (idxCol idx i) 0#32) (IntOp.cmpi .sle (idxCol idx i) 50256#32) = 1#1
  rw [idxCol_apply idx h]
  exact in_range_word _ (h _)

/-- The table entry the gather reads for result index (b, s, k): row the word at (b, s), column k. -/
theorem operandIdx_eq (j : S4x4096x1024.Idx) :
    gd.operandIdx j (idxCol idx) = ix2 (Cert.GatherSpec.rowOf (idx (ix2 (j 0) (j 1)))) (j 2) := by
  funext a
  refine Fin.ext ?_
  match a with
  | ⟨0, _⟩ =>
    -- the collapsed axis: the start index alone, the word read signed and clamped into the table
    show gd.start j (idxCol idx) 0 + gd.batchCoord j 0 + gd.offCoord j 0 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ gd.startIndexMap from List.mem_singleton.mpr rfl), idxCol_apply idx h]
    have hw : ∀ c, idx (ix2 ((gd.siIdx j c) 0) ((gd.siIdx j c) 1)) = idx (ix2 (j 0) (j 1)) := by
      intro c
      congr 1
    rw [hw]
    have hlt := h (ix2 (j 0) (j 1))
    rw [toInt_eq_toNat_of_lt (by omega), Int.toNat_natCast]
    show min _ 50256 = (Cert.GatherSpec.rowOf _).val
    rw [Cert.GatherSpec.rowOf_val _ hlt]
    omega
  | ⟨1, _⟩ =>
    -- the offset axis: no start index, the result's own last coordinate
    show gd.start j (idxCol idx) 1 + gd.batchCoord j 1 + gd.offCoord j 1 = (j 2).val
    rw [GatherDims.batchCoord_eq_zero _ _ _ List.not_mem_nil]
    unfold GatherDims.start GatherDims.offCoord
    rw [dif_neg (by decide), dif_pos (by decide)]
    simp only [Nat.zero_add]
    have hk : ∀ x : Fin S4x4096x1024.rank, x = 2 → (j x).val = (j 2).val := fun x hx => hx ▸ rfl
    exact hk _ (by decide)

end

set_option maxRecDepth 4096 in
/-- With every index word below the number of rows, the composed term is the row lookup. -/
theorem takeTerm_eq_lookup (tab : S50257x1024.Idx → Elt F .f32) (idx : S4x4096.Idx → BitVec 32)
    (h : ∀ j, (idx j).toNat < 50257) : takeTerm (F := F) tab idx = Cert.GatherSpec.lookup tab idx := by
  funext j
  unfold takeTerm
  rw [select_apply]
  have hm : broadcastInDim S4x4096x1024 ![0, 1] bcast_S4x4096_S4x4096x1024_0_1 (inRange idx) j = 1#1 :=
    inRange_eq_one idx h _
  rw [hm, select_one]
  show tab (gd.operandIdx j (idxCol idx)) = _
  rw [operandIdx_eq idx h]
  rfl

/-- From a memory whose index words are all below the number of rows, every weakly fair execution of the reference
    terminates with its result the row lookup of its arguments, which end unchanged. -/
theorem run_lookup (m : (ℓ : Loc nD τ sig) → Buf (Elt Ideal) ℓ) (ρ : Dev nD → PrngReg)
    (hidx : ∀ (c : Dev nD) (j : S4x4096.Idx), BitVec.toNat (m ((c.tc : Thread nD τ).loc main_arg0) j) < 50257) :
    θ_run (defs (F := Ideal)) (onTc (τ := τ) (main (F := Ideal))) ⟨m, fun _ => 0, ρ⟩ (fun r => ∀ c : Dev nD,
      r.2.mem ((c.tc : Thread nD τ).loc main_v0)
          = Cert.GatherSpec.lookup (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (takeTerm_eq_lookup _ _ (hidx c)), (h c).2.1, (h c).2.2⟩) (run m ρ)

end Cert.ReferenceIdeal.RefRun

end
-- ==== Proof.KSetup.lean ====
/-
  The gather kernel's program around its one region: what each buffer holds when the region is entered
  (the index array flattened into the table the region reads), the table's contents and the pipeline at them,
  the resources the body works with — the table's read share, the sixteen transfer cells, the table of rows
  left in HBM held as one read share per cell — and the lines of @main after the region.
-/
import proofs.«408429_j14147622273767_1_alg».proof.Proof.Gen.Kernel.Launch
import proofs.«408429_j14147622273767_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- The buffers' contents when the region is entered: after the one line before it (the index array flattened). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the line before the region, the region, and the line after it: it reduces to the region continued by the
    later line, at the contents after the earlier one. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The table the region reads -/

/-- The flattened index array when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The table's contents are admissible whatever they are: no index map of the region reads them. -/
abbrev adm : (pcfg0 (F := F)).Adm := ⟨tbl m, trivial⟩
abbrev cfgM : Pipeline.Cfg sig Λ₀ := cfg0 (adm m)

/-- The table and the array of rows as the body is handed them: whole buffers. -/
abbrev tbM : Memref sig .tc .smem S16384 .i32 := Memref.whole main_v0
abbrev hbM : Memref sig .tc .hbm S50257x1024 .f32 := Memref.whole main_arg1
abbrev TbBuf (c : Dev nD) : Type := Buf (Elt F) (tbM.view.loc (c : Thread nD τ))
abbrev HbBuf (c : Dev nD) : Type := Buf (Elt F) (hbM.view.loc (c : Thread nD τ))
/-- The table at the half share the region hands the body (read only). -/
abbrev tbPt (c : Dev nD) (f : TbBuf (F := F) c) : sProp 𝕄 := tbM.view.loc (c : Thread nD τ) ↦{fullShare.right} f
/-- The array of rows at the read share of transfer cell `k`: sixteen transfers read it at once, one per cell. -/
abbrev hbTok (c : Dev nD) (k : ℕ) (f : HbBuf (F := F) c) : sProp 𝕄 := hbM.view.loc (c : Thread nD τ) ↦{Transfers.shareTokN fullShare k} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The body's own transfer cells and the array it reads by them -/

/-- The sixteen cells of the body's semaphore array, by their numbers in the core's pool. -/
abbrev osem0 : Fin 16 → SemLoc sig := fun j =>
  (![SemLoc.dma 2, SemLoc.dma 3, SemLoc.dma 4, SemLoc.dma 5, SemLoc.dma 6, SemLoc.dma 7, SemLoc.dma 8, SemLoc.dma 9,
    SemLoc.dma 10, SemLoc.dma 11, SemLoc.dma 12, SemLoc.dma 13, SemLoc.dma 14, SemLoc.dma 15, SemLoc.dma 16, SemLoc.dma 17] : Fin 16 → SemLoc sig) j
theorem ownSemFacts0 : Pipeline.OwnSemFacts spec0 osem0 := by decide
/-- The array of rows: unscoped, no window's array, no table. -/
def H0 : Finset (Ref sig .tc) := {main_arg1}
theorem H0_sub : H0 ⊆ Pipeline.restRefsP sig pre0 spec0 := by decide

/-- The array of rows whole, at the full share. -/
abbrev hbPt (c : Dev nD) (f : HbBuf (F := F) c) : sProp 𝕄 := hbM.view.loc (c : Thread nD τ) ↦{fullShare} f

/-- The sixteen cells at zero, one by one. -/
abbrev sems0 (c : Dev nD) : sProp 𝕄 :=
  iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)

theorem ownSems_eq (c : Dev nD) :
    (Pipeline.ownSems0 (Ix := Unit) (Name := ℕ) (U := Pipeline.UD sig nD τ) (Lvl := ℕ) (Val := Elt F) (τ := τ) osem0 c : sProp 𝕄) = sems0 c := by
  rw [Pipeline.ownSems0_eq_of_list c osem0 [0, 1, 2, 3, 4, 5, 6, 7, 8, 9, 10, 11, 12, 13, 14, 15] (by decide) (by decide)]; rfl

theorem hbmPts_eq (c : Dev nD) :
    (bigSep H0 (fun b => ((c : Thread nD τ).loc b) ↦{fullShare} V m c b) : sProp 𝕄) = hbPt c (V m c main_arg1) := by
  rw [show H0 = {main_arg1} from rfl, bigSep_singleton]

/-- The region invariant conjunct by conjunct: no scoped buffer besides the staging ones, the generator register,
    the sixteen cells at zero, the array of rows at its launch contents. -/
theorem PhiD_eq (c : Dev nD) :
    (Pipeline.ΦD osem0 spec0 H0 (V m) c : sProp 𝕄)
      = iprop((BI.emp : sProp 𝕄) ∗ (∃ r, prngReg c r) ∗ sems0 c ∗ hbPt c (V m c main_arg1)) := by
  rw [Pipeline.ΦD_eq, scopedRest0_eq, ownSems_eq, hbmPts_eq]

/-! ## The line after the region -/

theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  simp only [hostOps1, List.mem_cons, List.mem_nil_iff, or_false] at hop
  rcases hop with rfl
  refine Pipeline.sub_tailRefsBut pre0 spec0 H0 _ (StableHlo.reshape_bufs_sub ..) (fun k => ?_) (fun b hb => ?_)
  · fin_cases k; rw [StableHlo.reshape_bufs]; simp only [Finset.mem_insert, Finset.mem_singleton, not_or]
    exact ⟨StableHlo.devRef_ne_of_ne (by decide), StableHlo.devRef_ne_of_ne (by decide)⟩
  · obtain rfl : b = main_arg1 := Finset.mem_singleton.mp hb
    rw [StableHlo.reshape_bufs]; simp only [Finset.mem_insert, Finset.mem_singleton, not_or]
    exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

end Cert.Kernel.Hand

end
-- ==== Proof.KRows.lean ====
/-
  Rows of a 128×1024 buffer written one at a time: what the buffer reads back.
-/
import proofs.«408429_j14147622273767_1_alg».proof.Proof.KSetup
import Idealize.ShloMosaic.Lib.ValueIdx

set_option maxRecDepth 16384

noncomputable section

namespace Cert.Kernel.Hand

open Idealize.ShloMosaic Idealize.ShloMosaic.TcCoe Idealize.ShloMosaic.ValueIdx
open Cert.Kernel Cert.Kernel.Gen

variable {F : FTy → Type} [FloatOps F]

/-- A row below 128 lies inside the buffer. -/
theorem row_inb (r : ℕ) (hr : r < 128) : ∀ a, (![r, 0] : Fin 2 → Nat) a + S1x1024.size a ≤ S128x1024.size a := by
  intro a
  match a with
  | ⟨0, _⟩ => show r + 1 ≤ 128; omega
  | ⟨1, _⟩ => show 0 + 1024 ≤ 1024; omega

/-- Row `r` of a 128×1024 buffer, as the body spells it: the 1×1024 slice at row `r`, its unit axis dropped. -/
abbrev rowM (M : Memref sig .tc .vmem S128x1024 .f32) (r : ℕ)
    (h : ∀ a, (![r, 0] : Fin 2 → Nat) a + S1x1024.size a ≤ S128x1024.size a)
    (hp : ∀ a, (Rect.unit (s := S128x1024) ![r, 0] S1x1024.size h).stride a = 1) : Memref sig .tc .vmem S1024 .f32 :=
  (M.slice (Rect.unit (s := S128x1024) ![r, 0] S1x1024.size h) hp).squeeze S1024 squeezes_S1x1024_S1024

/-- Entry `k` of row `r` sits in the buffer where entry `(r, k)` does. -/
theorem rowM_emb (M : Memref sig .tc .vmem S128x1024 .f32) (r : Fin 128)
    (h : ∀ a, (![r.val, 0] : Fin 2 → Nat) a + S1x1024.size a ≤ S128x1024.size a) (hp) (k : Fin 1024) :
    (rowM M r.val h hp).view.emb (ix1 k) = M.view.emb (ix2 r k) := by
  show M.view.emb ((Rect.unit (s := S128x1024) ![r.val, 0] S1x1024.size h).emb
      (Shape.reshapeEquiv (s := S1x1024) (s' := S1024) squeezes_S1x1024_S1024.numel_eq (ix1 k))) = M.view.emb (ix2 r k)
  refine congrArg M.view.emb ?_
  rw [Shape.reshapeEquiv_cons_one]
  funext a
  refine Fin.ext ?_
  rw [Rect.emb_apply]
  match a with
  | ⟨0, _⟩ => show r.val + 1 * 0 = r.val; omega
  | ⟨1, _⟩ => show 0 + 1 * k.val = k.val; omega

/-- A buffer with row `r` overwritten by `p` reads `p` on row `r` and as before on every other row. -/
theorem read_write_row (M : Memref sig .tc .vmem S128x1024 .f32) (r : Fin 128)
    (h : ∀ a, (![r.val, 0] : Fin 2 → Nat) a + S1x1024.size a ≤ S128x1024.size a) (hp)
    (g : M.view.ty.Contents (Elt F)) (p : S1024.Idx → Elt F .f32) (r' : Fin 128) (k : Fin 1024) :
    M.view.read (Elt F) (View.write (Elt F) (rowM M r.val h hp).view g p Finset.univ) (ix2 r' k)
      = if r' = r then p (ix1 k) else M.view.read (Elt F) g (ix2 r' k) := by
  by_cases hr : r' = r
  · -- the written row: the entry is one the row's view covers
    rw [hr, if_pos rfl, View.read_apply, ← rowM_emb M r h hp k, View.write_emb_of_mem _ _ (Finset.mem_univ _), cast_cast, cast_eq]
  · -- another row: no entry of the written row lies on it
    rw [if_neg hr, View.read_apply, View.read_apply, View.write_of_not_mem]
    intro hmem
    obtain ⟨x, -, hx⟩ := Finset.mem_map.mp hmem
    have e : M.view.emb (ix2 r (x 0)) = M.view.emb (ix2 r' k) :=
      ((rowM_emb M r h hp (x 0)).symm.trans (congrArg _ (eq_ix1 x)).symm).trans hx
    exact hr (congrFun (M.view.emb.injective e) 0).symm

/-- The rows below `n` written in order, row `r` with `P r`. -/
def writeRows (M : Memref sig .tc .vmem S128x1024 .f32) (g : M.view.ty.Contents (Elt F)) (P : ℕ → S1024.Idx → Elt F .f32) :
    ℕ → M.view.ty.Contents (Elt F)
  | 0 => g
  | n + 1 => if hn : n < 128 then View.write (Elt F) (rowM M n (row_inb n hn) (fun _ => rfl)).view (writeRows M g P n) (P n) Finset.univ
      else writeRows M g P n

/-- After the rows below `n` are written, a row below `n` reads its payload and a later row reads as before. -/
theorem read_writeRows (M : Memref sig .tc .vmem S128x1024 .f32) (g : M.view.ty.Contents (Elt F)) (P : ℕ → S1024.Idx → Elt F .f32)
    (n : ℕ) (hn : n ≤ 128) (r' : Fin 128) (k : Fin 1024) :
    M.view.read (Elt F) (writeRows M g P n) (ix2 r' k)
      = if r'.val < n then P r'.val (ix1 k) else M.view.read (Elt F) g (ix2 r' k) := by
  induction n with
  | zero =>
    show M.view.read (Elt F) g (ix2 r' k) = _
    rw [if_neg (Nat.not_lt_zero _)]
  | succ n ih =>
    have hn' : n < 128 := by omega
    have ih' := ih (by omega)
    rw [writeRows, dif_pos hn',
      read_write_row M ⟨n, hn'⟩ (row_inb n hn') (fun _ => rfl) (writeRows M g P n) (P n) r' k, ih']
    by_cases h1 : r' = ⟨n, hn'⟩
    · rw [if_pos h1, if_pos (by rw [h1]; exact Nat.lt_succ_self n), h1]
    · have h3 : r'.val ≠ n := fun e => h1 (Fin.ext e)
      rw [if_neg h1]
      by_cases h2 : r'.val < n
      · rw [if_pos h2, if_pos (by omega)]
      · rw [if_neg h2, if_neg (by omega)]

end Cert.Kernel.Hand

end
-- ==== Proof.KPay.lean ====
/-
  What one of the body's 128 copies moves: the position of the index word it loads, the word, and the table row the word
  names, each as the body spells it and as a plain function of the arguments.
-/
import proofs.«408429_j14147622273767_1_alg».proof.Proof.KRows
import proofs.«408429_j14147622273767_1_alg».proof.Proof.Spec

set_option maxRecDepth 16384

noncomputable section

namespace Cert.Kernel.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (Pipeline.UD sig nD τ) ℕ

/-- A word below the number of table rows names a row inside the table: the copy's source is in bounds. -/
theorem chk_of_lt (w : BitVec 32) (h : w.toNat < 50257) : ∀ a, (![w.toNat, 0] : Fin 2 → Nat) a + S1x1024.size a ≤ S50257x1024.size a := by
  intro a; match a with
  | ⟨0, _⟩ => show w.toNat + 1 ≤ 50257; omega
  | ⟨1, _⟩ => show 0 + 1024 ≤ 1024; omega

/-- The position of word `r` of grid point `i`'s 128 in the index table, as the body computes it (32-bit arithmetic). -/
def offW (i : grid0.Coords) (r : ℕ) : Fin 1 → Nat :=
  ![(Scalar.indexCast (Scalar.addi (Scalar.muli (BitVec.ofNat 32 (i 0).val) 128#32) (BitVec.ofNat 32 r))).toNat]

/-- Nothing wraps: the position is `128·i + r`. -/
theorem offW_val (i : grid0.Coords) (r : ℕ) (hr : r < 128) : offW i r 0 = 128 * (i 0).val + r := by
  have h0 : (i 0).val < 128 := (i 0).isLt
  show (Scalar.indexCast (Scalar.addi (Scalar.muli (BitVec.ofNat 32 (i 0).val) 128#32) (BitVec.ofNat 32 r))).toNat = _
  simp only [Scalar.indexCast, Scalar.addi, Scalar.muli, IntOp.addi, IntOp.muli, BitVec.toNat_add, BitVec.toNat_mul, BitVec.toNat_ofNat]
  omega

theorem offW_inb (i : grid0.Coords) (r : ℕ) (hr : r < 128) : ∀ a, (offW i r) a + S1.size a ≤ S16384.size a := by
  intro a
  have h0 : (i 0).val < 128 := (i 0).isLt
  match a with
  | ⟨0, _⟩ =>
    show offW i r 0 + 1 ≤ 16384
    rw [offW_val i r hr]; omega

/-- The table row word `r` names, as the body copies it: the table read through the 1×1024 slice at the row the word
    names, its unit axis dropped. -/
def payW (c : Dev nD) (i : grid0.Coords) (tb : TbBuf (F := F) c) (fh : HbBuf (F := F) c)
    (hidx : ∀ (B : LoadRect S16384) (y : B.shape.Idx), BitVec.toNat (tbM.view.readAt (Elt F) B tb y) < 50257) (r : ℕ) : S1024.Idx → Elt F .f32 :=
  if hr : r < 128 then
    ReadAs.same.apply (View.read (Elt F) ((hbM.slice (Rect.unit (s := S50257x1024) ![(tbM.view.readAt (Elt F) (Rect.unit (s := S16384) (offW i r) S1.size (offW_inb i r hr)).toLoadRect tb (Shape.Idx.first (numel1_S1.symm ▸ Nat.one_pos))).toNat, 0] S1x1024.size (chk_of_lt _ (hidx _ _))) (fun _ => rfl)).squeeze S1024 squeezes_S1x1024_S1024).view fh)
  else fun _ => fh (ValueIdx.ix2 (0 : Fin 50257) (0 : Fin 1024))

/-- The word the body loads at position `128·i + r` is that entry of the table. -/
theorem word_eq (c : Dev nD) (i : grid0.Coords) (tb : TbBuf (F := F) c) (r : ℕ) (hr : r < 128) (h : 128 * (i 0).val + r < 16384) :
    tbM.view.readAt (Elt F) (Rect.unit (s := S16384) (offW i r) S1.size (offW_inb i r hr)).toLoadRect tb (Shape.Idx.first (numel1_S1.symm ▸ Nat.one_pos))
      = tb (ix1 ⟨128 * (i 0).val + r, h⟩) := by
  show tb _ = tb _
  congr 1
  funext a
  match a with
  | ⟨0, _⟩ =>
    apply Fin.ext
    show offW i r 0 + 1 * 0 = 128 * (i 0).val + r
    rw [offW_val i r hr]; omega

/-- The table read through the slice at the row a word names: entry `k` is entry `k` of that row. -/
theorem row_read (c : Dev nD) (fh : HbBuf (F := F) c) (w : BitVec 32)
    (hw : ∀ a, (![w.toNat, 0] : Fin 2 → Nat) a + S1x1024.size a ≤ S50257x1024.size a) (hlt : w.toNat < 50257) (k : Fin 1024) :
    ReadAs.same.apply (View.read (Elt F) ((hbM.slice (Rect.unit (s := S50257x1024) ![w.toNat, 0] S1x1024.size hw) (fun _ => rfl)).squeeze S1024 squeezes_S1x1024_S1024).view fh) (ix1 k)
      = fh (ix2 (Cert.GatherSpec.rowOf w) k) := by
  show fh ((Rect.unit (s := S50257x1024) ![w.toNat, 0] S1x1024.size hw).emb
      (Shape.reshapeEquiv (s := S1x1024) (s' := S1024) squeezes_S1x1024_S1024.numel_eq (ix1 k))) = fh (ix2 (Cert.GatherSpec.rowOf w) k)
  congr 1
  rw [Shape.reshapeEquiv_cons_one]
  funext a
  refine Fin.ext ?_
  rw [Rect.emb_apply]
  match a with
  | ⟨0, _⟩ => show w.toNat + 1 * 0 = (Cert.GatherSpec.rowOf w).val; rw [Cert.GatherSpec.rowOf_val w hlt]; omega
  | ⟨1, _⟩ => show 0 + 1 * k.val = k.val; omega

/-- Entry `k` of the copied row is entry `k` of the table row that word `128·i + r` of the index table names. -/
theorem payW_apply (c : Dev nD) (i : grid0.Coords) (tb : TbBuf (F := F) c) (fh : HbBuf (F := F) c) (hidx) (r : ℕ) (hr : r < 128)
    (h : 128 * (i 0).val + r < 16384) (k : Fin 1024) :
    payW c i tb fh hidx r (ix1 k) = fh (ix2 (Cert.GatherSpec.rowOf (tb (ix1 ⟨128 * (i 0).val + r, h⟩))) k) := by
  unfold payW
  rw [dif_pos hr]
  exact (row_read c fh _ _ (hidx _ _) k).trans (by rw [word_eq c i tb r hr h])

/-- What a block's contents read once the rows below `n` have been written over `f1`, row `r` with `P r`: a row below
    `n` reads its payload, a later row reads as `f1` does. -/
def RowsRead (M : Memref sig .tc .vmem S128x1024 .f32) (f1 : M.view.ty.Contents (Elt F)) (P : ℕ → S1024.Idx → Elt F .f32)
    (g : M.view.ty.Contents (Elt F)) (n : ℕ) : Prop :=
  ∀ (r' : Fin 128) (k : Fin 1024),
    M.view.read (Elt F) g (ix2 r' k) = if r'.val < n then P r'.val (ix1 k) else M.view.read (Elt F) f1 (ix2 r' k)

theorem rows_zero (M : Memref sig .tc .vmem S128x1024 .f32) (f1 : M.view.ty.Contents (Elt F)) (P : ℕ → S1024.Idx → Elt F .f32) :
    RowsRead M f1 P f1 0 := fun r' k => (if_neg (Nat.not_lt_zero _)).symm

/-- Writing row `n` with `P n` over contents that read so up to `n` gives contents that read so up to `n + 1`. -/
theorem rows_step {M : Memref sig .tc .vmem S128x1024 .f32} {f1 : M.view.ty.Contents (Elt F)} {P : ℕ → S1024.Idx → Elt F .f32}
    {g : M.view.ty.Contents (Elt F)} {n : ℕ} (hr : RowsRead M f1 P g n) (hn : n < 128)
    (h : ∀ a, (![n, 0] : Fin 2 → Nat) a + S1x1024.size a ≤ S128x1024.size a)
    (hp : ∀ a, (Rect.unit (s := S128x1024) ![n, 0] S1x1024.size h).stride a = 1)
    (p : S1024.Idx → Elt F .f32) (hp' : p = P n) :
    RowsRead M f1 P (View.write (Elt F) (rowM M n h hp).view g p Finset.univ) (n + 1) := by
  intro r' k
  rw [read_write_row M ⟨n, hn⟩ h hp g p r' k]
  subst hp'
  by_cases e : r' = ⟨n, hn⟩
  · subst e; rw [if_pos rfl, if_pos (Nat.lt_succ_self _)]
  · have hne : r'.val ≠ n := fun h' => e (Fin.ext h')
    rw [if_neg e, hr r' k]
    by_cases hlt : r'.val < n
    · rw [if_pos hlt, if_pos (Nat.lt_succ_of_lt hlt)]
    · rw [if_neg hlt, if_neg (by omega)]

/-- The table of rows as one read share per transfer cell, and what is left of the full share. -/
abbrev hbToks (c : Dev nD) (f : HbBuf (F := F) c) : sProp 𝕄 :=
  iprop(hbTok c 0 f ∗ hbTok c 1 f ∗ hbTok c 2 f ∗ hbTok c 3 f ∗ hbTok c 4 f ∗ hbTok c 5 f ∗ hbTok c 6 f ∗ hbTok c 7 f ∗ hbTok c 8 f ∗ hbTok c 9 f ∗ hbTok c 10 f ∗ hbTok c 11 f ∗ hbTok c 12 f ∗ hbTok c 13 f ∗ hbTok c 14 f ∗ hbTok c 15 f ∗ hbTok c 16 f ∗ hbTok c 17 f)
abbrev hbDrop (c : Dev nD) (f : HbBuf (F := F) c) : sProp 𝕄 := hbM.view.loc (c : Thread nD τ) ↦{Transfers.shareDrop fullShare 18} f

theorem hb_split (c : Dev nD) (f : HbBuf (F := F) c) : hbPt c f ⊣⊢ iprop(hbDrop c f ∗ hbToks c f) := by
  refine (Transfers.pointsTo_toks_range (Ix := Unit) (Name := ℕ) (U := Pipeline.UD sig nD τ) (Lvl := ℕ) fullShare 18).trans ?_
  rw [BI.bigSep_eq_bigSepL_of_eq [0, 1, 2, 3, 4, 5, 6, 7, 8, 9, 10, 11, 12, 13, 14, 15, 16, 17] (by decide) (by decide)]
  exact .rfl

end Cert.Kernel.Hand

end
-- ==== Proof.KRun.lean ====
/-
  The run of the gather kernel's body at one grid point. The 128 copies go in eight rounds of sixteen: each copy
  lends one row of the table (held as one read share per transfer cell, so that sixteen copies read it at once) and lands
  in one row of the output block, whose other rows stay in hand; the sixteen are waited for before the next round starts,
  so between rounds the block is whole again, the cells are at zero and the table's shares are back: a round starts from
  the state the first one started from, but for the block's contents, which after round `j` are the first `16·(j+1)`
  rows written in order over what the block held; what those contents read is followed round by round (`RowsRead`:
  sixteen more rows each time). After the eighth round every row reads the table row its word names.
-/
import proofs.«408429_j14147622273767_1_alg».proof.Proof.KPay

set_option maxRecDepth 65536

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option sl_exec.dmaWindow true in
set_option sl_exec.dmaWindowSet true in
set_option sl_exec.rejoinHeartbeats 400000 in
set_option sl_exec.stepHeartbeats 400000 in
set_option maxHeartbeats 400000000 in
/-- The body at grid point `i` on a whole staging buffer at contents `f1`: from the index table's read share (every
    word it reads below the number of table rows), the sixteen cells at zero, the table of rows whole and what the core
    owes, it runs to its end with the staging buffer at contents that read, in every row `r`, the table row word `r` names
    (`RowsRead`), and everything else as it was. -/
theorem kernel_run (c : Dev nD) (i : grid0.Coords) (arg3 : Memref sig .tc .vmem S128x1024 .f32) (harg3 : arg3.IsWhole)
    (tb : TbBuf (F := F) c) (fh : HbBuf (F := F) c) (f1 : Buf (Elt F) (arg3.view.loc (c : Thread nD τ)))
    (hidx : ∀ (B : LoadRect S16384) (y : B.shape.Idx), BitVec.toNat (tbM.view.readAt (Elt F) B tb y) < 50257)
    (W : Waits sig Unit) (K : PUnit → sProp 𝕄) :
    iprop((arg3.view.loc (c : Thread nD τ) ↦[arg3.view.set]{fullShare} f1) ∗ tbPt c tb ∗ sems0 c ∗ hbPt c fh ∗ owes (c : Thread nD τ) 0 W
        ∗ (iprop((∃ G, ⌜RowsRead arg3 f1 (payW c i tb fh hidx) G 128⌝ ∗ (arg3.view.loc (c : Thread nD τ) ↦[arg3.view.set]{fullShare} G))
            ∗ tbPt c tb ∗ sems0 c ∗ hbPt c fh ∗ (∃ W', owes (c : Thread nD τ) 0 W')) -∗ K ⟨⟩))
      ⊢ wp frame (wpE (defs₀ (F := F)) Variants.none c none) Set.univ
          (cc0__gather_kernel (F := F) i tbM (Memref.isWhole_whole _) hbM (Memref.isWhole_whole _) arg3 harg3 cc0_scratch0) K := by
    simp only [cc0__gather_kernel_eq_skeleton]; unfold cc0__gather_kernel_skel
    iintro ⟨H1, HT, ⟨Hq2, Hq3, Hq4, Hq5, Hq6, Hq7, Hq8, Hq9, Hq10, Hq11, Hq12, Hq13, Hq14, Hq15, Hq16, Hq17⟩, HH, HW, Hk⟩
    ihave HH' := (hb_split c fh).1 $$ HH
    icases HH' with ⟨HD, ⟨Ht0, Ht1, Ht2, Ht3, Ht4, Ht5, Ht6, Ht7, Ht8, Ht9, Ht10, Ht11, Ht12, Ht13, Ht14, Ht15, Ht16, Ht17⟩⟩
    -- rows 0–15: sixteen copies started, then all sixteen waited for
    sl_exec (disch := ((first | guard_target = k0_chk1 _ | guard_target = k0_chk2 _ | guard_target = k0_chk3 _ | guard_target = k0_chk4 _ | guard_target = k0_chk5 _ | guard_target = k0_chk6 _ | guard_target = k0_chk7 _ | guard_target = k0_chk8 _ | guard_target = k0_chk9 _ | guard_target = k0_chk10 _ | guard_target = k0_chk11 _ | guard_target = k0_chk12 _ | guard_target = k0_chk13 _ | guard_target = k0_chk14 _ | guard_target = k0_chk15 _ | guard_target = k0_chk16 _); exact chk_of_lt _ (hidx _ _)))
    generalize hg0 : View.write (Elt F) ((arg3.slice (Rect.unit (s := S128x1024) ![15, 0] S1x1024.size inb_S128x1024_S1x1024_15_0) _).squeeze S1024 squeezes_S1x1024_S1024).view _ _ Finset.univ = g0
    have hr0 : RowsRead arg3 f1 (payW c i tb fh hidx) g0 16 := by
      rw [← hg0]
      iterate 16 (refine rows_step ?_ (by omega) _ _ _ rfl)
      exact rows_zero arg3 f1 _
    -- rows 16–31: sixteen copies started, then all sixteen waited for
    sl_exec (disch := ((first | guard_target = k0_chk17 _ | guard_target = k0_chk18 _ | guard_target = k0_chk19 _ | guard_target = k0_chk20 _ | guard_target = k0_chk21 _ | guard_target = k0_chk22 _ | guard_target = k0_chk23 _ | guard_target = k0_chk24 _ | guard_target = k0_chk25 _ | guard_target = k0_chk26 _ | guard_target = k0_chk27 _ | guard_target = k0_chk28 _ | guard_target = k0_chk29 _ | guard_target = k0_chk30 _ | guard_target = k0_chk31 _ | guard_target = k0_chk32 _); exact chk_of_lt _ (hidx _ _)))
    generalize hg1 : View.write (Elt F) ((arg3.slice (Rect.unit (s := S128x1024) ![31, 0] S1x1024.size inb_S128x1024_S1x1024_31_0) _).squeeze S1024 squeezes_S1x1024_S1024).view _ _ Finset.univ = g1
    have hr1 : RowsRead arg3 f1 (payW c i tb fh hidx) g1 32 := by
      rw [← hg1]
      iterate 16 (refine rows_step ?_ (by omega) _ _ _ rfl)
      exact hr0
    -- rows 32–47: sixteen copies started, then all sixteen waited for
    sl_exec (disch := ((first | guard_target = k0_chk33 _ | guard_target = k0_chk34 _ | guard_target = k0_chk35 _ | guard_target = k0_chk36 _ | guard_target = k0_chk37 _ | guard_target = k0_chk38 _ | guard_target = k0_chk39 _ | guard_target = k0_chk40 _ | guard_target = k0_chk41 _ | guard_target = k0_chk42 _ | guard_target = k0_chk43 _ | guard_target = k0_chk44 _ | guard_target = k0_chk45 _ | guard_target = k0_chk46 _ | guard_target = k0_chk47 _ | guard_target = k0_chk48 _); exact chk_of_lt _ (hidx _ _)))
    generalize hg2 : View.write (Elt F) ((arg3.slice (Rect.unit (s := S128x1024) ![47, 0] S1x1024.size inb_S128x1024_S1x1024_47_0) _).squeeze S1024 squeezes_S1x1024_S1024).view _ _ Finset.univ = g2
    have hr2 : RowsRead arg3 f1 (payW c i tb fh hidx) g2 48 := by
      rw [← hg2]
      iterate 16 (refine rows_step ?_ (by omega) _ _ _ rfl)
      exact hr1
    -- rows 48–63: sixteen copies started, then all sixteen waited for
    sl_exec (disch := ((first | guard_target = k0_chk49 _ | guard_target = k0_chk50 _ | guard_target = k0_chk51 _ | guard_target = k0_chk52 _ | guard_target = k0_chk53 _ | guard_target = k0_chk54 _ | guard_target = k0_chk55 _ | guard_target = k0_chk56 _ | guard_target = k0_chk57 _ | guard_target = k0_chk58 _ | guard_target = k0_chk59 _ | guard_target = k0_chk60 _ | guard_target = k0_chk61 _ | guard_target = k0_chk62 _ | guard_target = k0_chk63 _ | guard_target = k0_chk64 _); exact chk_of_lt _ (hidx _ _)))
    generalize hg3 : View.write (Elt F) ((arg3.slice (Rect.unit (s := S128x1024) ![63, 0] S1x1024.size inb_S128x1024_S1x1024_63_0) _).squeeze S1024 squeezes_S1x1024_S1024).view _ _ Finset.univ = g3
    have hr3 : RowsRead arg3 f1 (payW c i tb fh hidx) g3 64 := by
      rw [← hg3]
      iterate 16 (refine rows_step ?_ (by omega) _ _ _ rfl)
      exact hr2
    -- rows 64–79: sixteen copies started, then all sixteen waited for
    sl_exec (disch := ((first | guard_target = k0_chk65 _ | guard_target = k0_chk66 _ | guard_target = k0_chk67 _ | guard_target = k0_chk68 _ | guard_target = k0_chk69 _ | guard_target = k0_chk70 _ | guard_target = k0_chk71 _ | guard_target = k0_chk72 _ | guard_target = k0_chk73 _ | guard_target = k0_chk74 _ | guard_target = k0_chk75 _ | guard_target = k0_chk76 _ | guard_target = k0_chk77 _ | guard_target = k0_chk78 _ | guard_target = k0_chk79 _ | guard_target = k0_chk80 _); exact chk_of_lt _ (hidx _ _)))
    generalize hg4 : View.write (Elt F) ((arg3.slice (Rect.unit (s := S128x1024) ![79, 0] S1x1024.size inb_S128x1024_S1x1024_79_0) _).squeeze S1024 squeezes_S1x1024_S1024).view _ _ Finset.univ = g4
    have hr4 : RowsRead arg3 f1 (payW c i tb fh hidx) g4 80 := by
      rw [← hg4]
      iterate 16 (refine rows_step ?_ (by omega) _ _ _ rfl)
      exact hr3
    -- rows 80–95: sixteen copies started, then all sixteen waited for
    sl_exec (disch := ((first | guard_target = k0_chk81 _ | guard_target = k0_chk82 _ | guard_target = k0_chk83 _ | guard_target = k0_chk84 _ | guard_target = k0_chk85 _ | guard_target = k0_chk86 _ | guard_target = k0_chk87 _ | guard_target = k0_chk88 _ | guard_target = k0_chk89 _ | guard_target = k0_chk90 _ | guard_target = k0_chk91 _ | guard_target = k0_chk92 _ | guard_target = k0_chk93 _ | guard_target = k0_chk94 _ | guard_target = k0_chk95 _ | guard_target = k0_chk96 _); exact chk_of_lt _ (hidx _ _)))
    generalize hg5 : View.write (Elt F) ((arg3.slice (Rect.unit (s := S128x1024) ![95, 0] S1x1024.size inb_S128x1024_S1x1024_95_0) _).squeeze S1024 squeezes_S1x1024_S1024).view _ _ Finset.univ = g5
    have hr5 : RowsRead arg3 f1 (payW c i tb fh hidx) g5 96 := by
      rw [← hg5]
      iterate 16 (refine rows_step ?_ (by omega) _ _ _ rfl)
      exact hr4
    -- rows 96–111: sixteen copies started, then all sixteen waited for
    sl_exec (disch := ((first | guard_target = k0_chk97 _ | guard_target = k0_chk98 _ | guard_target = k0_chk99 _ | guard_target = k0_chk100 _ | guard_target = k0_chk101 _ | guard_target = k0_chk102 _ | guard_target = k0_chk103 _ | guard_target = k0_chk104 _ | guard_target = k0_chk105 _ | guard_target = k0_chk106 _ | guard_target = k0_chk107 _ | guard_target = k0_chk108 _ | guard_target = k0_chk109 _ | guard_target = k0_chk110 _ | guard_target = k0_chk111 _ | guard_target = k0_chk112 _); exact chk_of_lt _ (hidx _ _)))
    generalize hg6 : View.write (Elt F) ((arg3.slice (Rect.unit (s := S128x1024) ![111, 0] S1x1024.size inb_S128x1024_S1x1024_111_0) _).squeeze S1024 squeezes_S1x1024_S1024).view _ _ Finset.univ = g6
    have hr6 : RowsRead arg3 f1 (payW c i tb fh hidx) g6 112 := by
      rw [← hg6]
      iterate 16 (refine rows_step ?_ (by omega) _ _ _ rfl)
      exact hr5
    -- rows 112–127: sixteen copies started, then all sixteen waited for
    sl_exec (disch := ((first | guard_target = k0_chk113 _ | guard_target = k0_chk114 _ | guard_target = k0_chk115 _ | guard_target = k0_chk116 _ | guard_target = k0_chk117 _ | guard_target = k0_chk118 _ | guard_target = k0_chk119 _ | guard_target = k0_chk120 _ | guard_target = k0_chk121 _ | guard_target = k0_chk122 _ | guard_target = k0_chk123 _ | guard_target = k0_chk124 _ | guard_target = k0_chk125 _ | guard_target = k0_chk126 _ | guard_target = k0_chk127 _ | guard_target = k0_chk128 _); exact chk_of_lt _ (hidx _ _)))
    generalize hg7 : View.write (Elt F) ((arg3.slice (Rect.unit (s := S128x1024) ![127, 0] S1x1024.size inb_S128x1024_S1x1024_127_0) _).squeeze S1024 squeezes_S1x1024_S1024).view _ _ Finset.univ = g7
    have hr7 : RowsRead arg3 f1 (payW c i tb fh hidx) g7 128 := by
      rw [← hg7]
      iterate 16 (refine rows_step ?_ (by omega) _ _ _ rfl)
      exact hr6
    sl_step
    iapply Hk
    isplitl [H1]
    · iexists g7; isplitr
      · ipureintro; exact hr7
      · iexact H1
    isplitl [HT]; · iexact HT
    isplitl [Hq2 Hq3 Hq4 Hq5 Hq6 Hq7 Hq8 Hq9 Hq10 Hq11 Hq12 Hq13 Hq14 Hq15 Hq16 Hq17]
    ·
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      iexact Hq17
    isplitl [HD Ht0 Ht1 Ht2 Ht3 Ht4 Ht5 Ht6 Ht7 Ht8 Ht9 Ht10 Ht11 Ht12 Ht13 Ht14 Ht15 Ht16 Ht17]
    · iapply (hb_split c fh).2
      isplitl [HD]; · iexact HD
      ·
        isplitl [Ht0]; · iexact Ht0
        isplitl [Ht1]; · iexact Ht1
        isplitl [Ht2]; · iexact Ht2
        isplitl [Ht3]; · iexact Ht3
        isplitl [Ht4]; · iexact Ht4
        isplitl [Ht5]; · iexact Ht5
        isplitl [Ht6]; · iexact Ht6
        isplitl [Ht7]; · iexact Ht7
        isplitl [Ht8]; · iexact Ht8
        isplitl [Ht9]; · iexact Ht9
        isplitl [Ht10]; · iexact Ht10
        isplitl [Ht11]; · iexact Ht11
        isplitl [Ht12]; · iexact Ht12
        isplitl [Ht13]; · iexact Ht13
        isplitl [Ht14]; · iexact Ht14
        isplitl [Ht15]; · iexact Ht15
        isplitl [Ht16]; · iexact Ht16
        iexact Ht17
    iexists _; iexact HW

end Cert.Kernel.Hand

end
-- ==== Proof.KBody.lean ====
/-
  The gather kernel's body at one grid point, as the pipeline's obligation wants it: whatever the output block held, it
  ends holding, in row `y₀`, the table row that word `128·i + y₀` of the flattened index array names.
-/
import proofs.«408429_j14147622273767_1_alg».proof.Proof.KRun

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The block the body leaves at grid point `i`: its row `y₀` is the table row that word `128·i + y₀` of the
    flattened index array names. -/
def gathered (c : Dev nD) (i : grid0.Coords) (tb : TbBuf (F := F) c) (fh : HbBuf (F := F) c) : Vec F S128x1024 .f32 :=
  fun y => fh (ValueIdx.ix2 (Cert.GatherSpec.rowOf (tb (ValueIdx.ix1 ⟨128 * (i 0).val + (y 0).val, by
    have h0 : (i 0).val < 128 := (i 0).isLt
    have h1 : (y 0).val < 128 := (y 0).isLt
    omega⟩))) (y 1))

/-- Contents whose every row reads the table row its word names read back as `gathered`, whatever the block held before. -/
theorem read_rows (c : Dev nD) (i : grid0.Coords) (arg3 : Memref sig .tc .vmem S128x1024 .f32)
    (tb : TbBuf (F := F) c) (fh : HbBuf (F := F) c) (f1 : Buf (Elt F) (arg3.view.loc (c : Thread nD τ))) (hidx)
    (G : Buf (Elt F) (arg3.view.loc (c : Thread nD τ))) (hG : RowsRead arg3 f1 (payW c i tb fh hidx) G 128) :
    arg3.view.read (Elt F) G = gathered c i tb fh := by
  funext y
  obtain ⟨r, k, rfl⟩ : ∃ (r : Fin 128) (k : Fin 1024), y = ix2 r k := ⟨y 0, y 1, eq_ix2 y⟩
  have h0 : (i 0).val < 128 := (i 0).isLt
  rw [hG r k, if_pos r.isLt, payW_apply c i tb fh hidx r.val r.isLt (by have := r.isLt; omega) k]
  rfl

/-- A word of the table read through any rectangle is an entry of the table. -/
theorem readAt_lt (c : Dev nD) (tb : TbBuf (F := F) c) (hidx : ∀ j : S16384.Idx, BitVec.toNat (tb j) < 50257)
    (B : LoadRect S16384) (y : B.shape.Idx) : BitVec.toNat (tbM.view.readAt (Elt F) B tb y) < 50257 :=
  hidx _

/-- The body at grid point `i`, on any whole staging buffer: given the index table (read only) with every word below
    the number of table rows, the sixteen cells at zero, the table of rows whole and what the core owes, it runs to its
    end with the staging buffer at `gathered`, and everything else as it was. -/
theorem body_run (c : Dev nD) (i : grid0.Coords) (arg3 : Memref sig .tc .vmem S128x1024 .f32) (harg3 : arg3.IsWhole)
    (tb : TbBuf (F := F) c) (fh : HbBuf (F := F) c)
    (hidx : ∀ j : S16384.Idx, BitVec.toNat (tb j) < 50257)
    (W : Waits sig Unit) (K : PUnit → sProp 𝕄) :
    iprop((∃ d, owns (c : Thread nD τ) arg3 fullShare d) ∗ tbPt c tb ∗ sems0 c ∗ hbPt c fh ∗ owes (c : Thread nD τ) 0 W
        ∗ (iprop(owns (c : Thread nD τ) arg3 fullShare (gathered c i tb fh) ∗ tbPt c tb ∗ sems0 c ∗ hbPt c fh
            ∗ (∃ W', owes (c : Thread nD τ) 0 W')) -∗ K ⟨⟩))
      ⊢ wp frame (wpE (defs₀ (F := F)) Variants.none c none) Set.univ
          (cc0__gather_kernel (F := F) i tbM (Memref.isWhole_whole _) hbM (Memref.isWhole_whole _) arg3 harg3 cc0_scratch0) K := by
  unfold owns
  iintro ⟨⟨%d1, %f1, -, H1⟩, HT, HS, HH, HW, Hk⟩
  iapply (kernel_run c i arg3 harg3 tb fh f1 (readAt_lt c tb hidx) W K)
  isplitl [H1]; · iexact H1
  isplitl [HT]; · iexact HT
  isplitl [HS]; · iexact HS
  isplitl [HH]; · iexact HH
  isplitl [HW]; · iexact HW
  iintro ⟨⟨%G, %hG, H1⟩, HT, HS, HH, HW⟩
  iapply Hk
  isplitl [H1]
  · iexists G; isplitr
    swap; · iexact H1
    ipureintro; exact read_rows c i arg3 tb fh f1 _ G hG
  isplitl [HT]; · iexact HT
  isplitl [HS]; · iexact HS
  isplitl [HH]; · iexact HH
  iexact HW

end Cert.Kernel.Hand

end
-- ==== Proof.KFrame.lean ====
/-
  The gather kernel's frame: the proof data of its one pipeline (what the output block holds after the body at
  each grid point), the body obligation from the body's run, and the run of @main — every weakly fair execution
  terminates, with the output array at what the pipeline writes back and every argument unchanged.
-/
import proofs.«408429_j14147622273767_1_alg».proof.Proof.KBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output window's current staging buffer at point `t`, as the pipeline passes it, and its wholeness. -/
abbrev ms0 (t : Fin (cfgM m).N) : Memref sig .tc .vmem S128x1024 .f32 := spec0_0.stage ((cfgM m).slots t 0)
abbrev hs0 (t : Fin (cfgM m).N) : (ms0 m t).IsWhole := hstage0_0 (((cfgM m).slots t 0).cast nbuf0_0)

/-- The body at point `t`, on what the pipeline calls it with. -/
abbrev bodyAt (t : Fin (cfgM m).N) : Prog (TpuEff nD τ sig (Elt F) Λ₀ .tc) PUnit :=
  cc0__gather_kernel (grid0.coords t) (Memref.whole main_v0) (Memref.isWhole_whole _) (Memref.whole main_arg1) (Memref.isWhole_whole _)
    (spec0_0.stage ((cfgM m).slots t 0)) (hstage0_0 (((cfgM m).slots t 0).cast nbuf0_0)) cc0_scratch0

/-- The proof data: the output array as the region finds it; after the body at point `t` the staging buffer holds
    the rows the point's 128 index words name; the invariant is the body's cells at zero, the table of rows at its
    launch contents and the index table's read share; nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => gathered c (grid0.coords t) (tbl m 0) (V m c main_arg1)
  Φ _ := iprop(Pipeline.ΦD osem0 spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) :
    (dats m 0 c).after 0 t = gathered c (grid0.coords t) (tbl m 0) (V m c main_arg1) := rfl

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t))

/-- The body at any point, given that every word of the index table is below the number of table rows: the invariant
    hands it the cells, the table of rows and the index table's read share and takes them back as they were. -/
theorem sound_body (hidx : ∀ j : S16384.Idx, BitVec.toNat (tbl m 0 j) < 50257) (c : Dev nD) (t : Fin (cfgM m).N) :
    bodyPre m c t ⊢ wp frame (wpE (defs₀ (F := F)) Variants.none c none) Set.univ (bodyAt m t) (fun _ => bodyPost m c t) := by
  unfold bodyPre bodyPost bodyAt
  rw [show (dats m 0 c).Φ t.succ = (dats m 0 c).Φ t.castSucc from rfl, after0]
  rw [show (dats m 0 c).Φ t.castSucc = iprop(Pipeline.ΦD osem0 spec0 H0 (V m) c ∗ Pipeline.ΦT pre0 (tbl m) c) from rfl, PhiD_eq, PhiT_eq]
  unfold Dat.owesAt Pipeline.owesWithin
  rw [show (dats m 0 c).owed t.castSucc = 0 from rfl, show (dats m 0 c).owed t.succ = 0 from rfl]
  iintro ⟨⟨⟨HE, Hg, HS, HH⟩, HT⟩, ⟨%W, -, HW⟩, ⟨%d0, H0⟩⟩
  iapply (body_run c (grid0.coords t) _ _ (tbl m 0) (V m c main_arg1) hidx W _)
  isplitl [H0]; · iexists _; iexact H0
  isplitl [HT]; · iexact HT
  isplitl [HS]; · iexact HS
  isplitl [HH]; · iexact HH
  isplitl [HW]; · iexact HW
  iintro ⟨H0, HT, HS, HH, ⟨%W', HW'⟩⟩
  isplitl [HE Hg HS HH HT]
  · isplitr [HT]
    · isplitl [HE]; · iexact HE
      isplitl [Hg]; · iexact Hg
      isplitl [HS]; · iexact HS
      iexact HH
    iexact HT
  isplitl [HW']
  · iexists W'; isplitr; · ipureintro; exact fun _ _ => Or.inl trivial
    iexact HW'
  iexact H0

set_option maxRecDepth 65536 in
/-- The library's body obligation, at every point. -/
theorem body_obligation (hidx : ∀ j : S16384.Idx, BitVec.toNat (tbl m 0 j) < 50257) (c : Dev nD) :
    BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt m t) (fun _ => bodyPost m c t)
  exact sound_body m hidx c t

set_option backward.isDefEq.respectTransparency.types false in
/-- From any memory with zero counters whose index words are all below the number of table rows: every weakly fair execution
    of @main terminates, the output array holds what the pipeline computes from the proof data, and every other
    buffer what the line after the region leaves. -/
theorem run_main (hidx : ∀ j : S16384.Idx, BitVec.toNat (tbl m 0 j) < 50257) :
    θ_run defs (onTc (τ := τ) (main (F := F))) (s₀ m ρ)
      (Pipeline.FramePost (Pipeline.pin pcfgs fun _ => adm m) (dats m) 0
        (Pipeline.afterTail pcfgs (fun _ => adm m) (dats m) 0 (V0 m) [hostOps1])) :=
  Pipeline.θ_run_frameP_dma_around pcfgs (fun _ => adm m) (dats m) (0 : Fin 1) launch0 osem0 defs₀ Variants.none ownSemFacts0 H0 H0_sub m ρ main
    (hbody := fun c => (body_obligation m hidx c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m)
    (hin := fun _ => .rfl) (hout := fun c => by
      show iprop(Pipeline.ΦD osem0 spec0 H0 (V m) c ∗ Pipeline.ΦT pre0 (tbl m) c) ⊢ _
      iintro ⟨H, -⟩; iexact H)

end Cert.Kernel.Hand

end
-- ==== Proof.KValue.lean ====
/-
  The gather kernel's result as a row lookup: what the pipeline writes back, block by block, is one whole-array
  function of the arguments; the blocks tile the output array; the line after the region re-lays it.
-/
import proofs.«408429_j14147622273767_1_alg».proof.Proof.KFrame
import Idealize.ShloMosaic.Lib.Pipeline.Value
import Idealize.ShloMosaic.Lib.ValueIdx
import Idealize.ShloMosaic.Lib.StableHlo.Run

set_option maxRecDepth 16384

noncomputable section

namespace Cert.Kernel.Hand

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- The line before the region writes neither argument: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- Nor does the line after it: they end as launched. -/
theorem W_main_arg0 (c : Dev nD) :
    Pipeline.afterTail pcfgs (fun _ => adm m) (dats m) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.reshape_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (c : Dev nD) :
    Pipeline.afterTail pcfgs (fun _ => adm m) (dats m) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.reshape_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- The index table read at a word: the index array at the word's row-major position. -/
theorem tbl_apply (j : Fin 16384) :
    tbl m 0 (ValueIdx.ix1 j)
      = m (((0 : Dev nD) : Thread nD τ).loc main_arg0) (ValueIdx.ix2 (⟨j.val / 4096, by omega⟩ : Fin 4) (⟨j.val % 4096, Nat.mod_lt _ (by decide)⟩ : Fin 4096)) := by
  have e : (tbl m 0 : S16384.Idx → BitVec 32)
      = shapeCast S16384 (m (((0 : Dev nD) : Thread nD τ).loc main_arg0) : S4x4096.Idx → BitVec 32) shapeCasts_S4x4096_S16384 := by
    unfold tbl
    show V m 0 main_v0 = _
    dsimp only [V, V0]
    simp only [hostOps0, List.flatten_cons, List.flatten_nil, List.append_nil]
    after_results
    rfl
  rw [e]
  refine shapeCast_apply (s := S4x4096) (t := S16384) _ _ _ _ ?_
  show (S4x4096.rowMajor _).val = (S16384.rowMajor _).val
  rw [Shape.rowMajor_val_two, Shape.rowMajor_val_one]
  show (j.val / 4096) * 4096 + j.val % 4096 = j.val
  omega

/-- The index table the region reads is the index array flattened: if every index word is below the number of table
    rows, so is every word of the table. -/
theorem tbl_lt (h : ∀ (c : Dev nD) (j : S4x4096.Idx), BitVec.toNat (m ((c : Thread nD τ).loc main_arg0) j) < 50257) :
    ∀ j : S16384.Idx, BitVec.toNat (tbl m 0 j) < 50257 := by
  intro j
  obtain ⟨a, rfl⟩ : ∃ a : Fin 16384, j = ValueIdx.ix1 a := ⟨j 0, ValueIdx.eq_ix1 j⟩
  rw [tbl_apply]
  exact h 0 _

/-! ## From blocks to the array -/

/-- The output array as ONE function of the arguments: its row `r` is the table row that word `r` of the flattened
    index array names. -/
def Garr (c : Dev nD) : S16384x1024.Idx → Elt F .f32 := fun i =>
  (V m c main_arg1 : S50257x1024.Idx → Elt F .f32)
    (ValueIdx.ix2 (n0 := 50257) (n1 := 1024) (Cert.GatherSpec.rowOf (tbl m 0 (ValueIdx.ix1 (n := 16384) (i 0)))) (i 1))

theorem Garr_apply (c : Dev nD) (r : Fin 16384) (k : Fin 1024) :
    Garr m c (ValueIdx.ix2 r k)
      = (V m c main_arg1 : S50257x1024.Idx → Elt F .f32) (ValueIdx.ix2 (Cert.GatherSpec.rowOf (tbl m 0 (ValueIdx.ix1 r))) k) := rfl

/-- The output window is written back at every grid point. -/
theorem flush_all : ∀ t : Fin (cfgM m).N, ((cfgM m).win 0).flush t = true :=
  (by decide +kernel : ∀ t : Fin grid0.N, Pipeline.Window.flushOf grid0 true cc0_transform_1 t = true)

/-- Point `t`'s grid coordinate is `t` and its block index is (t, 0). -/
theorem idx_facts : ∀ t : Fin (cfgM m).N, (grid0.coords t 0).val = t.val
    ∧ ((cfgM m).win 0).index t (0 : Fin 2) = t.val ∧ ((cfgM m).win 0).index t (1 : Fin 2) = 0 :=
  (by decide +kernel : ∀ t : Fin grid0.N, (grid0.coords t 0).val = t.val
    ∧ cc0_transform_1 (grid0.coords t) (0 : Fin 2) = t.val ∧ cc0_transform_1 (grid0.coords t) (1 : Fin 2) = 0)

/-- One entry of the block the body leaves at a point is the entry of the whole-array function under it. -/
theorem gathered_apply (c : Dev nD) (i : grid0.Coords) (p : Fin 128) (q : Fin 1024) (r : Fin 16384)
    (hr : r.val = 128 * (i 0).val + p.val) :
    gathered c i (tbl m 0) (V m c main_arg1) (ValueIdx.ix2 p q) = Garr m c (ValueIdx.ix2 r q) := by
  have h0 : (i 0).val < 128 := (i 0).isLt
  have e : r = ⟨128 * (i 0).val + p.val, by omega⟩ := Fin.ext hr
  rw [Garr_apply, e]
  rfl

/-- The same at any two indices whose coordinates are so related. -/
theorem gathered_at (c : Dev nD) (i : grid0.Coords) (y : S128x1024.Idx) (k : S16384x1024.Idx)
    (hk0 : (k 0).val = 128 * (i 0).val + (y 0).val) (hk1 : (k 1).val = (y 1).val) :
    gathered c i (tbl m 0) (V m c main_arg1) y = Garr m c k := by
  obtain ⟨p, q, rfl⟩ : ∃ (p : Fin 128) (q : Fin 1024), y = ValueIdx.ix2 p q := ⟨y 0, y 1, ValueIdx.eq_ix2 y⟩
  obtain ⟨r, q', rfl⟩ : ∃ (r : Fin 16384) (q' : Fin 1024), k = ValueIdx.ix2 r q' := ⟨k 0, k 1, ValueIdx.eq_ix2 k⟩
  obtain rfl : q' = q := Fin.ext hk1
  exact gathered_apply m c i p q' r hk0

/-- WHAT POINT `t` WRITES BACK is block `t` of the whole-array function. -/
theorem flushed_eq (c : Dev nD) (t : Fin (cfgM m).N) :
    (dats m 0 c).flushed 0 t = (((cfgM m).win 0).blk t).view.read (Elt F) (Garr m c) := by
  show ((cfgM m).win 0).cut (grid0.coords t) ((dats m 0 c).after 0 t) = _
  rw [after0]
  obtain ⟨e0, e1, e2⟩ := idx_facts m t
  funext y
  show gathered c (grid0.coords t) (tbl m 0) (V m c main_arg1) (((cfgM m).win 0).xinj (grid0.coords t) y)
    = Garr m c ((((cfgM m).win 0).blk t).view.emb y)
  refine gathered_at m c (grid0.coords t) _ _ ?_ ?_
  · show ((cfgM m).win 0).index t (0 : Fin 2) * 128 + 1 * (y (0 : Fin 2)).val = 128 * (grid0.coords t 0).val + (y (0 : Fin 2)).val
    rw [e0, e1]; omega
  · show ((cfgM m).win 0).index t (1 : Fin 2) * 1024 + 1 * (y (1 : Fin 2)).val = (y (1 : Fin 2)).val
    rw [e2]; omega

/-- An index of the array is in point `t`'s block iff each coordinate is in the block's range on its axis. -/
theorem mem_blk (t : Fin (cfgM m).N) (i : S16384x1024.Idx) :
    i ∈ (((cfgM m).win 0).blk t).view.set ↔ ∀ a : Fin 2, ((cfgM m).win 0).index t a * S128x1024.size a ≤ (i a).val
      ∧ (i a).val < ((cfgM m).win 0).index t a * S128x1024.size a + S128x1024.size a := by
  have h : (((cfgM m).win 0).blk t).view.set = (((cfgM m).win 0).rect t).set := View.set_slice_whole main_v1 _
  exact (Eq.to_iff (congrArg (fun s => i ∈ s) h)).trans Rect.mem_set_unit

/-- The blocks tile the array: row `r` is in the block of point `r / 128`. -/
theorem cover (i : S16384x1024.Idx) :
    ∃ t : Fin (cfgM m).N, ((cfgM m).win 0).flush t = true ∧ i ∈ (((cfgM m).win 0).blk t).view.set := by
  have hi0 : (i 0).val < 16384 := (i 0).isLt
  have hi1 : (i 1).val < 1024 := (i 1).isLt
  have hN : (cfgM m).N = 128 := N_0
  have ht : (i 0).val / 128 < (cfgM m).N := by rw [hN]; omega
  obtain ⟨-, e1, e2⟩ := idx_facts m ⟨(i 0).val / 128, ht⟩
  refine ⟨⟨(i 0).val / 128, ht⟩, flush_all m _, ?_⟩
  rw [mem_blk]
  intro a
  match a with
  | ⟨0, _⟩ =>
    show ((cfgM m).win 0).index ⟨(i 0).val / 128, ht⟩ (0 : Fin 2) * 128 ≤ (i 0).val
      ∧ (i 0).val < ((cfgM m).win 0).index ⟨(i 0).val / 128, ht⟩ (0 : Fin 2) * 128 + 128
    rw [e1]; show (i 0).val / 128 * 128 ≤ (i 0).val ∧ (i 0).val < (i 0).val / 128 * 128 + 128; omega
  | ⟨1, _⟩ =>
    show ((cfgM m).win 0).index ⟨(i 0).val / 128, ht⟩ (1 : Fin 2) * 1024 ≤ (i 1).val
      ∧ (i 1).val < ((cfgM m).win 0).index ⟨(i 0).val / 128, ht⟩ (1 : Fin 2) * 1024 + 1024
    rw [e2]; omega

/-- THE ARRAY after the region: the whole-array function. -/
theorem final (c : Dev nD) : (dats m 0 c).arrAt 0 (cfgM m).N = Garr m c :=
  (dats m 0 c).arrAt_eq_of_cover 0 (Garr m c) (fun t _ => flushed_eq m c t) (cover m)

/-- The index array's word under word `4096·b + s` of the table is its entry (b, s). -/
theorem tbl_at (b : Fin 4) (s : Fin 4096) (r : Fin 16384) (hr : r.val = 4096 * b.val + s.val) :
    tbl m 0 (ValueIdx.ix1 r) = m (((0 : Dev nD) : Thread nD τ).loc main_arg0) (ValueIdx.ix2 b s) := by
  rw [tbl_apply]
  have hb : (⟨r.val / 4096, by omega⟩ : Fin 4) = b := Fin.ext (by show r.val / 4096 = b.val; omega)
  have hs : (⟨r.val % 4096, Nat.mod_lt _ (by decide)⟩ : Fin 4096) = s := Fin.ext (by show r.val % 4096 = s.val; omega)
  rw [hb, hs]

/-- The line after the region re-lays the output array: its entry (b, s, k) is entry (4096·b + s, k) of the array. -/
theorem tail_eq (c : Dev nD) :
    (Pipeline.afterTail pcfgs (fun _ => adm m) (dats m) 0 (V0 m) [hostOps1] c main_v2 : S4x4096x1024.Idx → Elt F .f32)
      = shapeCast S4x4096x1024 (Garr m c) shapeCasts_S16384x1024_S4x4096x1024 := by
  unfold Pipeline.afterTail
  simp only [List.flatten_cons, List.flatten_nil, List.append_nil]
  show StableHlo.after hostOps1 _ (Proc.devRef .tc main_v2) = _
  after_results
  have h : Pipeline.withArrays (Pipeline.pin pcfgs (fun _ => adm m) 0).spec c (V0 m c)
      (fun w => (dats m 0 c).arrAt w (Pipeline.pin pcfgs (fun _ => adm m) 0).N) (Proc.devRef .tc main_v1) = Garr m c :=
    (Pipeline.withArrays_arr spec0 (launch0 (F := F)).win.arr_inj c _ _ 0).trans (final m c)
  exact congrArg (fun g : S16384x1024.Idx → Elt F .f32 => shapeCast S4x4096x1024 g shapeCasts_S16384x1024_S4x4096x1024) h

/-- THE RESULT: after the line that follows the region, the result array is the row lookup of the arguments. -/
theorem result_eq (c : Dev nD) :
    Pipeline.afterTail pcfgs (fun _ => adm m) (dats m) 0 (V0 m) [hostOps1] c main_v2
      = Cert.GatherSpec.lookup (m ((c : Thread nD τ).loc main_arg1)) (m ((c : Thread nD τ).loc main_arg0)) := by
  refine (tail_eq m c).trans ?_
  funext j
  obtain ⟨b, s, k, rfl⟩ : ∃ (b : Fin 4) (s : Fin 4096) (k : Fin 1024), j = ValueIdx.ix3 b s k :=
    ⟨j 0, j 1, j 2, ValueIdx.eq_ix3 j⟩
  rw [Cert.GatherSpec.lookup_apply]
  refine (shapeCast_apply (s := S16384x1024) (t := S4x4096x1024) _ _ _
    (ValueIdx.ix2 (⟨4096 * b.val + s.val, by omega⟩ : Fin 16384) k) ?_).trans ?_
  · show (S16384x1024.rowMajor _).val = (S4x4096x1024.rowMajor _).val
    rw [Shape.rowMajor_val_two, Shape.rowMajor_val_three]
    show (4096 * b.val + s.val) * 1024 + k.val = (b.val * 4096 + s.val) * 1024 + k.val
    omega
  · rw [Garr_apply, tbl_at m b s _ rfl, V_main_arg1]
    obtain rfl : c = 0 := Subsingleton.elim _ _
    rfl

end Cert.Kernel.Hand

end
-- ==== Proof.KIdealSetup.lean ====
/-
  The gather kernel's program around its one region: what each buffer holds when the region is entered
  (the index array flattened into the table the region reads), the table's contents and the pipeline at them,
  the resources the body works with — the table's read share, the sixteen transfer cells, the table of rows
  left in HBM held as one read share per cell — and the lines of @main after the region.
-/
import proofs.«408429_j14147622273767_1_alg».proof.Proof.Gen.KernelIdeal.Launch
import proofs.«408429_j14147622273767_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- The buffers' contents when the region is entered: after the one line before it (the index array flattened). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the line before the region, the region, and the line after it: it reduces to the region continued by the
    later line, at the contents after the earlier one. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The table the region reads -/

/-- The flattened index array when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The table's contents are admissible whatever they are: no index map of the region reads them. -/
abbrev adm : (pcfg0 (F := F)).Adm := ⟨tbl m, trivial⟩
abbrev cfgM : Pipeline.Cfg sig Λ₀ := cfg0 (adm m)

/-- The table and the array of rows as the body is handed them: whole buffers. -/
abbrev tbM : Memref sig .tc .smem S16384 .i32 := Memref.whole main_v0
abbrev hbM : Memref sig .tc .hbm S50257x1024 .f32 := Memref.whole main_arg1
abbrev TbBuf (c : Dev nD) : Type := Buf (Elt F) (tbM.view.loc (c : Thread nD τ))
abbrev HbBuf (c : Dev nD) : Type := Buf (Elt F) (hbM.view.loc (c : Thread nD τ))
/-- The table at the half share the region hands the body (read only). -/
abbrev tbPt (c : Dev nD) (f : TbBuf (F := F) c) : sProp 𝕄 := tbM.view.loc (c : Thread nD τ) ↦{fullShare.right} f
/-- The array of rows at the read share of transfer cell `k`: sixteen transfers read it at once, one per cell. -/
abbrev hbTok (c : Dev nD) (k : ℕ) (f : HbBuf (F := F) c) : sProp 𝕄 := hbM.view.loc (c : Thread nD τ) ↦{Transfers.shareTokN fullShare k} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The body's own transfer cells and the array it reads by them -/

/-- The sixteen cells of the body's semaphore array, by their numbers in the core's pool. -/
abbrev osem0 : Fin 16 → SemLoc sig := fun j =>
  (![SemLoc.dma 2, SemLoc.dma 3, SemLoc.dma 4, SemLoc.dma 5, SemLoc.dma 6, SemLoc.dma 7, SemLoc.dma 8, SemLoc.dma 9,
    SemLoc.dma 10, SemLoc.dma 11, SemLoc.dma 12, SemLoc.dma 13, SemLoc.dma 14, SemLoc.dma 15, SemLoc.dma 16, SemLoc.dma 17] : Fin 16 → SemLoc sig) j
theorem ownSemFacts0 : Pipeline.OwnSemFacts spec0 osem0 := by decide
/-- The array of rows: unscoped, no window's array, no table. -/
def H0 : Finset (Ref sig .tc) := {main_arg1}
theorem H0_sub : H0 ⊆ Pipeline.restRefsP sig pre0 spec0 := by decide

/-- The array of rows whole, at the full share. -/
abbrev hbPt (c : Dev nD) (f : HbBuf (F := F) c) : sProp 𝕄 := hbM.view.loc (c : Thread nD τ) ↦{fullShare} f

/-- The sixteen cells at zero, one by one. -/
abbrev sems0 (c : Dev nD) : sProp 𝕄 :=
  iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)

theorem ownSems_eq (c : Dev nD) :
    (Pipeline.ownSems0 (Ix := Unit) (Name := ℕ) (U := Pipeline.UD sig nD τ) (Lvl := ℕ) (Val := Elt F) (τ := τ) osem0 c : sProp 𝕄) = sems0 c := by
  rw [Pipeline.ownSems0_eq_of_list c osem0 [0, 1, 2, 3, 4, 5, 6, 7, 8, 9, 10, 11, 12, 13, 14, 15] (by decide) (by decide)]; rfl

theorem hbmPts_eq (c : Dev nD) :
    (bigSep H0 (fun b => ((c : Thread nD τ).loc b) ↦{fullShare} V m c b) : sProp 𝕄) = hbPt c (V m c main_arg1) := by
  rw [show H0 = {main_arg1} from rfl, bigSep_singleton]

/-- The region invariant conjunct by conjunct: no scoped buffer besides the staging ones, the generator register,
    the sixteen cells at zero, the array of rows at its launch contents. -/
theorem PhiD_eq (c : Dev nD) :
    (Pipeline.ΦD osem0 spec0 H0 (V m) c : sProp 𝕄)
      = iprop((BI.emp : sProp 𝕄) ∗ (∃ r, prngReg c r) ∗ sems0 c ∗ hbPt c (V m c main_arg1)) := by
  rw [Pipeline.ΦD_eq, scopedRest0_eq, ownSems_eq, hbmPts_eq]

/-! ## The line after the region -/

theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  simp only [hostOps1, List.mem_cons, List.mem_nil_iff, or_false] at hop
  rcases hop with rfl
  refine Pipeline.sub_tailRefsBut pre0 spec0 H0 _ (StableHlo.reshape_bufs_sub ..) (fun k => ?_) (fun b hb => ?_)
  · fin_cases k; rw [StableHlo.reshape_bufs]; simp only [Finset.mem_insert, Finset.mem_singleton, not_or]
    exact ⟨StableHlo.devRef_ne_of_ne (by decide), StableHlo.devRef_ne_of_ne (by decide)⟩
  · obtain rfl : b = main_arg1 := Finset.mem_singleton.mp hb
    rw [StableHlo.reshape_bufs]; simp only [Finset.mem_insert, Finset.mem_singleton, not_or]
    exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

end Cert.KernelIdeal.Hand

end
-- ==== Proof.KIdealRows.lean ====
/-
  Rows of a 128×1024 buffer written one at a time: what the buffer reads back.
-/
import proofs.«408429_j14147622273767_1_alg».proof.Proof.KIdealSetup
import Idealize.ShloMosaic.Lib.ValueIdx

set_option maxRecDepth 16384

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F]

/-- A row below 128 lies inside the buffer. -/
theorem row_inb (r : ℕ) (hr : r < 128) : ∀ a, (![r, 0] : Fin 2 → Nat) a + S1x1024.size a ≤ S128x1024.size a := by
  intro a
  match a with
  | ⟨0, _⟩ => show r + 1 ≤ 128; omega
  | ⟨1, _⟩ => show 0 + 1024 ≤ 1024; omega

/-- Row `r` of a 128×1024 buffer, as the body spells it: the 1×1024 slice at row `r`, its unit axis dropped. -/
abbrev rowM (M : Memref sig .tc .vmem S128x1024 .f32) (r : ℕ)
    (h : ∀ a, (![r, 0] : Fin 2 → Nat) a + S1x1024.size a ≤ S128x1024.size a)
    (hp : ∀ a, (Rect.unit (s := S128x1024) ![r, 0] S1x1024.size h).stride a = 1) : Memref sig .tc .vmem S1024 .f32 :=
  (M.slice (Rect.unit (s := S128x1024) ![r, 0] S1x1024.size h) hp).squeeze S1024 squeezes_S1x1024_S1024

/-- Entry `k` of row `r` sits in the buffer where entry `(r, k)` does. -/
theorem rowM_emb (M : Memref sig .tc .vmem S128x1024 .f32) (r : Fin 128)
    (h : ∀ a, (![r.val, 0] : Fin 2 → Nat) a + S1x1024.size a ≤ S128x1024.size a) (hp) (k : Fin 1024) :
    (rowM M r.val h hp).view.emb (ix1 k) = M.view.emb (ix2 r k) := by
  show M.view.emb ((Rect.unit (s := S128x1024) ![r.val, 0] S1x1024.size h).emb
      (Shape.reshapeEquiv (s := S1x1024) (s' := S1024) squeezes_S1x1024_S1024.numel_eq (ix1 k))) = M.view.emb (ix2 r k)
  refine congrArg M.view.emb ?_
  rw [Shape.reshapeEquiv_cons_one]
  funext a
  refine Fin.ext ?_
  rw [Rect.emb_apply]
  match a with
  | ⟨0, _⟩ => show r.val + 1 * 0 = r.val; omega
  | ⟨1, _⟩ => show 0 + 1 * k.val = k.val; omega

/-- A buffer with row `r` overwritten by `p` reads `p` on row `r` and as before on every other row. -/
theorem read_write_row (M : Memref sig .tc .vmem S128x1024 .f32) (r : Fin 128)
    (h : ∀ a, (![r.val, 0] : Fin 2 → Nat) a + S1x1024.size a ≤ S128x1024.size a) (hp)
    (g : M.view.ty.Contents (Elt F)) (p : S1024.Idx → Elt F .f32) (r' : Fin 128) (k : Fin 1024) :
    M.view.read (Elt F) (View.write (Elt F) (rowM M r.val h hp).view g p Finset.univ) (ix2 r' k)
      = if r' = r then p (ix1 k) else M.view.read (Elt F) g (ix2 r' k) := by
  by_cases hr : r' = r
  · -- the written row: the entry is one the row's view covers
    rw [hr, if_pos rfl, View.read_apply, ← rowM_emb M r h hp k, View.write_emb_of_mem _ _ (Finset.mem_univ _), cast_cast, cast_eq]
  · -- another row: no entry of the written row lies on it
    rw [if_neg hr, View.read_apply, View.read_apply, View.write_of_not_mem]
    intro hmem
    obtain ⟨x, -, hx⟩ := Finset.mem_map.mp hmem
    have e : M.view.emb (ix2 r (x 0)) = M.view.emb (ix2 r' k) :=
      ((rowM_emb M r h hp (x 0)).symm.trans (congrArg _ (eq_ix1 x)).symm).trans hx
    exact hr (congrFun (M.view.emb.injective e) 0).symm

/-- The rows below `n` written in order, row `r` with `P r`. -/
def writeRows (M : Memref sig .tc .vmem S128x1024 .f32) (g : M.view.ty.Contents (Elt F)) (P : ℕ → S1024.Idx → Elt F .f32) :
    ℕ → M.view.ty.Contents (Elt F)
  | 0 => g
  | n + 1 => if hn : n < 128 then View.write (Elt F) (rowM M n (row_inb n hn) (fun _ => rfl)).view (writeRows M g P n) (P n) Finset.univ
      else writeRows M g P n

/-- After the rows below `n` are written, a row below `n` reads its payload and a later row reads as before. -/
theorem read_writeRows (M : Memref sig .tc .vmem S128x1024 .f32) (g : M.view.ty.Contents (Elt F)) (P : ℕ → S1024.Idx → Elt F .f32)
    (n : ℕ) (hn : n ≤ 128) (r' : Fin 128) (k : Fin 1024) :
    M.view.read (Elt F) (writeRows M g P n) (ix2 r' k)
      = if r'.val < n then P r'.val (ix1 k) else M.view.read (Elt F) g (ix2 r' k) := by
  induction n with
  | zero =>
    show M.view.read (Elt F) g (ix2 r' k) = _
    rw [if_neg (Nat.not_lt_zero _)]
  | succ n ih =>
    have hn' : n < 128 := by omega
    have ih' := ih (by omega)
    rw [writeRows, dif_pos hn',
      read_write_row M ⟨n, hn'⟩ (row_inb n hn') (fun _ => rfl) (writeRows M g P n) (P n) r' k, ih']
    by_cases h1 : r' = ⟨n, hn'⟩
    · rw [if_pos h1, if_pos (by rw [h1]; exact Nat.lt_succ_self n), h1]
    · have h3 : r'.val ≠ n := fun e => h1 (Fin.ext e)
      rw [if_neg h1]
      by_cases h2 : r'.val < n
      · rw [if_pos h2, if_pos (by omega)]
      · rw [if_neg h2, if_neg (by omega)]

end Cert.KernelIdeal.Hand

end
-- ==== Proof.KIdealPay.lean ====
/-
  What one of the body's 128 copies moves: the position of the index word it loads, the word, and the table row the word
  names, each as the body spells it and as a plain function of the arguments.
-/
import proofs.«408429_j14147622273767_1_alg».proof.Proof.KIdealRows
import proofs.«408429_j14147622273767_1_alg».proof.Proof.Spec

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- A word below the number of table rows names a row inside the table: the copy's source is in bounds. -/
theorem chk_of_lt (w : BitVec 32) (h : w.toNat < 50257) : ∀ a, (![w.toNat, 0] : Fin 2 → Nat) a + S1x1024.size a ≤ S50257x1024.size a := by
  intro a; match a with
  | ⟨0, _⟩ => show w.toNat + 1 ≤ 50257; omega
  | ⟨1, _⟩ => show 0 + 1024 ≤ 1024; omega

/-- The position of word `r` of grid point `i`'s 128 in the index table, as the body computes it (32-bit arithmetic). -/
def offW (i : grid0.Coords) (r : ℕ) : Fin 1 → Nat :=
  ![(Scalar.indexCast (Scalar.addi (Scalar.muli (BitVec.ofNat 32 (i 0).val) 128#32) (BitVec.ofNat 32 r))).toNat]

/-- Nothing wraps: the position is `128·i + r`. -/
theorem offW_val (i : grid0.Coords) (r : ℕ) (hr : r < 128) : offW i r 0 = 128 * (i 0).val + r := by
  have h0 : (i 0).val < 128 := (i 0).isLt
  show (Scalar.indexCast (Scalar.addi (Scalar.muli (BitVec.ofNat 32 (i 0).val) 128#32) (BitVec.ofNat 32 r))).toNat = _
  simp only [Scalar.indexCast, Scalar.addi, Scalar.muli, IntOp.addi, IntOp.muli, BitVec.toNat_add, BitVec.toNat_mul, BitVec.toNat_ofNat]
  omega

theorem offW_inb (i : grid0.Coords) (r : ℕ) (hr : r < 128) : ∀ a, (offW i r) a + S1.size a ≤ S16384.size a := by
  intro a
  have h0 : (i 0).val < 128 := (i 0).isLt
  match a with
  | ⟨0, _⟩ =>
    show offW i r 0 + 1 ≤ 16384
    rw [offW_val i r hr]; omega

/-- The table row word `r` names, as the body copies it: the table read through the 1×1024 slice at the row the word
    names, its unit axis dropped. -/
def payW (c : Dev nD) (i : grid0.Coords) (tb : TbBuf (F := F) c) (fh : HbBuf (F := F) c)
    (hidx : ∀ (B : LoadRect S16384) (y : B.shape.Idx), BitVec.toNat (tbM.view.readAt (Elt F) B tb y) < 50257) (r : ℕ) : S1024.Idx → Elt F .f32 :=
  if hr : r < 128 then
    ReadAs.same.apply (View.read (Elt F) ((hbM.slice (Rect.unit (s := S50257x1024) ![(tbM.view.readAt (Elt F) (Rect.unit (s := S16384) (offW i r) S1.size (offW_inb i r hr)).toLoadRect tb (Shape.Idx.first (numel1_S1.symm ▸ Nat.one_pos))).toNat, 0] S1x1024.size (chk_of_lt _ (hidx _ _))) (fun _ => rfl)).squeeze S1024 squeezes_S1x1024_S1024).view fh)
  else fun _ => fh (ValueIdx.ix2 (0 : Fin 50257) (0 : Fin 1024))

/-- The word the body loads at position `128·i + r` is that entry of the table. -/
theorem word_eq (c : Dev nD) (i : grid0.Coords) (tb : TbBuf (F := F) c) (r : ℕ) (hr : r < 128) (h : 128 * (i 0).val + r < 16384) :
    tbM.view.readAt (Elt F) (Rect.unit (s := S16384) (offW i r) S1.size (offW_inb i r hr)).toLoadRect tb (Shape.Idx.first (numel1_S1.symm ▸ Nat.one_pos))
      = tb (ix1 ⟨128 * (i 0).val + r, h⟩) := by
  show tb _ = tb _
  congr 1
  funext a
  match a with
  | ⟨0, _⟩ =>
    apply Fin.ext
    show offW i r 0 + 1 * 0 = 128 * (i 0).val + r
    rw [offW_val i r hr]; omega

/-- The table read through the slice at the row a word names: entry `k` is entry `k` of that row. -/
theorem row_read (c : Dev nD) (fh : HbBuf (F := F) c) (w : BitVec 32)
    (hw : ∀ a, (![w.toNat, 0] : Fin 2 → Nat) a + S1x1024.size a ≤ S50257x1024.size a) (hlt : w.toNat < 50257) (k : Fin 1024) :
    ReadAs.same.apply (View.read (Elt F) ((hbM.slice (Rect.unit (s := S50257x1024) ![w.toNat, 0] S1x1024.size hw) (fun _ => rfl)).squeeze S1024 squeezes_S1x1024_S1024).view fh) (ix1 k)
      = fh (ix2 (Cert.GatherSpec.rowOf w) k) := by
  show fh ((Rect.unit (s := S50257x1024) ![w.toNat, 0] S1x1024.size hw).emb
      (Shape.reshapeEquiv (s := S1x1024) (s' := S1024) squeezes_S1x1024_S1024.numel_eq (ix1 k))) = fh (ix2 (Cert.GatherSpec.rowOf w) k)
  congr 1
  rw [Shape.reshapeEquiv_cons_one]
  funext a
  refine Fin.ext ?_
  rw [Rect.emb_apply]
  match a with
  | ⟨0, _⟩ => show w.toNat + 1 * 0 = (Cert.GatherSpec.rowOf w).val; rw [Cert.GatherSpec.rowOf_val w hlt]; omega
  | ⟨1, _⟩ => show 0 + 1 * k.val = k.val; omega

/-- Entry `k` of the copied row is entry `k` of the table row that word `128·i + r` of the index table names. -/
theorem payW_apply (c : Dev nD) (i : grid0.Coords) (tb : TbBuf (F := F) c) (fh : HbBuf (F := F) c) (hidx) (r : ℕ) (hr : r < 128)
    (h : 128 * (i 0).val + r < 16384) (k : Fin 1024) :
    payW c i tb fh hidx r (ix1 k) = fh (ix2 (Cert.GatherSpec.rowOf (tb (ix1 ⟨128 * (i 0).val + r, h⟩))) k) := by
  unfold payW
  rw [dif_pos hr]
  exact (row_read c fh _ _ (hidx _ _) k).trans (by rw [word_eq c i tb r hr h])

/-- What a block's contents read once the rows below `n` have been written over `f1`, row `r` with `P r`: a row below
    `n` reads its payload, a later row reads as `f1` does. -/
def RowsRead (M : Memref sig .tc .vmem S128x1024 .f32) (f1 : M.view.ty.Contents (Elt F)) (P : ℕ → S1024.Idx → Elt F .f32)
    (g : M.view.ty.Contents (Elt F)) (n : ℕ) : Prop :=
  ∀ (r' : Fin 128) (k : Fin 1024),
    M.view.read (Elt F) g (ix2 r' k) = if r'.val < n then P r'.val (ix1 k) else M.view.read (Elt F) f1 (ix2 r' k)

theorem rows_zero (M : Memref sig .tc .vmem S128x1024 .f32) (f1 : M.view.ty.Contents (Elt F)) (P : ℕ → S1024.Idx → Elt F .f32) :
    RowsRead M f1 P f1 0 := fun r' k => (if_neg (Nat.not_lt_zero _)).symm

/-- Writing row `n` with `P n` over contents that read so up to `n` gives contents that read so up to `n + 1`. -/
theorem rows_step {M : Memref sig .tc .vmem S128x1024 .f32} {f1 : M.view.ty.Contents (Elt F)} {P : ℕ → S1024.Idx → Elt F .f32}
    {g : M.view.ty.Contents (Elt F)} {n : ℕ} (hr : RowsRead M f1 P g n) (hn : n < 128)
    (h : ∀ a, (![n, 0] : Fin 2 → Nat) a + S1x1024.size a ≤ S128x1024.size a)
    (hp : ∀ a, (Rect.unit (s := S128x1024) ![n, 0] S1x1024.size h).stride a = 1)
    (p : S1024.Idx → Elt F .f32) (hp' : p = P n) :
    RowsRead M f1 P (View.write (Elt F) (rowM M n h hp).view g p Finset.univ) (n + 1) := by
  intro r' k
  rw [read_write_row M ⟨n, hn⟩ h hp g p r' k]
  subst hp'
  by_cases e : r' = ⟨n, hn⟩
  · subst e; rw [if_pos rfl, if_pos (Nat.lt_succ_self _)]
  · have hne : r'.val ≠ n := fun h' => e (Fin.ext h')
    rw [if_neg e, hr r' k]
    by_cases hlt : r'.val < n
    · rw [if_pos hlt, if_pos (Nat.lt_succ_of_lt hlt)]
    · rw [if_neg hlt, if_neg (by omega)]

/-- The table of rows as one read share per transfer cell, and what is left of the full share. -/
abbrev hbToks (c : Dev nD) (f : HbBuf (F := F) c) : sProp 𝕄 :=
  iprop(hbTok c 0 f ∗ hbTok c 1 f ∗ hbTok c 2 f ∗ hbTok c 3 f ∗ hbTok c 4 f ∗ hbTok c 5 f ∗ hbTok c 6 f ∗ hbTok c 7 f ∗ hbTok c 8 f ∗ hbTok c 9 f ∗ hbTok c 10 f ∗ hbTok c 11 f ∗ hbTok c 12 f ∗ hbTok c 13 f ∗ hbTok c 14 f ∗ hbTok c 15 f ∗ hbTok c 16 f ∗ hbTok c 17 f)
abbrev hbDrop (c : Dev nD) (f : HbBuf (F := F) c) : sProp 𝕄 := hbM.view.loc (c : Thread nD τ) ↦{Transfers.shareDrop fullShare 18} f

theorem hb_split (c : Dev nD) (f : HbBuf (F := F) c) : hbPt c f ⊣⊢ iprop(hbDrop c f ∗ hbToks c f) := by
  refine (Transfers.pointsTo_toks_range (Ix := Unit) (Name := ℕ) (U := Pipeline.UD sig nD τ) (Lvl := ℕ) fullShare 18).trans ?_
  rw [BI.bigSep_eq_bigSepL_of_eq [0, 1, 2, 3, 4, 5, 6, 7, 8, 9, 10, 11, 12, 13, 14, 15, 16, 17] (by decide) (by decide)]
  exact .rfl

end Cert.KernelIdeal.Hand

end
-- ==== Proof.KIdealRun.lean ====
/-
  The run of the gather kernel's body at one grid point. The 128 copies go in eight rounds of sixteen: each copy
  lends one row of the table (held as one read share per transfer cell, so that sixteen copies read it at once) and lands
  in one row of the output block, whose other rows stay in hand; the sixteen are waited for before the next round starts,
  so between rounds the block is whole again, the cells are at zero and the table's shares are back: a round starts from
  the state the first one started from, but for the block's contents, which after round `j` are the first `16·(j+1)`
  rows written in order over what the block held; what those contents read is followed round by round (`RowsRead`:
  sixteen more rows each time). After the eighth round every row reads the table row its word names.
-/
import proofs.«408429_j14147622273767_1_alg».proof.Proof.KIdealPay

set_option maxRecDepth 65536

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option sl_exec.dmaWindow true in
set_option sl_exec.dmaWindowSet true in
set_option sl_exec.rejoinHeartbeats 400000 in
set_option sl_exec.stepHeartbeats 400000 in
set_option maxHeartbeats 400000000 in
/-- The body at grid point `i` on a whole staging buffer at contents `f1`: from the index table's read share (every
    word it reads below the number of table rows), the sixteen cells at zero, the table of rows whole and what the core
    owes, it runs to its end with the staging buffer at contents that read, in every row `r`, the table row word `r` names
    (`RowsRead`), and everything else as it was. -/
theorem kernel_run (c : Dev nD) (i : grid0.Coords) (arg3 : Memref sig .tc .vmem S128x1024 .f32) (harg3 : arg3.IsWhole)
    (tb : TbBuf (F := F) c) (fh : HbBuf (F := F) c) (f1 : Buf (Elt F) (arg3.view.loc (c : Thread nD τ)))
    (hidx : ∀ (B : LoadRect S16384) (y : B.shape.Idx), BitVec.toNat (tbM.view.readAt (Elt F) B tb y) < 50257)
    (W : Waits sig Unit) (K : PUnit → sProp 𝕄) :
    iprop((arg3.view.loc (c : Thread nD τ) ↦[arg3.view.set]{fullShare} f1) ∗ tbPt c tb ∗ sems0 c ∗ hbPt c fh ∗ owes (c : Thread nD τ) 0 W
        ∗ (iprop((∃ G, ⌜RowsRead arg3 f1 (payW c i tb fh hidx) G 128⌝ ∗ (arg3.view.loc (c : Thread nD τ) ↦[arg3.view.set]{fullShare} G))
            ∗ tbPt c tb ∗ sems0 c ∗ hbPt c fh ∗ (∃ W', owes (c : Thread nD τ) 0 W')) -∗ K ⟨⟩))
      ⊢ wp frame (wpE (defs₀ (F := F)) Variants.none c none) Set.univ
          (cc0__gather_kernel (F := F) i tbM (Memref.isWhole_whole _) hbM (Memref.isWhole_whole _) arg3 harg3 cc0_scratch0) K := by
    simp only [cc0__gather_kernel_eq_skeleton]; unfold cc0__gather_kernel_skel
    iintro ⟨H1, HT, ⟨Hq2, Hq3, Hq4, Hq5, Hq6, Hq7, Hq8, Hq9, Hq10, Hq11, Hq12, Hq13, Hq14, Hq15, Hq16, Hq17⟩, HH, HW, Hk⟩
    ihave HH' := (hb_split c fh).1 $$ HH
    icases HH' with ⟨HD, ⟨Ht0, Ht1, Ht2, Ht3, Ht4, Ht5, Ht6, Ht7, Ht8, Ht9, Ht10, Ht11, Ht12, Ht13, Ht14, Ht15, Ht16, Ht17⟩⟩
    -- rows 0–15: sixteen copies started, then all sixteen waited for
    sl_exec (disch := ((first | guard_target = k0_chk1 _ | guard_target = k0_chk2 _ | guard_target = k0_chk3 _ | guard_target = k0_chk4 _ | guard_target = k0_chk5 _ | guard_target = k0_chk6 _ | guard_target = k0_chk7 _ | guard_target = k0_chk8 _ | guard_target = k0_chk9 _ | guard_target = k0_chk10 _ | guard_target = k0_chk11 _ | guard_target = k0_chk12 _ | guard_target = k0_chk13 _ | guard_target = k0_chk14 _ | guard_target = k0_chk15 _ | guard_target = k0_chk16 _); exact chk_of_lt _ (hidx _ _)))
    generalize hg0 : View.write (Elt F) ((arg3.slice (Rect.unit (s := S128x1024) ![15, 0] S1x1024.size inb_S128x1024_S1x1024_15_0) _).squeeze S1024 squeezes_S1x1024_S1024).view _ _ Finset.univ = g0
    have hr0 : RowsRead arg3 f1 (payW c i tb fh hidx) g0 16 := by
      rw [← hg0]
      iterate 16 (refine rows_step ?_ (by omega) _ _ _ rfl)
      exact rows_zero arg3 f1 _
    -- rows 16–31: sixteen copies started, then all sixteen waited for
    sl_exec (disch := ((first | guard_target = k0_chk17 _ | guard_target = k0_chk18 _ | guard_target = k0_chk19 _ | guard_target = k0_chk20 _ | guard_target = k0_chk21 _ | guard_target = k0_chk22 _ | guard_target = k0_chk23 _ | guard_target = k0_chk24 _ | guard_target = k0_chk25 _ | guard_target = k0_chk26 _ | guard_target = k0_chk27 _ | guard_target = k0_chk28 _ | guard_target = k0_chk29 _ | guard_target = k0_chk30 _ | guard_target = k0_chk31 _ | guard_target = k0_chk32 _); exact chk_of_lt _ (hidx _ _)))
    generalize hg1 : View.write (Elt F) ((arg3.slice (Rect.unit (s := S128x1024) ![31, 0] S1x1024.size inb_S128x1024_S1x1024_31_0) _).squeeze S1024 squeezes_S1x1024_S1024).view _ _ Finset.univ = g1
    have hr1 : RowsRead arg3 f1 (payW c i tb fh hidx) g1 32 := by
      rw [← hg1]
      iterate 16 (refine rows_step ?_ (by omega) _ _ _ rfl)
      exact hr0
    -- rows 32–47: sixteen copies started, then all sixteen waited for
    sl_exec (disch := ((first | guard_target = k0_chk33 _ | guard_target = k0_chk34 _ | guard_target = k0_chk35 _ | guard_target = k0_chk36 _ | guard_target = k0_chk37 _ | guard_target = k0_chk38 _ | guard_target = k0_chk39 _ | guard_target = k0_chk40 _ | guard_target = k0_chk41 _ | guard_target = k0_chk42 _ | guard_target = k0_chk43 _ | guard_target = k0_chk44 _ | guard_target = k0_chk45 _ | guard_target = k0_chk46 _ | guard_target = k0_chk47 _ | guard_target = k0_chk48 _); exact chk_of_lt _ (hidx _ _)))
    generalize hg2 : View.write (Elt F) ((arg3.slice (Rect.unit (s := S128x1024) ![47, 0] S1x1024.size inb_S128x1024_S1x1024_47_0) _).squeeze S1024 squeezes_S1x1024_S1024).view _ _ Finset.univ = g2
    have hr2 : RowsRead arg3 f1 (payW c i tb fh hidx) g2 48 := by
      rw [← hg2]
      iterate 16 (refine rows_step ?_ (by omega) _ _ _ rfl)
      exact hr1
    -- rows 48–63: sixteen copies started, then all sixteen waited for
    sl_exec (disch := ((first | guard_target = k0_chk49 _ | guard_target = k0_chk50 _ | guard_target = k0_chk51 _ | guard_target = k0_chk52 _ | guard_target = k0_chk53 _ | guard_target = k0_chk54 _ | guard_target = k0_chk55 _ | guard_target = k0_chk56 _ | guard_target = k0_chk57 _ | guard_target = k0_chk58 _ | guard_target = k0_chk59 _ | guard_target = k0_chk60 _ | guard_target = k0_chk61 _ | guard_target = k0_chk62 _ | guard_target = k0_chk63 _ | guard_target = k0_chk64 _); exact chk_of_lt _ (hidx _ _)))
    generalize hg3 : View.write (Elt F) ((arg3.slice (Rect.unit (s := S128x1024) ![63, 0] S1x1024.size inb_S128x1024_S1x1024_63_0) _).squeeze S1024 squeezes_S1x1024_S1024).view _ _ Finset.univ = g3
    have hr3 : RowsRead arg3 f1 (payW c i tb fh hidx) g3 64 := by
      rw [← hg3]
      iterate 16 (refine rows_step ?_ (by omega) _ _ _ rfl)
      exact hr2
    -- rows 64–79: sixteen copies started, then all sixteen waited for
    sl_exec (disch := ((first | guard_target = k0_chk65 _ | guard_target = k0_chk66 _ | guard_target = k0_chk67 _ | guard_target = k0_chk68 _ | guard_target = k0_chk69 _ | guard_target = k0_chk70 _ | guard_target = k0_chk71 _ | guard_target = k0_chk72 _ | guard_target = k0_chk73 _ | guard_target = k0_chk74 _ | guard_target = k0_chk75 _ | guard_target = k0_chk76 _ | guard_target = k0_chk77 _ | guard_target = k0_chk78 _ | guard_target = k0_chk79 _ | guard_target = k0_chk80 _); exact chk_of_lt _ (hidx _ _)))
    generalize hg4 : View.write (Elt F) ((arg3.slice (Rect.unit (s := S128x1024) ![79, 0] S1x1024.size inb_S128x1024_S1x1024_79_0) _).squeeze S1024 squeezes_S1x1024_S1024).view _ _ Finset.univ = g4
    have hr4 : RowsRead arg3 f1 (payW c i tb fh hidx) g4 80 := by
      rw [← hg4]
      iterate 16 (refine rows_step ?_ (by omega) _ _ _ rfl)
      exact hr3
    -- rows 80–95: sixteen copies started, then all sixteen waited for
    sl_exec (disch := ((first | guard_target = k0_chk81 _ | guard_target = k0_chk82 _ | guard_target = k0_chk83 _ | guard_target = k0_chk84 _ | guard_target = k0_chk85 _ | guard_target = k0_chk86 _ | guard_target = k0_chk87 _ | guard_target = k0_chk88 _ | guard_target = k0_chk89 _ | guard_target = k0_chk90 _ | guard_target = k0_chk91 _ | guard_target = k0_chk92 _ | guard_target = k0_chk93 _ | guard_target = k0_chk94 _ | guard_target = k0_chk95 _ | guard_target = k0_chk96 _); exact chk_of_lt _ (hidx _ _)))
    generalize hg5 : View.write (Elt F) ((arg3.slice (Rect.unit (s := S128x1024) ![95, 0] S1x1024.size inb_S128x1024_S1x1024_95_0) _).squeeze S1024 squeezes_S1x1024_S1024).view _ _ Finset.univ = g5
    have hr5 : RowsRead arg3 f1 (payW c i tb fh hidx) g5 96 := by
      rw [← hg5]
      iterate 16 (refine rows_step ?_ (by omega) _ _ _ rfl)
      exact hr4
    -- rows 96–111: sixteen copies started, then all sixteen waited for
    sl_exec (disch := ((first | guard_target = k0_chk97 _ | guard_target = k0_chk98 _ | guard_target = k0_chk99 _ | guard_target = k0_chk100 _ | guard_target = k0_chk101 _ | guard_target = k0_chk102 _ | guard_target = k0_chk103 _ | guard_target = k0_chk104 _ | guard_target = k0_chk105 _ | guard_target = k0_chk106 _ | guard_target = k0_chk107 _ | guard_target = k0_chk108 _ | guard_target = k0_chk109 _ | guard_target = k0_chk110 _ | guard_target = k0_chk111 _ | guard_target = k0_chk112 _); exact chk_of_lt _ (hidx _ _)))
    generalize hg6 : View.write (Elt F) ((arg3.slice (Rect.unit (s := S128x1024) ![111, 0] S1x1024.size inb_S128x1024_S1x1024_111_0) _).squeeze S1024 squeezes_S1x1024_S1024).view _ _ Finset.univ = g6
    have hr6 : RowsRead arg3 f1 (payW c i tb fh hidx) g6 112 := by
      rw [← hg6]
      iterate 16 (refine rows_step ?_ (by omega) _ _ _ rfl)
      exact hr5
    -- rows 112–127: sixteen copies started, then all sixteen waited for
    sl_exec (disch := ((first | guard_target = k0_chk113 _ | guard_target = k0_chk114 _ | guard_target = k0_chk115 _ | guard_target = k0_chk116 _ | guard_target = k0_chk117 _ | guard_target = k0_chk118 _ | guard_target = k0_chk119 _ | guard_target = k0_chk120 _ | guard_target = k0_chk121 _ | guard_target = k0_chk122 _ | guard_target = k0_chk123 _ | guard_target = k0_chk124 _ | guard_target = k0_chk125 _ | guard_target = k0_chk126 _ | guard_target = k0_chk127 _ | guard_target = k0_chk128 _); exact chk_of_lt _ (hidx _ _)))
    generalize hg7 : View.write (Elt F) ((arg3.slice (Rect.unit (s := S128x1024) ![127, 0] S1x1024.size inb_S128x1024_S1x1024_127_0) _).squeeze S1024 squeezes_S1x1024_S1024).view _ _ Finset.univ = g7
    have hr7 : RowsRead arg3 f1 (payW c i tb fh hidx) g7 128 := by
      rw [← hg7]
      iterate 16 (refine rows_step ?_ (by omega) _ _ _ rfl)
      exact hr6
    sl_step
    iapply Hk
    isplitl [H1]
    · iexists g7; isplitr
      · ipureintro; exact hr7
      · iexact H1
    isplitl [HT]; · iexact HT
    isplitl [Hq2 Hq3 Hq4 Hq5 Hq6 Hq7 Hq8 Hq9 Hq10 Hq11 Hq12 Hq13 Hq14 Hq15 Hq16 Hq17]
    ·
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      iexact Hq17
    isplitl [HD Ht0 Ht1 Ht2 Ht3 Ht4 Ht5 Ht6 Ht7 Ht8 Ht9 Ht10 Ht11 Ht12 Ht13 Ht14 Ht15 Ht16 Ht17]
    · iapply (hb_split c fh).2
      isplitl [HD]; · iexact HD
      ·
        isplitl [Ht0]; · iexact Ht0
        isplitl [Ht1]; · iexact Ht1
        isplitl [Ht2]; · iexact Ht2
        isplitl [Ht3]; · iexact Ht3
        isplitl [Ht4]; · iexact Ht4
        isplitl [Ht5]; · iexact Ht5
        isplitl [Ht6]; · iexact Ht6
        isplitl [Ht7]; · iexact Ht7
        isplitl [Ht8]; · iexact Ht8
        isplitl [Ht9]; · iexact Ht9
        isplitl [Ht10]; · iexact Ht10
        isplitl [Ht11]; · iexact Ht11
        isplitl [Ht12]; · iexact Ht12
        isplitl [Ht13]; · iexact Ht13
        isplitl [Ht14]; · iexact Ht14
        isplitl [Ht15]; · iexact Ht15
        isplitl [Ht16]; · iexact Ht16
        iexact Ht17
    iexists _; iexact HW

end Cert.KernelIdeal.Hand

end
-- ==== Proof.KIdealBody.lean ====
/-
  The gather kernel's body at one grid point, as the pipeline's obligation wants it: whatever the output block held, it
  ends holding, in row `y₀`, the table row that word `128·i + y₀` of the flattened index array names.
-/
import proofs.«408429_j14147622273767_1_alg».proof.Proof.KIdealRun

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The block the body leaves at grid point `i`: its row `y₀` is the table row that word `128·i + y₀` of the
    flattened index array names. -/
def gathered (c : Dev nD) (i : grid0.Coords) (tb : TbBuf (F := F) c) (fh : HbBuf (F := F) c) : Vec F S128x1024 .f32 :=
  fun y => fh (ValueIdx.ix2 (Cert.GatherSpec.rowOf (tb (ValueIdx.ix1 ⟨128 * (i 0).val + (y 0).val, by
    have h0 : (i 0).val < 128 := (i 0).isLt
    have h1 : (y 0).val < 128 := (y 0).isLt
    omega⟩))) (y 1))

/-- Contents whose every row reads the table row its word names read back as `gathered`, whatever the block held before. -/
theorem read_rows (c : Dev nD) (i : grid0.Coords) (arg3 : Memref sig .tc .vmem S128x1024 .f32)
    (tb : TbBuf (F := F) c) (fh : HbBuf (F := F) c) (f1 : Buf (Elt F) (arg3.view.loc (c : Thread nD τ))) (hidx)
    (G : Buf (Elt F) (arg3.view.loc (c : Thread nD τ))) (hG : RowsRead arg3 f1 (payW c i tb fh hidx) G 128) :
    arg3.view.read (Elt F) G = gathered c i tb fh := by
  funext y
  obtain ⟨r, k, rfl⟩ : ∃ (r : Fin 128) (k : Fin 1024), y = ix2 r k := ⟨y 0, y 1, eq_ix2 y⟩
  have h0 : (i 0).val < 128 := (i 0).isLt
  rw [hG r k, if_pos r.isLt, payW_apply c i tb fh hidx r.val r.isLt (by have := r.isLt; omega) k]
  rfl

/-- A word of the table read through any rectangle is an entry of the table. -/
theorem readAt_lt (c : Dev nD) (tb : TbBuf (F := F) c) (hidx : ∀ j : S16384.Idx, BitVec.toNat (tb j) < 50257)
    (B : LoadRect S16384) (y : B.shape.Idx) : BitVec.toNat (tbM.view.readAt (Elt F) B tb y) < 50257 :=
  hidx _

/-- The body at grid point `i`, on any whole staging buffer: given the index table (read only) with every word below
    the number of table rows, the sixteen cells at zero, the table of rows whole and what the core owes, it runs to its
    end with the staging buffer at `gathered`, and everything else as it was. -/
theorem body_run (c : Dev nD) (i : grid0.Coords) (arg3 : Memref sig .tc .vmem S128x1024 .f32) (harg3 : arg3.IsWhole)
    (tb : TbBuf (F := F) c) (fh : HbBuf (F := F) c)
    (hidx : ∀ j : S16384.Idx, BitVec.toNat (tb j) < 50257)
    (W : Waits sig Unit) (K : PUnit → sProp 𝕄) :
    iprop((∃ d, owns (c : Thread nD τ) arg3 fullShare d) ∗ tbPt c tb ∗ sems0 c ∗ hbPt c fh ∗ owes (c : Thread nD τ) 0 W
        ∗ (iprop(owns (c : Thread nD τ) arg3 fullShare (gathered c i tb fh) ∗ tbPt c tb ∗ sems0 c ∗ hbPt c fh
            ∗ (∃ W', owes (c : Thread nD τ) 0 W')) -∗ K ⟨⟩))
      ⊢ wp frame (wpE (defs₀ (F := F)) Variants.none c none) Set.univ
          (cc0__gather_kernel (F := F) i tbM (Memref.isWhole_whole _) hbM (Memref.isWhole_whole _) arg3 harg3 cc0_scratch0) K := by
  unfold owns
  iintro ⟨⟨%d1, %f1, -, H1⟩, HT, HS, HH, HW, Hk⟩
  iapply (kernel_run c i arg3 harg3 tb fh f1 (readAt_lt c tb hidx) W K)
  isplitl [H1]; · iexact H1
  isplitl [HT]; · iexact HT
  isplitl [HS]; · iexact HS
  isplitl [HH]; · iexact HH
  isplitl [HW]; · iexact HW
  iintro ⟨⟨%G, %hG, H1⟩, HT, HS, HH, HW⟩
  iapply Hk
  isplitl [H1]
  · iexists G; isplitr
    swap; · iexact H1
    ipureintro; exact read_rows c i arg3 tb fh f1 _ G hG
  isplitl [HT]; · iexact HT
  isplitl [HS]; · iexact HS
  isplitl [HH]; · iexact HH
  iexact HW

end Cert.KernelIdeal.Hand

end
-- ==== Proof.KIdealFrame.lean ====
/-
  The gather kernel's frame: the proof data of its one pipeline (what the output block holds after the body at
  each grid point), the body obligation from the body's run, and the run of @main — every weakly fair execution
  terminates, with the output array at what the pipeline writes back and every argument unchanged.
-/
import proofs.«408429_j14147622273767_1_alg».proof.Proof.KIdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output window's current staging buffer at point `t`, as the pipeline passes it, and its wholeness. -/
abbrev ms0 (t : Fin (cfgM m).N) : Memref sig .tc .vmem S128x1024 .f32 := spec0_0.stage ((cfgM m).slots t 0)
abbrev hs0 (t : Fin (cfgM m).N) : (ms0 m t).IsWhole := hstage0_0 (((cfgM m).slots t 0).cast nbuf0_0)

/-- The body at point `t`, on what the pipeline calls it with. -/
abbrev bodyAt (t : Fin (cfgM m).N) : Prog (TpuEff nD τ sig (Elt F) Λ₀ .tc) PUnit :=
  cc0__gather_kernel (grid0.coords t) (Memref.whole main_v0) (Memref.isWhole_whole _) (Memref.whole main_arg1) (Memref.isWhole_whole _)
    (spec0_0.stage ((cfgM m).slots t 0)) (hstage0_0 (((cfgM m).slots t 0).cast nbuf0_0)) cc0_scratch0

/-- The proof data: the output array as the region finds it; after the body at point `t` the staging buffer holds
    the rows the point's 128 index words name; the invariant is the body's cells at zero, the table of rows at its
    launch contents and the index table's read share; nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => gathered c (grid0.coords t) (tbl m 0) (V m c main_arg1)
  Φ _ := iprop(Pipeline.ΦD osem0 spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) :
    (dats m 0 c).after 0 t = gathered c (grid0.coords t) (tbl m 0) (V m c main_arg1) := rfl

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t))

/-- The body at any point, given that every word of the index table is below the number of table rows: the invariant
    hands it the cells, the table of rows and the index table's read share and takes them back as they were. -/
theorem sound_body (hidx : ∀ j : S16384.Idx, BitVec.toNat (tbl m 0 j) < 50257) (c : Dev nD) (t : Fin (cfgM m).N) :
    bodyPre m c t ⊢ wp frame (wpE (defs₀ (F := F)) Variants.none c none) Set.univ (bodyAt m t) (fun _ => bodyPost m c t) := by
  unfold bodyPre bodyPost bodyAt
  rw [show (dats m 0 c).Φ t.succ = (dats m 0 c).Φ t.castSucc from rfl, after0]
  rw [show (dats m 0 c).Φ t.castSucc = iprop(Pipeline.ΦD osem0 spec0 H0 (V m) c ∗ Pipeline.ΦT pre0 (tbl m) c) from rfl, PhiD_eq, PhiT_eq]
  unfold Dat.owesAt Pipeline.owesWithin
  rw [show (dats m 0 c).owed t.castSucc = 0 from rfl, show (dats m 0 c).owed t.succ = 0 from rfl]
  iintro ⟨⟨⟨HE, Hg, HS, HH⟩, HT⟩, ⟨%W, -, HW⟩, ⟨%d0, H0⟩⟩
  iapply (body_run c (grid0.coords t) _ _ (tbl m 0) (V m c main_arg1) hidx W _)
  isplitl [H0]; · iexists _; iexact H0
  isplitl [HT]; · iexact HT
  isplitl [HS]; · iexact HS
  isplitl [HH]; · iexact HH
  isplitl [HW]; · iexact HW
  iintro ⟨H0, HT, HS, HH, ⟨%W', HW'⟩⟩
  isplitl [HE Hg HS HH HT]
  · isplitr [HT]
    · isplitl [HE]; · iexact HE
      isplitl [Hg]; · iexact Hg
      isplitl [HS]; · iexact HS
      iexact HH
    iexact HT
  isplitl [HW']
  · iexists W'; isplitr; · ipureintro; exact fun _ _ => Or.inl trivial
    iexact HW'
  iexact H0

set_option maxRecDepth 65536 in
/-- The library's body obligation, at every point. -/
theorem body_obligation (hidx : ∀ j : S16384.Idx, BitVec.toNat (tbl m 0 j) < 50257) (c : Dev nD) :
    BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt m t) (fun _ => bodyPost m c t)
  exact sound_body m hidx c t

set_option backward.isDefEq.respectTransparency.types false in
/-- From any memory with zero counters whose index words are all below the number of table rows: every weakly fair execution
    of @main terminates, the output array holds what the pipeline computes from the proof data, and every other
    buffer what the line after the region leaves. -/
theorem run_main (hidx : ∀ j : S16384.Idx, BitVec.toNat (tbl m 0 j) < 50257) :
    θ_run defs (onTc (τ := τ) (main (F := F))) (s₀ m ρ)
      (Pipeline.FramePost (Pipeline.pin pcfgs fun _ => adm m) (dats m) 0
        (Pipeline.afterTail pcfgs (fun _ => adm m) (dats m) 0 (V0 m) [hostOps1])) :=
  Pipeline.θ_run_frameP_dma_around pcfgs (fun _ => adm m) (dats m) (0 : Fin 1) launch0 osem0 defs₀ Variants.none ownSemFacts0 H0 H0_sub m ρ main
    (hbody := fun c => (body_obligation m hidx c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m)
    (hin := fun _ => .rfl) (hout := fun c => by
      show iprop(Pipeline.ΦD osem0 spec0 H0 (V m) c ∗ Pipeline.ΦT pre0 (tbl m) c) ⊢ _
      iintro ⟨H, -⟩; iexact H)

end Cert.KernelIdeal.Hand

end
-- ==== Proof.KIdealValue.lean ====
/-
  The gather kernel's result as a row lookup: what the pipeline writes back, block by block, is one whole-array
  function of the arguments; the blocks tile the output array; the line after the region re-lays it.
-/
import proofs.«408429_j14147622273767_1_alg».proof.Proof.KIdealFrame
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- The line before the region writes neither argument: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- Nor does the line after it: they end as launched. -/
theorem W_main_arg0 (c : Dev nD) :
    Pipeline.afterTail pcfgs (fun _ => adm m) (dats m) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.reshape_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (c : Dev nD) :
    Pipeline.afterTail pcfgs (fun _ => adm m) (dats m) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.reshape_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- The index table read at a word: the index array at the word's row-major position. -/
theorem tbl_apply (j : Fin 16384) :
    tbl m 0 (ValueIdx.ix1 j)
      = m (((0 : Dev nD) : Thread nD τ).loc main_arg0) (ValueIdx.ix2 (⟨j.val / 4096, by omega⟩ : Fin 4) (⟨j.val % 4096, Nat.mod_lt _ (by decide)⟩ : Fin 4096)) := by
  have e : (tbl m 0 : S16384.Idx → BitVec 32)
      = shapeCast S16384 (m (((0 : Dev nD) : Thread nD τ).loc main_arg0) : S4x4096.Idx → BitVec 32) shapeCasts_S4x4096_S16384 := by
    unfold tbl
    show V m 0 main_v0 = _
    dsimp only [V, V0]
    simp only [hostOps0, List.flatten_cons, List.flatten_nil, List.append_nil]
    after_results
    rfl
  rw [e]
  refine shapeCast_apply (s := S4x4096) (t := S16384) _ _ _ _ ?_
  show (S4x4096.rowMajor _).val = (S16384.rowMajor _).val
  rw [Shape.rowMajor_val_two, Shape.rowMajor_val_one]
  show (j.val / 4096) * 4096 + j.val % 4096 = j.val
  omega

/-- The index table the region reads is the index array flattened: if every index word is below the number of table
    rows, so is every word of the table. -/
theorem tbl_lt (h : ∀ (c : Dev nD) (j : S4x4096.Idx), BitVec.toNat (m ((c : Thread nD τ).loc main_arg0) j) < 50257) :
    ∀ j : S16384.Idx, BitVec.toNat (tbl m 0 j) < 50257 := by
  intro j
  obtain ⟨a, rfl⟩ : ∃ a : Fin 16384, j = ValueIdx.ix1 a := ⟨j 0, ValueIdx.eq_ix1 j⟩
  rw [tbl_apply]
  exact h 0 _

/-! ## From blocks to the array -/

/-- The output array as ONE function of the arguments: its row `r` is the table row that word `r` of the flattened
    index array names. -/
def Garr (c : Dev nD) : S16384x1024.Idx → Elt F .f32 := fun i =>
  (V m c main_arg1 : S50257x1024.Idx → Elt F .f32)
    (ValueIdx.ix2 (n0 := 50257) (n1 := 1024) (Cert.GatherSpec.rowOf (tbl m 0 (ValueIdx.ix1 (n := 16384) (i 0)))) (i 1))

theorem Garr_apply (c : Dev nD) (r : Fin 16384) (k : Fin 1024) :
    Garr m c (ValueIdx.ix2 r k)
      = (V m c main_arg1 : S50257x1024.Idx → Elt F .f32) (ValueIdx.ix2 (Cert.GatherSpec.rowOf (tbl m 0 (ValueIdx.ix1 r))) k) := rfl

/-- The output window is written back at every grid point. -/
theorem flush_all : ∀ t : Fin (cfgM m).N, ((cfgM m).win 0).flush t = true :=
  (by decide +kernel : ∀ t : Fin grid0.N, Pipeline.Window.flushOf grid0 true cc0_transform_1 t = true)

/-- Point `t`'s grid coordinate is `t` and its block index is (t, 0). -/
theorem idx_facts : ∀ t : Fin (cfgM m).N, (grid0.coords t 0).val = t.val
    ∧ ((cfgM m).win 0).index t (0 : Fin 2) = t.val ∧ ((cfgM m).win 0).index t (1 : Fin 2) = 0 :=
  (by decide +kernel : ∀ t : Fin grid0.N, (grid0.coords t 0).val = t.val
    ∧ cc0_transform_1 (grid0.coords t) (0 : Fin 2) = t.val ∧ cc0_transform_1 (grid0.coords t) (1 : Fin 2) = 0)

/-- One entry of the block the body leaves at a point is the entry of the whole-array function under it. -/
theorem gathered_apply (c : Dev nD) (i : grid0.Coords) (p : Fin 128) (q : Fin 1024) (r : Fin 16384)
    (hr : r.val = 128 * (i 0).val + p.val) :
    gathered c i (tbl m 0) (V m c main_arg1) (ValueIdx.ix2 p q) = Garr m c (ValueIdx.ix2 r q) := by
  have h0 : (i 0).val < 128 := (i 0).isLt
  have e : r = ⟨128 * (i 0).val + p.val, by omega⟩ := Fin.ext hr
  rw [Garr_apply, e]
  rfl

/-- The same at any two indices whose coordinates are so related. -/
theorem gathered_at (c : Dev nD) (i : grid0.Coords) (y : S128x1024.Idx) (k : S16384x1024.Idx)
    (hk0 : (k 0).val = 128 * (i 0).val + (y 0).val) (hk1 : (k 1).val = (y 1).val) :
    gathered c i (tbl m 0) (V m c main_arg1) y = Garr m c k := by
  obtain ⟨p, q, rfl⟩ : ∃ (p : Fin 128) (q : Fin 1024), y = ValueIdx.ix2 p q := ⟨y 0, y 1, ValueIdx.eq_ix2 y⟩
  obtain ⟨r, q', rfl⟩ : ∃ (r : Fin 16384) (q' : Fin 1024), k = ValueIdx.ix2 r q' := ⟨k 0, k 1, ValueIdx.eq_ix2 k⟩
  obtain rfl : q' = q := Fin.ext hk1
  exact gathered_apply m c i p q' r hk0

/-- WHAT POINT `t` WRITES BACK is block `t` of the whole-array function. -/
theorem flushed_eq (c : Dev nD) (t : Fin (cfgM m).N) :
    (dats m 0 c).flushed 0 t = (((cfgM m).win 0).blk t).view.read (Elt F) (Garr m c) := by
  show ((cfgM m).win 0).cut (grid0.coords t) ((dats m 0 c).after 0 t) = _
  rw [after0]
  obtain ⟨e0, e1, e2⟩ := idx_facts m t
  funext y
  show gathered c (grid0.coords t) (tbl m 0) (V m c main_arg1) (((cfgM m).win 0).xinj (grid0.coords t) y)
    = Garr m c ((((cfgM m).win 0).blk t).view.emb y)
  refine gathered_at m c (grid0.coords t) _ _ ?_ ?_
  · show ((cfgM m).win 0).index t (0 : Fin 2) * 128 + 1 * (y (0 : Fin 2)).val = 128 * (grid0.coords t 0).val + (y (0 : Fin 2)).val
    rw [e0, e1]; omega
  · show ((cfgM m).win 0).index t (1 : Fin 2) * 1024 + 1 * (y (1 : Fin 2)).val = (y (1 : Fin 2)).val
    rw [e2]; omega

/-- An index of the array is in point `t`'s block iff each coordinate is in the block's range on its axis. -/
theorem mem_blk (t : Fin (cfgM m).N) (i : S16384x1024.Idx) :
    i ∈ (((cfgM m).win 0).blk t).view.set ↔ ∀ a : Fin 2, ((cfgM m).win 0).index t a * S128x1024.size a ≤ (i a).val
      ∧ (i a).val < ((cfgM m).win 0).index t a * S128x1024.size a + S128x1024.size a := by
  have h : (((cfgM m).win 0).blk t).view.set = (((cfgM m).win 0).rect t).set := View.set_slice_whole main_v1 _
  exact (Eq.to_iff (congrArg (fun s => i ∈ s) h)).trans Rect.mem_set_unit

/-- The blocks tile the array: row `r` is in the block of point `r / 128`. -/
theorem cover (i : S16384x1024.Idx) :
    ∃ t : Fin (cfgM m).N, ((cfgM m).win 0).flush t = true ∧ i ∈ (((cfgM m).win 0).blk t).view.set := by
  have hi0 : (i 0).val < 16384 := (i 0).isLt
  have hi1 : (i 1).val < 1024 := (i 1).isLt
  have hN : (cfgM m).N = 128 := N_0
  have ht : (i 0).val / 128 < (cfgM m).N := by rw [hN]; omega
  obtain ⟨-, e1, e2⟩ := idx_facts m ⟨(i 0).val / 128, ht⟩
  refine ⟨⟨(i 0).val / 128, ht⟩, flush_all m _, ?_⟩
  rw [mem_blk]
  intro a
  match a with
  | ⟨0, _⟩ =>
    show ((cfgM m).win 0).index ⟨(i 0).val / 128, ht⟩ (0 : Fin 2) * 128 ≤ (i 0).val
      ∧ (i 0).val < ((cfgM m).win 0).index ⟨(i 0).val / 128, ht⟩ (0 : Fin 2) * 128 + 128
    rw [e1]; show (i 0).val / 128 * 128 ≤ (i 0).val ∧ (i 0).val < (i 0).val / 128 * 128 + 128; omega
  | ⟨1, _⟩ =>
    show ((cfgM m).win 0).index ⟨(i 0).val / 128, ht⟩ (1 : Fin 2) * 1024 ≤ (i 1).val
      ∧ (i 1).val < ((cfgM m).win 0).index ⟨(i 0).val / 128, ht⟩ (1 : Fin 2) * 1024 + 1024
    rw [e2]; omega

/-- THE ARRAY after the region: the whole-array function. -/
theorem final (c : Dev nD) : (dats m 0 c).arrAt 0 (cfgM m).N = Garr m c :=
  (dats m 0 c).arrAt_eq_of_cover 0 (Garr m c) (fun t _ => flushed_eq m c t) (cover m)

/-- The index array's word under word `4096·b + s` of the table is its entry (b, s). -/
theorem tbl_at (b : Fin 4) (s : Fin 4096) (r : Fin 16384) (hr : r.val = 4096 * b.val + s.val) :
    tbl m 0 (ValueIdx.ix1 r) = m (((0 : Dev nD) : Thread nD τ).loc main_arg0) (ValueIdx.ix2 b s) := by
  rw [tbl_apply]
  have hb : (⟨r.val / 4096, by omega⟩ : Fin 4) = b := Fin.ext (by show r.val / 4096 = b.val; omega)
  have hs : (⟨r.val % 4096, Nat.mod_lt _ (by decide)⟩ : Fin 4096) = s := Fin.ext (by show r.val % 4096 = s.val; omega)
  rw [hb, hs]

/-- The line after the region re-lays the output array: its entry (b, s, k) is entry (4096·b + s, k) of the array. -/
theorem tail_eq (c : Dev nD) :
    (Pipeline.afterTail pcfgs (fun _ => adm m) (dats m) 0 (V0 m) [hostOps1] c main_v2 : S4x4096x1024.Idx → Elt F .f32)
      = shapeCast S4x4096x1024 (Garr m c) shapeCasts_S16384x1024_S4x4096x1024 := by
  unfold Pipeline.afterTail
  simp only [List.flatten_cons, List.flatten_nil, List.append_nil]
  show StableHlo.after hostOps1 _ (Proc.devRef .tc main_v2) = _
  after_results
  have h : Pipeline.withArrays (Pipeline.pin pcfgs (fun _ => adm m) 0).spec c (V0 m c)
      (fun w => (dats m 0 c).arrAt w (Pipeline.pin pcfgs (fun _ => adm m) 0).N) (Proc.devRef .tc main_v1) = Garr m c :=
    (Pipeline.withArrays_arr spec0 (launch0 (F := F)).win.arr_inj c _ _ 0).trans (final m c)
  exact congrArg (fun g : S16384x1024.Idx → Elt F .f32 => shapeCast S4x4096x1024 g shapeCasts_S16384x1024_S4x4096x1024) h

/-- THE RESULT: after the line that follows the region, the result array is the row lookup of the arguments. -/
theorem result_eq (c : Dev nD) :
    Pipeline.afterTail pcfgs (fun _ => adm m) (dats m) 0 (V0 m) [hostOps1] c main_v2
      = Cert.GatherSpec.lookup (m ((c : Thread nD τ).loc main_arg1)) (m ((c : Thread nD τ).loc main_arg0)) := by
  refine (tail_eq m c).trans ?_
  funext j
  obtain ⟨b, s, k, rfl⟩ : ∃ (b : Fin 4) (s : Fin 4096) (k : Fin 1024), j = ValueIdx.ix3 b s k :=
    ⟨j 0, j 1, j 2, ValueIdx.eq_ix3 j⟩
  rw [Cert.GatherSpec.lookup_apply]
  refine (shapeCast_apply (s := S16384x1024) (t := S4x4096x1024) _ _ _
    (ValueIdx.ix2 (⟨4096 * b.val + s.val, by omega⟩ : Fin 16384) k) ?_).trans ?_
  · show (S16384x1024.rowMajor _).val = (S4x4096x1024.rowMajor _).val
    rw [Shape.rowMajor_val_two, Shape.rowMajor_val_three]
    show (4096 * b.val + s.val) * 1024 + k.val = (b.val * 4096 + s.val) * 1024 + k.val
    omega
  · rw [Garr_apply, tbl_at m b s _ rfl, V_main_arg1]
    obtain rfl : c = 0 := Subsingleton.elim _ _
    rfl

end Cert.KernelIdeal.Hand

end
-- ==== Proof.lean ====
/-
  A row gather, `out[b, s, :] = table[idx[b, s], :]`, as a kernel that copies each row by its own transfer into the
  output block (128 rows per grid point, sixteen transfers in flight at a time), against `jnp.take`.

  The statement is read under the precondition that the table is finite and every index lies in `[0, 50257)`, the table's
  rows: outside that range the reference itself indexes out of the table (it wraps a negative index and fills an
  out-of-range row with NaN), and the kernel's copy has no row to read. Under it both programs compute the row lookup
  `Cert.GatherSpec.lookup`, a pure re-arrangement of the table's entries: nothing here depends on what a float is, so the
  kernel's frame is proved once for any float instance and read at the word level and at the extended reals, and the two
  results agree entry by entry.

  The kernel side: the body's run (each of the 128 copies lends one row of the table and lands in one row of the
  output block; all are waited for before the point ends), the pipeline's proof data and run, and the output array as
  one function of the arguments. The reference side: its run, and `jnp.take`'s in-range branch read at an index.
-/
import proofs.«408429_j14147622273767_1_alg».proof.Defs
import proofs.«408429_j14147622273767_1_alg».proof.Proof.Gen.Kernel
import proofs.«408429_j14147622273767_1_alg».proof.Proof.Gen.KernelIdeal
import proofs.«408429_j14147622273767_1_alg».proof.Proof.Gen.ReferenceIdeal
import proofs.«408429_j14147622273767_1_alg».proof.Proof.Gen.Pre_finite_inputs
import proofs.«408429_j14147622273767_1_alg».proof.Proof.IdxRange
import proofs.«408429_j14147622273767_1_alg».proof.Proof.RefRun
import proofs.«408429_j14147622273767_1_alg».proof.Proof.KValue
import proofs.«408429_j14147622273767_1_alg».proof.Proof.KIdealValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ hpre =>
    (θ_run (Cert.Kernel.defs (F := Bits)) _ _).mono
      (fun _ h c => ⟨((h c).2 Cert.Kernel.main_arg0 (Pipeline.mem_restRefs_of (win := Cert.Kernel.spec0) Cert.Kernel.main_arg0 (by decide) (by decide))).trans (Cert.Kernel.Hand.W_main_arg0 m c),
        ((h c).2 Cert.Kernel.main_arg1 (Pipeline.mem_restRefs_of (win := Cert.Kernel.spec0) Cert.Kernel.main_arg1 (by decide) (by decide))).trans (Cert.Kernel.Hand.W_main_arg1 m c)⟩)
      (Cert.Kernel.Hand.run_main m ρ (Cert.Kernel.Hand.tbl_lt m fun c => Cert.IdxRange.idx_lt _ _ (hpre c)))

/-- So does the kernel read over the extended reals. -/
theorem frame_ki : Cert.frame_KernelIdeal (hKernelIdeal := Cert.KernelIdeal.Gen.facts) (hPre_finite_inputs := Cert.Pre_finite_inputs.Gen.facts) :=
  fun m ρ hpre =>
    (θ_run (Cert.KernelIdeal.defs (F := Ideal)) _ _).mono
      (fun _ h c => ⟨((h c).2 Cert.KernelIdeal.main_arg0 (Pipeline.mem_restRefs_of (win := Cert.KernelIdeal.spec0) Cert.KernelIdeal.main_arg0 (by decide) (by decide))).trans (Cert.KernelIdeal.Hand.W_main_arg0 m c),
        ((h c).2 Cert.KernelIdeal.main_arg1 (Pipeline.mem_restRefs_of (win := Cert.KernelIdeal.spec0) Cert.KernelIdeal.main_arg1 (by decide) (by decide))).trans (Cert.KernelIdeal.Hand.W_main_arg1 m c)⟩)
      (Cert.KernelIdeal.Hand.run_main m ρ (Cert.KernelIdeal.Hand.tbl_lt m fun c => Cert.IdxRange.idx_lt _ _ (hpre c)))

/-- The reference runs and leaves its arguments unchanged. -/
theorem frame_ri : Cert.frame_ReferenceIdeal (hReferenceIdeal := Cert.ReferenceIdeal.Gen.facts) (hPre_finite_inputs := Cert.Pre_finite_inputs.Gen.facts) :=
  fun m ρ hpre =>
    (θ_run (Cert.ReferenceIdeal.defs (F := Ideal)) _ _).mono (fun _ h c => (h c).2)
      (Cert.ReferenceIdeal.RefRun.run_lookup m ρ fun c => Cert.IdxRange.idx_lt _ _ (hpre c))

/-- From memories agreeing on the arguments both programs end with the row lookup of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hlt : ∀ (c : Dev Cert.KernelIdeal.nD) j, BitVec.toNat (m ((c.tc : Thread Cert.KernelIdeal.nD Cert.KernelIdeal.τ).loc Cert.KernelIdeal.main_arg0) j) < 50257 :=
    fun c => Cert.IdxRange.idx_lt _ _ (hpre c)
  refine ⟨fun c => Cert.GatherSpec.lookup (m ((c.tc : Thread Cert.KernelIdeal.nD Cert.KernelIdeal.τ).loc Cert.KernelIdeal.main_arg1))
      (m ((c.tc : Thread Cert.KernelIdeal.nD Cert.KernelIdeal.τ).loc Cert.KernelIdeal.main_arg0)), ?_, ?_⟩
  · exact (θ_run (Cert.KernelIdeal.defs (F := Ideal)) _ _).mono
      (fun _ h c => ⟨((h c).2 Cert.KernelIdeal.main_v2 (Pipeline.mem_restRefs_of (win := Cert.KernelIdeal.spec0) Cert.KernelIdeal.main_v2 (by decide) (by decide))).trans (Cert.KernelIdeal.Hand.result_eq m c),
        ((h c).2 Cert.KernelIdeal.main_arg0 (Pipeline.mem_restRefs_of (win := Cert.KernelIdeal.spec0) Cert.KernelIdeal.main_arg0 (by decide) (by decide))).trans (Cert.KernelIdeal.Hand.W_main_arg0 m c),
        ((h c).2 Cert.KernelIdeal.main_arg1 (Pipeline.mem_restRefs_of (win := Cert.KernelIdeal.spec0) Cert.KernelIdeal.main_arg1 (by decide) (by decide))).trans (Cert.KernelIdeal.Hand.W_main_arg1 m c)⟩)
      (Cert.KernelIdeal.Hand.run_main m ρ (Cert.KernelIdeal.Hand.tbl_lt m hlt))
  · refine (θ_run (Cert.ReferenceIdeal.defs (F := Ideal)) _ _).mono (fun _ h c => ⟨?_, (h c).2⟩)
      (Cert.ReferenceIdeal.RefRun.run_lookup m' ρ' fun c j => by rw [(hagree c).1]; exact hlt c j)
    rw [(h c).1, (hagree c).1, (hagree c).2]

/-- The five claims. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
